-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1200000 : Shape := ⟨2, ![2, 1200000]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1200000 : S_.BroadcastsInDim S1200000 (![] : Fin 0 → Fin S1200000.rank)
  reducesTo_S1200000_S_d0 : S1200000.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S192x40 : S_.BroadcastsInDim S192x40 (![] : Fin 0 → Fin S192x40.rank)
  reducesTo_S192x40_S_d0_1 : S192x40.ReducesTo [0, 1] S_
  bcast_S_S40 : S_.BroadcastsInDim S40 (![] : Fin 0 → Fin S40.rank)
  reducesTo_S40_S_d0 : S40.ReducesTo [0] S_
  bcast_S_S2x1200000 : S_.BroadcastsInDim S2x1200000 (![] : Fin 0 → Fin S2x1200000.rank)
  reducesTo_S2x1200000_S_d0_1 : S2x1200000.ReducesTo [0, 1] S_

variable [Facts]

def fn_part4 {F : FTy → Type} [FloatOps F] (main_v63 : IVec S_ 1) (main_v65 : IVec S2x1200000 1) (main_v67 : IVec S2x1200000 1) : IVec S_ 1 :=
  let main_v68 : IVec S2x1200000 1 := andi main_v65 main_v67
  let main_c_26 : IVec S_ 1 := constantI S_ 1 1#1
  let main_v69 : IVec S_ 1 := (fun x v => Host.reduce IntOp.andi x v reducesTo_S2x1200000_S_d0_1 h_S_) main_v68 main_c_26
  let main_v70 : IVec S_ 1 := andi main_v63 main_v69
  main_v70

def fn_part3 {F : FTy → Type} [FloatOps F] (main_arg1 : IVec S2x1200000 32) (main_arg12 : FVec F S192x40 .f32) (main_arg13 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S192x40 .f32 := Host.absf main_arg12
  let main_cst_20 : FVec F S_ .f32 := constant S_ .f32 0x7F800000#32
  let main_v55 : FVec F S192x40 .f32 := broadcastInDim S192x40 ![] bcast_S_S192x40 main_cst_20
  let main_v56 : IVec S192x40 1 := cmpf .olt main_v54 main_v55
  let main_c_21 : IVec S_ 1 := constantI S_ 1 1#1
  let main_v57 : IVec S_ 1 := (fun x v => Host.reduce IntOp.andi x v reducesTo_S192x40_S_d0_1 h_S_) main_v56 main_c_21
  let main_v58 : IVec S_ 1 := andi main_v53 main_v57
  let main_v59 : FVec F S40 .f32 := Host.absf main_arg13
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  let main_c_24 : IVec S_ 32 := constantI S_ 32 0#32
  let main_v64 : IVec S2x1200000 32 := broadcastInDim S2x1200000 ![] bcast_S_S2x1200000 main_c_24
  let main_v65 : IVec S2x1200000 1 := cmpi .sge main_arg1 main_v64
  let main_c_25 : IVec S_ 32 := constantI S_ 32 50000#32
  let main_v66 : IVec S2x1200000 32 := broadcastInDim S2x1200000 ![] bcast_S_S2x1200000 main_c_25
  let main_v67 : IVec S2x1200000 1 := cmpi .slt main_arg1 main_v66
  fn_part4 (F := F) main_v63 main_v65 main_v67

def fn_part2 {F : FTy → Type} [FloatOps F] (main_arg1 : IVec S2x1200000 32) (main_arg8 : FVec F S64 .f32) (main_arg9 : FVec F S64x64 .f32) (main_arg10 : FVec F S64x64 .f32) (main_arg11 : FVec F S64 .f32) (main_arg12 : FVec F S192x40 .f32) (main_arg13 : FVec F S40 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg1 main_arg12 main_arg13 main_v48 main_v49 main_v50

def fn_part1 {F : FTy → Type} [FloatOps F] (main_arg1 : IVec S2x1200000 32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S192x40 .f32) (main_arg13 : FVec F S40 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg1 main_arg8 main_arg9 main_arg10 main_arg11 main_arg12 main_arg13 main_v33

def fn {F : FTy → Type} [FloatOps F] (main_arg0 : FVec F S50000x128 .f32) (main_arg1 : IVec S2x1200000 32) (main_arg2 : FVec F S1200000 .f32) (main_arg3 : FVec F S128x64 .f32) (main_arg4 : FVec F S128x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64 .f32) (main_arg12 : FVec F S192x40 .f32) (main_arg13 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1200000 .f32 := Host.absf main_arg2
  let main_cst_0 : FVec F S_ .f32 := constant S_ .f32 0x7F800000#32
  let main_v5 : FVec F S1200000 .f32 := broadcastInDim S1200000 ![] bcast_S_S1200000 main_cst_0
  let main_v6 : IVec S1200000 1 := cmpf .olt main_v4 main_v5
  let main_c_1 : IVec S_ 1 := constantI S_ 1 1#1
  let main_v7 : IVec S_ 1 := (fun x v => Host.reduce IntOp.andi x v reducesTo_S1200000_S_d0 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_arg10 main_arg11 main_arg12 main_arg13 main_v13 main_v16
-- ==== Kernel.lean ====
abbrev S50000x128 : Shape := ⟨2, ![50000, 128]⟩
abbrev S2x1200000 : Shape := ⟨2, ![2, 1200000]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x1200000 : Shape := ⟨2, ![1, 1200000]⟩
abbrev S_ : Shape := ⟨0, ![]⟩
abbrev S50000 : Shape := ⟨1, ![50000]⟩
abbrev S1200000x1 : Shape := ⟨2, ![1200000, 1]⟩
abbrev S50000x1 : Shape := ⟨2, ![50000, 1]⟩
abbrev S1200000x128 : Shape := ⟨2, ![1200000, 128]⟩
abbrev S1x64 : Shape := ⟨2, ![1, 64]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S1200000x64 : Shape := ⟨2, ![1200000, 64]⟩
abbrev S64x40 : Shape := ⟨2, ![64, 40]⟩
abbrev S1x40 : Shape := ⟨2, ![1, 40]⟩
abbrev S50000x40 : Shape := ⟨2, ![50000, 40]⟩
abbrev S5000x40 : Shape := ⟨2, ![5000, 40]⟩
abbrev S5000 : Shape := ⟨1, ![5000]⟩

abbrev nBuf : Space → Nat
  | .hbm => 99
  | .vmem => 39
  | .smem => 0
  | _ => 0

abbrev bufTy : (tb : Table) → Fin (tcTables nBuf tb) → BufTy
  | .hbm, ⟨0, _⟩ => ⟨S50000x128, .f32⟩
  | .hbm, ⟨1, _⟩ => ⟨S2x1200000, .i32⟩
  | .hbm, ⟨2, _⟩ => ⟨S1200000, .f32⟩
  | .hbm, ⟨3, _⟩ => ⟨S128x64, .f32⟩
  | .hbm, ⟨4, _⟩ => ⟨S128x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64x64, .f32⟩
  | .hbm, ⟨11, _⟩ => ⟨S64, .f32⟩
  | .hbm, ⟨12, _⟩ => ⟨S192x40, .f32⟩
  | .hbm, ⟨13, _⟩ => ⟨S40, .f32⟩
  | .hbm, ⟨14, _⟩ => ⟨S1x1200000, .i32⟩
  | .hbm, ⟨15, _⟩ => ⟨S1200000, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1200000, .i32⟩
  | .hbm, ⟨20, _⟩ => ⟨S1200000, .i32⟩
  | .hbm, ⟨21, _⟩ => ⟨S_, .i32⟩
  | .hbm, ⟨22, _⟩ => ⟨S1200000, .i32⟩
  | .hbm, ⟨23, _⟩ => ⟨S1200000, .i32⟩
  | .hbm, ⟨24, _⟩ => ⟨S1x1200000, .i32⟩
  | .hbm, ⟨25, _⟩ => ⟨S1200000, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1200000, .i32⟩
  | .hbm, ⟨30, _⟩ => ⟨S1200000, .i32⟩
  | .hbm, ⟨31, _⟩ => ⟨S_, .i32⟩
  | .hbm, ⟨32, _⟩ => ⟨S1200000, .i32⟩
  | .hbm, ⟨33, _⟩ => ⟨S1200000, .i32⟩
  | .hbm, ⟨34, _⟩ => ⟨S_, .f32⟩
  | .hbm, ⟨35, _⟩ => ⟨S1200000, .f32⟩
  | .hbm, ⟨36, _⟩ => ⟨S_, .f32⟩
  | .hbm, ⟨37, _⟩ => ⟨S50000, .f32⟩
  | .hbm, ⟨38, _⟩ => ⟨S1200000x1, .i32⟩
  | .hbm, ⟨39, _⟩ => ⟨S50000, .f32⟩
  | .hbm, ⟨40, _⟩ => ⟨S50000x1, .f32⟩
  | .hbm, ⟨41, _⟩ => ⟨S_, .i32⟩
  | .hbm, ⟨42, _⟩ => ⟨S1200000, .i32⟩
  | .hbm, ⟨43, _⟩ => ⟨S1200000, .i1⟩
  | .hbm, ⟨44, _⟩ => ⟨S_, .i32⟩
  | .hbm, ⟨45, _⟩ => ⟨S1200000, .i32⟩
  | .hbm, ⟨46, _⟩ => ⟨S1200000, .i32⟩
  | .hbm, ⟨47, _⟩ => ⟨S1200000, .i32⟩
  | .hbm, ⟨48, _⟩ => ⟨S1200000x1, .i32⟩
  | .hbm, ⟨49, _⟩ => ⟨S1200000x128, .f32⟩
  | .hbm, ⟨50, _⟩ => ⟨S1200000x1, .f32⟩
  | .hbm, ⟨51, _⟩ => ⟨S1200000x128, .f32⟩
  | .hbm, ⟨52, _⟩ => ⟨S1200000x128, .f32⟩
  | .hbm, ⟨53, _⟩ => ⟨S_, .f32⟩
  | .hbm, ⟨54, _⟩ => ⟨S50000x128, .f32⟩
  | .hbm, ⟨55, _⟩ => ⟨S1200000x1, .i32⟩
  | .hbm, ⟨56, _⟩ => ⟨S50000x128, .f32⟩
  | .hbm, ⟨57, _⟩ => ⟨S1x64, .f32⟩
  | .hbm, ⟨58, _⟩ => ⟨S50000x64, .f32⟩
  | .hbm, ⟨59, _⟩ => ⟨S_, .i32⟩
  | .hbm, ⟨60, _⟩ => ⟨S1200000, .i32⟩
  | .hbm, ⟨61, _⟩ => ⟨S1200000, .i1⟩
  | .hbm, ⟨62, _⟩ => ⟨S_, .i32⟩
  | .hbm, ⟨63, _⟩ => ⟨S1200000, .i32⟩
  | .hbm, ⟨64, _⟩ => ⟨S1200000, .i32⟩
  | .hbm, ⟨65, _⟩ => ⟨S1200000, .i32⟩
  | .hbm, ⟨66, _⟩ => ⟨S1200000x1, .i32⟩
  | .hbm, ⟨67, _⟩ => ⟨S1200000x64, .f32⟩
  | .hbm, ⟨68, _⟩ => ⟨S1200000x1, .f32⟩
  | .hbm, ⟨69, _⟩ => ⟨S1200000x64, .f32⟩
  | .hbm, ⟨70, _⟩ => ⟨S1200000x64, .f32⟩
  | .hbm, ⟨71, _⟩ => ⟨S_, .f32⟩
  | .hbm, ⟨72, _⟩ => ⟨S50000x64, .f32⟩
  | .hbm, ⟨73, _⟩ => ⟨S1200000x1, .i32⟩
  | .hbm, ⟨74, _⟩ => ⟨S50000x64, .f32⟩
  | .hbm, ⟨75, _⟩ => ⟨S1x64, .f32⟩
  | .hbm, ⟨76, _⟩ => ⟨S50000x64, .f32⟩
  | .hbm, ⟨77, _⟩ => ⟨S_, .i32⟩
  | .hbm, ⟨78, _⟩ => ⟨S1200000, .i32⟩
  | .hbm, ⟨79, _⟩ => ⟨S1200000, .i1⟩
  | .hbm, ⟨80, _⟩ => ⟨S_, .i32⟩
  | .hbm, ⟨81, _⟩ => ⟨S1200000, .i32⟩
  | .hbm, ⟨82, _⟩ => ⟨S1200000, .i32⟩
  | .hbm, ⟨83, _⟩ => ⟨S1200000, .i32⟩
  | .hbm, ⟨84, _⟩ => ⟨S1200000x1, .i32⟩
  | .hbm, ⟨85, _⟩ => ⟨S1200000x64, .f32⟩
  | .hbm, ⟨86, _⟩ => ⟨S1200000x1, .f32⟩
  | .hbm, ⟨87, _⟩ => ⟨S1200000x64, .f32⟩
  | .hbm, ⟨88, _⟩ => ⟨S1200000x64, .f32⟩
  | .hbm, ⟨89, _⟩ => ⟨S_, .f32⟩
  | .hbm, ⟨90, _⟩ => ⟨S50000x64, .f32⟩
  | .hbm, ⟨91, _⟩ => ⟨S1200000x1, .i32⟩
  | .hbm, ⟨92, _⟩ => ⟨S50000x64, .f32⟩
  | .hbm, ⟨93, _⟩ => ⟨S64x40, .f32⟩
  | .hbm, ⟨94, _⟩ => ⟨S64x40, .f32⟩
  | .hbm, ⟨95, _⟩ => ⟨S64x40, .f32⟩
  | .hbm, ⟨96, _⟩ => ⟨S1x64, .f32⟩
  | .hbm, ⟨97, _⟩ => ⟨S1x40, .f32⟩
  | .hbm, ⟨98, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x64, .f32⟩
  | .local _ .vmem, ⟨7, _⟩ => ⟨S128x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x1, .f32⟩
  | .local _ .vmem, ⟨27, _⟩ => ⟨S5000x1, .f32⟩
  | .local _ .vmem, ⟨28, _⟩ => ⟨S64x64, .f32⟩
  | .local _ .vmem, ⟨29, _⟩ => ⟨S64x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S64x40, .f32⟩
  | .local _ .vmem, ⟨34, _⟩ => ⟨S64x40, .f32⟩
  | .local _ .vmem, ⟨35, _⟩ => ⟨S64x40, .f32⟩
  | .local _ .vmem, ⟨36, _⟩ => ⟨S1x40, .f32⟩
  | .local _ .vmem, ⟨37, _⟩ => ⟨S5000x40, .f32⟩
  | .local _ .vmem, ⟨38, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_c_1 : Ref sig .tc := ⟨.hbm, 26, rfl⟩
abbrev main_c_2 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_cst_3 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_c_4 : Ref sig .tc := ⟨.hbm, 41, rfl⟩
abbrev main_v11 : Ref sig .tc := ⟨.hbm, 42, rfl⟩
abbrev main_v12 : Ref sig .tc := ⟨.hbm, 43, rfl⟩
abbrev main_c_5 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_cst_6 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_7 : Ref sig .tc := ⟨.hbm, 59, rfl⟩
abbrev main_v26 : Ref sig .tc := ⟨.hbm, 60, rfl⟩
abbrev main_v27 : Ref sig .tc := ⟨.hbm, 61, rfl⟩
abbrev main_c_8 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_9 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_c_10 : Ref sig .tc := ⟨.hbm, 77, rfl⟩
abbrev main_v41 : Ref sig .tc := ⟨.hbm, 78, rfl⟩
abbrev main_v42 : Ref sig .tc := ⟨.hbm, 79, rfl⟩
abbrev main_c_11 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_cst_12 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S64x40 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64x40 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x40 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x40 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S5000x40 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  slices_S2x1200000_S1x1200000_0_0 : S2x1200000.Slices ![0, 0] S1x1200000
  shapeCasts_S1x1200000_S1200000 : S1x1200000.ShapeCasts S1200000
  bcast_S_S1200000 : S_.BroadcastsInDim S1200000 (![] : Fin 0 → Fin S1200000.rank)
  slices_S2x1200000_S1x1200000_1_0 : S2x1200000.Slices ![1, 0] S1x1200000
  bcast_S_S50000 : S_.BroadcastsInDim S50000 (![] : Fin 0 → Fin S50000.rank)
  bcast_S1200000_S1200000x1_0 : S1200000.BroadcastsInDim S1200000x1 (![0] : Fin 1 → Fin S1200000x1.rank)
  shapeCasts_S50000_S50000x1 : S50000.ShapeCasts S50000x1
  bcast_S1200000x1_S1200000x128_0_1 : S1200000x1.BroadcastsInDim S1200000x128 (![0, 1] : Fin 2 → Fin S1200000x128.rank)
  bcast_S_S50000x128 : S_.BroadcastsInDim S50000x128 (![] : Fin 0 → Fin S50000x128.rank)
  shapeCasts_S64_S1x64 : S64.ShapeCasts S1x64
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S1200000x1_S1200000x64_0_1 : S1200000x1.BroadcastsInDim S1200000x64 (![0, 1] : Fin 2 → Fin S1200000x64.rank)
  bcast_S_S50000x64 : S_.BroadcastsInDim S50000x64 (![] : Fin 0 → Fin S50000x64.rank)
  shapeCasts_S5000x64_S5000x64 : S5000x64.ShapeCasts S5000x64
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  slices_S192x40_S64x40_0_0 : S192x40.Slices ![0, 0] S64x40
  slices_S192x40_S64x40_64_0 : S192x40.Slices ![64, 0] S64x40
  slices_S192x40_S64x40_128_0 : S192x40.Slices ![128, 0] S64x40
  shapeCasts_S40_S1x40 : S40.ShapeCasts S1x40
  inb_S64x40_S64x40_0_0 : ∀ a, (![0, 0] : Fin 2 → Nat) a + S64x40.size a ≤ S64x40.size a
  h_S64x40 : 0 < S64x40.numel
  shapeCasts_S64x40_S64x40 : S64x40.ShapeCasts S64x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  inb_S5000x40_S5000x40_0_0 : ∀ a, (![0, 0] : Fin 2 → Nat) a + S5000x40.size a ≤ S5000x40.size a
  h_S5000x40 : 0 < S5000x40.numel
  scatter_S50000_S1200000x1_S1200000_n_0_0_1_wf : ScatterDims.WF S50000 S1200000x1 S1200000 [] [0] [0] 1
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  dot_S5000x128_S128x64_S5000x64_1_0_0_1_n_n_wf : DotDims.WF S5000x128 S128x64 S5000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  dot_S5000x64_S64x64_S5000x64_1_0_0_1_n_n_wf : DotDims.WF S5000x64 S64x64 S5000x64 [1] [0] [0] [1] [] []
  dot_S5000x64_S64x40_S5000x40_1_0_0_1_n_n_wf : DotDims.WF S5000x64 S64x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x40.size a ≤ S64x40.size a
  hwx2_7 : ∀ i : grid2.Coords, EltTy.bits .f32 = 32 ∨ (Rect.block (s := S64x40) S64x40.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64x40.size a ≤ S64x40.size a
  hwx2_8 : ∀ i : grid2.Coords, EltTy.bits .f32 = 32 ∨ (Rect.block (s := S64x40) S64x40.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x40.size a ≤ S64x40.size a
  hwx2_9 : ∀ i : grid2.Coords, EltTy.bits .f32 = 32 ∨ (Rect.block (s := S64x40) S64x40.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x40.size a ≤ S1x40.size a
  hwx2_10 : ∀ i : grid2.Coords, EltTy.bits .f32 = 32 ∨ (Rect.block (s := S1x40) S1x40.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S5000x40.size a ≤ S50000x40.size a
  hwx2_11 : ∀ i : grid2.Coords, EltTy.bits .f32 = 32 ∨ (Rect.block (s := S50000x40) S5000x40.size (cc2_transform_11 i) (hinb2_11 i)).WholeWords (EltTy.packing .f32)

variable [Facts₀]

def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x40_S5000x40_1_0_0_1_n_n : DotDims S5000x64 S64x40 S5000x40 where
  lhsContracting := [1]
  rhsContracting := [0]
  lhsNonContracting := [0]
  rhsNonContracting := [1]
  lhsBatch := []
  rhsBatch := []
  wf := dot_S5000x64_S64x40_S5000x40_1_0_0_1_n_n_wf

abbrev win0_0 : Pipeline.Window sig grid0 :=
  Pipeline.Window.ofSpec (Memref.whole main_v23) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v38) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v53) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v25) S5000x64.size cc2_transform_6 reads2_6 false false 2 stage2_6 sem2_6
    hrank2 hreads2_6 hinb2_6 nbuf2_6 (Memref.isWhole_whole _) hwx2_6 hstage2_6

abbrev win2_7 : Pipeline.Window sig grid2 :=
  Pipeline.Window.ofSpec (Memref.whole main_v54) S64x40.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v55) S64x40.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v56) S64x40.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v58) S1x40.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v59) S5000x40.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1200000 : Shape := ⟨2, ![2, 1200000]⟩
abbrev S1200000 : Shape := ⟨1, ![1200000]⟩
abbrev S128x64 : Shape := ⟨2, ![128, 64]⟩
abbrev S64 : Shape := ⟨1, ![64]⟩
abbrev S64x64 : Shape := ⟨2, ![64, 64]⟩
abbrev S192x40 : Shape := ⟨2, ![192, 40]⟩
abbrev S40 : Shape := ⟨1, ![40]⟩
abbrev S1x1200000 : Shape := ⟨2, ![1, 1200000]⟩
abbrev S_ : Shape := ⟨0, ![]⟩
abbrev S1200000x1 : Shape := ⟨2, ![1200000, 1]⟩
abbrev S1200000x128 : Shape := ⟨2, ![1200000, 128]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S1200000x64 : Shape := ⟨2, ![1200000, 64]⟩
abbrev S50000x192 : Shape := ⟨2, ![50000, 192]⟩
abbrev S50000x40 : Shape := ⟨2, ![50000, 40]⟩
abbrev S1x40 : Shape := ⟨2, ![1, 40]⟩

abbrev nBuf : Space → Nat
  | .hbm => 157
  | .vmem => 0
  | .smem => 0
  | _ => 0

abbrev hbmTy0_0 (i : Nat) : BufTy := match i % 128 with
  | 0 => ⟨S50000x128, .f32⟩
  | 1 => ⟨S2x1200000, .i32⟩
  | 2 => ⟨S1200000, .f32⟩
  | 3 => ⟨S128x64, .f32⟩
  | 4 => ⟨S128x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64, .f32⟩
  | 12 => ⟨S192x40, .f32⟩
  | 13 => ⟨S40, .f32⟩
  | 14 => ⟨S1x1200000, .i32⟩
  | 15 => ⟨S1200000, .i32⟩
  | 16 => ⟨S1x1200000, .i32⟩
  | 17 => ⟨S1200000, .i32⟩
  | 18 => ⟨S_, .i32⟩
  | 19 => ⟨S1200000, .i32⟩
  | 20 => ⟨S1200000, .i1⟩
  | 21 => ⟨S_, .i32⟩
  | 22 => ⟨S1200000, .i32⟩
  | 23 => ⟨S1200000, .i32⟩
  | 24 => ⟨S1200000, .i32⟩
  | 25 => ⟨S1200000x1, .i32⟩
  | 26 => ⟨S1200000x128, .f32⟩
  | 27 => ⟨S1200000x1, .f32⟩
  | 28 => ⟨S1200000x128, .f32⟩
  | 29 => ⟨S1200000x128, .f32⟩
  | 30 => ⟨S_, .f32⟩
  | 31 => ⟨S50000x128, .f32⟩
  | 32 => ⟨S1200000x1, .i32⟩
  | 33 => ⟨S50000x128, .f32⟩
  | 34 => ⟨S_, .f32⟩
  | 35 => ⟨S1200000, .f32⟩
  | 36 => ⟨S_, .f32⟩
  | 37 => ⟨S50000, .f32⟩
  | 38 => ⟨S1200000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S1x1200000, .i32⟩
  | 56 => ⟨S1200000, .i32⟩
  | 57 => ⟨S1x1200000, .i32⟩
  | 58 => ⟨S1200000, .i32⟩
  | 59 => ⟨S_, .i32⟩
  | 60 => ⟨S1200000, .i32⟩
  | 61 => ⟨S1200000, .i1⟩
  | 62 => ⟨S_, .i32⟩
  | 63 => ⟨S1200000, .i32⟩
  | 64 => ⟨S1200000, .i32⟩
  | 65 => ⟨S1200000, .i32⟩
  | 66 => ⟨S1200000x1, .i32⟩
  | 67 => ⟨S1200000x64, .f32⟩
  | 68 => ⟨S1200000x1, .f32⟩
  | 69 => ⟨S1200000x64, .f32⟩
  | 70 => ⟨S1200000x64, .f32⟩
  | 71 => ⟨S_, .f32⟩
  | 72 => ⟨S50000x64, .f32⟩
  | 73 => ⟨S1200000x1, .i32⟩
  | 74 => ⟨S50000x64, .f32⟩
  | 75 => ⟨S_, .f32⟩
  | 76 => ⟨S1200000, .f32⟩
  | 77 => ⟨S_, .f32⟩
  | 78 => ⟨S50000, .f32⟩
  | 79 => ⟨S1200000x1, .i32⟩
  | 80 => ⟨S50000, .f32⟩
  | 81 => ⟨S_, .f32⟩
  | 82 => ⟨S50000, .f32⟩
  | 83 => ⟨S50000, .f32⟩
  | 84 => ⟨S50000x1, .f32⟩
  | 85 => ⟨S50000x64, .f32⟩
  | 86 => ⟨S50000x64, .f32⟩
  | 87 => ⟨S50000x64, .f32⟩
  | 88 => ⟨S50000x64, .f32⟩
  | 89 => ⟨S50000x64, .f32⟩
  | 90 => ⟨S1x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S1x1200000, .i32⟩
  | 97 => ⟨S1200000, .i32⟩
  | 98 => ⟨S1x1200000, .i32⟩
  | 99 => ⟨S1200000, .i32⟩
  | 100 => ⟨S_, .i32⟩
  | 101 => ⟨S1200000, .i32⟩
  | 102 => ⟨S1200000, .i1⟩
  | 103 => ⟨S_, .i32⟩
  | 104 => ⟨S1200000, .i32⟩
  | 105 => ⟨S1200000, .i32⟩
  | 106 => ⟨S1200000, .i32⟩
  | 107 => ⟨S1200000x1, .i32⟩
  | 108 => ⟨S1200000x64, .f32⟩
  | 109 => ⟨S1200000x1, .f32⟩
  | 110 => ⟨S1200000x64, .f32⟩
  | 111 => ⟨S1200000x64, .f32⟩
  | 112 => ⟨S_, .f32⟩
  | 113 => ⟨S50000x64, .f32⟩
  | 114 => ⟨S1200000x1, .i32⟩
  | 115 => ⟨S50000x64, .f32⟩
  | 116 => ⟨S_, .f32⟩
  | 117 => ⟨S1200000, .f32⟩
  | 118 => ⟨S_, .f32⟩
  | 119 => ⟨S50000, .f32⟩
  | 120 => ⟨S1200000x1, .i32⟩
  | 121 => ⟨S50000, .f32⟩
  | 122 => ⟨S_, .f32⟩
  | 123 => ⟨S50000, .f32⟩
  | 124 => ⟨S50000, .f32⟩
  | 125 => ⟨S50000x1, .f32⟩
  | 126 => ⟨S50000x64, .f32⟩
  | 127 => ⟨S50000x64, .f32⟩
  | _ => ⟨S50000x128, .f32⟩

abbrev hbmTy0_1 (i : Nat) : BufTy := match i % 128 with
  | 0 => ⟨S50000x64, .f32⟩
  | 1 => ⟨S50000x64, .f32⟩
  | 2 => ⟨S50000x64, .f32⟩
  | 3 => ⟨S1x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S50000x192, .f32⟩
  | 10 => ⟨S50000x40, .f32⟩
  | 11 => ⟨S1x40, .f32⟩
  | 12 => ⟨S50000x40, .f32⟩
  | 13 => ⟨S50000x40, .f32⟩
  | 14 => ⟨S_, .f32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x40, .f32⟩
  | 21 => ⟨S50000x40, .f32⟩
  | 22 => ⟨S50000x40, .f32⟩
  | 23 => ⟨S_, .f32⟩
  | 24 => ⟨S50000, .f32⟩
  | 25 => ⟨S50000x1, .f32⟩
  | 26 => ⟨S50000x1, .f32⟩
  | 27 => ⟨S50000x40, .f32⟩
  | 28 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_3 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_call0_cst : Ref sig .tc := ⟨.hbm, 52, rfl⟩
abbrev main_call0_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_4 : Ref sig .tc := ⟨.hbm, 59, rfl⟩
abbrev main_v37 : Ref sig .tc := ⟨.hbm, 60, rfl⟩
abbrev main_v38 : Ref sig .tc := ⟨.hbm, 61, rfl⟩
abbrev main_c_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_call1_cst : Ref sig .tc := ⟨.hbm, 93, rfl⟩
abbrev main_call1_v0 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_10 : Ref sig .tc := ⟨.hbm, 100, rfl⟩
abbrev main_v70 : Ref sig .tc := ⟨.hbm, 101, rfl⟩
abbrev main_v71 : Ref sig .tc := ⟨.hbm, 102, rfl⟩
abbrev main_c_11 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_12 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_13 : Ref sig .tc := ⟨.hbm, 116, rfl⟩
abbrev main_v83 : Ref sig .tc := ⟨.hbm, 117, rfl⟩
abbrev main_cst_14 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_15 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_call2_cst : Ref sig .tc := ⟨.hbm, 134, rfl⟩
abbrev main_call2_v0 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_call3_cst : Ref sig .tc := ⟨.hbm, 142, rfl⟩
abbrev main_call3_v0 : Ref sig .tc := ⟨.hbm, 143, rfl⟩
abbrev main_call3_cst_0 : Ref sig .tc := ⟨.hbm, 144, rfl⟩
abbrev main_call3_v1 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_v6 : Ref sig .tc := ⟨.hbm, 150, rfl⟩
abbrev main_call3_cst_1 : Ref sig .tc := ⟨.hbm, 151, rfl⟩
abbrev main_call3_v7 : Ref sig .tc := ⟨.hbm, 152, rfl⟩
abbrev main_call3_v8 : Ref sig .tc := ⟨.hbm, 153, rfl⟩
abbrev main_call3_v9 : Ref sig .tc := ⟨.hbm, 154, rfl⟩
abbrev main_call3_v10 : Ref sig .tc := ⟨.hbm, 155, rfl⟩
abbrev main_v104 : Ref sig .tc := ⟨.hbm, 156, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x128_0_1 : S1200000x1.BroadcastsInDim S1200000x128 (![0, 1] : Fin 2 → Fin S1200000x128.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S1200000x1_S1200000x64_0_1 : S1200000x1.BroadcastsInDim S1200000x64 (![0, 1] : Fin 2 → Fin S1200000x64.rank)
  bcast_S50000x1_S50000x64_0_1 : S50000x1.BroadcastsInDim S50000x64 (![0, 1] : Fin 2 → Fin S50000x64.rank)
  concatenates_S50000x64_S50000x64_S50000x64_S50000x192_d1 : Shape.Concatenates [S50000x64, S50000x64, S50000x64] S50000x192 1
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000x1_S50000x40_0_1 : S50000x1.BroadcastsInDim S50000x40 (![0, 1] : Fin 2 → Fin S50000x40.rank)
  gather_S50000x128_S1200000x1_S1200000x128_1_0_n_n_0_1_1128_wf : GatherDims.WF S50000x128 S1200000x1 S1200000x128 [1] [0] [] [0] [] 1 ![1, 128]
  scatter_S50000x128_S1200000x1_S1200000x128_1_0_0_1_wf : ScatterDims.WF S50000x128 S1200000x1 S1200000x128 [1] [0] [0] 1
  scatter_S50000_S1200000x1_S1200000_n_0_0_1_wf : ScatterDims.WF S50000 S1200000x1 S1200000 [] [0] [0] 1
  dot_S50000x128_S128x64_S50000x64_1_0_0_1_n_n_wf : DotDims.WF S50000x128 S128x64 S50000x64 [1] [0] [0] [1] [] []
  gather_S50000x64_S1200000x1_S1200000x64_1_0_n_n_0_1_164_wf : GatherDims.WF S50000x64 S1200000x1 S1200000x64 [1] [0] [] [0] [] 1 ![1, 64]
  scatter_S50000x64_S1200000x1_S1200000x64_1_0_0_1_wf : ScatterDims.WF S50000x64 S1200000x1 S1200000x64 [1] [0] [0] 1
  dot_S50000x64_S64x64_S50000x64_1_0_0_1_n_n_wf : DotDims.WF S50000x64 S64x64 S50000x64 [1] [0] [0] [1] [] []
  dot_S50000x192_S192x40_S50000x40_1_0_0_1_n_n_wf : DotDims.WF S50000x192 S192x40 S50000x40 [1] [0] [0] [1] [] []

variable [Facts₀]

def gather_S50000x128_S1200000x1_S1200000x128_1_0_n_n_0_1_1128 : GatherDims S50000x128 S1200000x1 S1200000x128 where
  offsetDims := [1]
  collapsedSliceDims := [0]
  operandBatchingDims := []
  startIndicesBatchingDims := []
  startIndexMap := [0]
  indexVectorDim := 1
  sliceSizes := ![1, 128]
  wf := gather_S50000x128_S1200000x1_S1200000x128_1_0_n_n_0_1_1128_wf
def scatter_S50000x128_S1200000x1_S1200000x128_1_0_0_1 : ScatterDims S50000x128 S1200000x1 S1200000x128 where
  updateWindowDims := [1]
  insertedWindowDims := [0]
  scatterDimsToOperandDims := [0]
  indexVectorDim := 1
  wf := scatter_S50000x128_S1200000x1_S1200000x128_1_0_0_1_wf
def scatter_S50000_S1200000x1_S1200000_n_0_0_1 : ScatterDims S50000 S1200000x1 S1200000 where
  updateWindowDims := []
  insertedWindowDims := [0]
  scatterDimsToOperandDims := [0]
  indexVectorDim := 1
  wf := scatter_S50000_S1200000x1_S1200000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S1200000x1_S1200000x64_1_0_n_n_0_1_164 : GatherDims S50000x64 S1200000x1 S1200000x64 where
  offsetDims := [1]
  collapsedSliceDims := [0]
  operandBatchingDims := []
  startIndicesBatchingDims := []
  startIndexMap := [0]
  indexVectorDim := 1
  sliceSizes := ![1, 64]
  wf := gather_S50000x64_S1200000x1_S1200000x64_1_0_n_n_0_1_164_wf
def scatter_S50000x64_S1200000x1_S1200000x64_1_0_0_1 : ScatterDims S50000x64 S1200000x1 S1200000x64 where
  updateWindowDims := [1]
  insertedWindowDims := [0]
  scatterDimsToOperandDims := [0]
  indexVectorDim := 1
  wf := scatter_S50000x64_S1200000x1_S1200000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def dot_S50000x192_S192x40_S50000x40_1_0_0_1_n_n : DotDims S50000x192 S192x40 S50000x40 where
  lhsContracting := [1]
  rhsContracting := [0]
  lhsNonContracting := [0]
  rhsNonContracting := [1]
  lhsBatch := []
  rhsBatch := []
  wf := dot_S50000x192_S192x40_S50000x40_1_0_0_1_n_n_wf

class Facts : Prop extends Facts₀ where

variable [Facts]
-- ==== Proof.RefStages.lean ====
/-
  The reference program's stages as named functions of whole arrays, each spelt with the program's own operations:
  the two node-index vectors of the edge list, the weighted neighbour sum (a gather of source rows, scaled by the edge
  weight, scattered with addition to the destination rows), the in-degree (ones scattered with addition), one
  convolution layer (mean of the neighbour sum times one matrix, plus the node's row times another, plus a bias,
  rectified) at its two widths, and the head (the three layers' outputs concatenated, a 192 × 40 product, a bias and a
  log-softmax). The program's result is the head of the three layers applied in turn.
-/
import proofs.«420739_j90159953477911_3_alg».proof.Proof.Gen.ReferenceIdeal

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- Row `q` of the edge list as a vector of 1200000 node numbers. -/
def srcRow (e : IVec S2x1200000 32) : IVec S1200000 32 :=
  shapeCast _ (extractStridedSlice S1x1200000 ![0, 0] e slices_S2x1200000_S1x1200000_0_0) shapeCasts_S1x1200000_S1200000
def dstRow (e : IVec S2x1200000 32) : IVec S1200000 32 :=
  shapeCast _ (extractStridedSlice S1x1200000 ![1, 0] e slices_S2x1200000_S1x1200000_1_0) shapeCasts_S1x1200000_S1200000

/-- The gather's start indices: the source node numbers, a negative one wrapped by 50000. -/
def srcIdx (e : IVec S2x1200000 32) : IVec S1200000x1 32 :=
  broadcastInDim S1200000x1 ![0] bcast_S1200000_S1200000x1_0
    (select (cmpi .slt (srcRow e) (broadcastInDim S1200000 ![] bcast_S_S1200000 (constantI S_ 32 0#32)))
      (addi (srcRow e) (broadcastInDim S1200000 ![] bcast_S_S1200000 (constantI S_ 32 50000#32))) (srcRow e))
/-- The scatter's indices: the destination node numbers. -/
def dstIdx (e : IVec S2x1200000 32) : IVec S1200000x1 32 :=
  broadcastInDim S1200000x1 ![0] bcast_S1200000_S1200000x1_0 (dstRow e)

/-- The weighted neighbour sum of 128-wide rows. -/
def agg128 (e : IVec S2x1200000 32) (w : FVec F S1200000 .f32) (x : FVec F S50000x128 .f32) : FVec F S50000x128 .f32 :=
  Host.scatterAdd scatter_S50000x128_S1200000x1_S1200000x128_1_0_0_1
    (broadcastInDim S50000x128 ![] bcast_S_S50000x128 (constant S_ .f32 0x00000000#32)) (dstIdx e)
    (mulf (Host.gather gather_S50000x128_S1200000x1_S1200000x128_1_0_n_n_0_1_1128 x (srcIdx e))
      (broadcastInDim S1200000x128 ![0, 1] bcast_S1200000x1_S1200000x128_0_1
        (broadcastInDim S1200000x1 ![0] bcast_S1200000_S1200000x1_0 w)))
/-- The weighted neighbour sum of 64-wide rows. -/
def agg64 (e : IVec S2x1200000 32) (w : FVec F S1200000 .f32) (x : FVec F S50000x64 .f32) : FVec F S50000x64 .f32 :=
  Host.scatterAdd scatter_S50000x64_S1200000x1_S1200000x64_1_0_0_1
    (broadcastInDim S50000x64 ![] bcast_S_S50000x64 (constant S_ .f32 0x00000000#32)) (dstIdx e)
    (mulf (Host.gather gather_S50000x64_S1200000x1_S1200000x64_1_0_n_n_0_1_164 x (srcIdx e))
      (broadcastInDim S1200000x64 ![0, 1] bcast_S1200000x1_S1200000x64_0_1
        (broadcastInDim S1200000x1 ![0] bcast_S1200000_S1200000x1_0 w)))
/-- The in-degree of every node. -/
def deg (e : IVec S2x1200000 32) : FVec F S50000 .f32 :=
  Host.scatterAdd scatter_S50000_S1200000x1_S1200000_n_0_0_1
    (broadcastInDim S50000 ![] bcast_S_S50000 (constant S_ .f32 0x00000000#32)) (dstIdx e)
    (broadcastInDim S1200000 ![] bcast_S_S1200000 (constant S_ .f32 0x3F800000#32))

/-- One layer at 128 input features. -/
def layer128 (A x : FVec F S50000x128 .f32) (d : FVec F S50000 .f32) (Wl Wr : FVec F S128x64 .f32) (b : FVec F S64 .f32) :
    FVec F S50000x64 .f32 :=
  maximumf
    (addf
      (addf
        (Host.dotGeneral dot_S50000x128_S128x64_S50000x64_1_0_0_1_n_n none
          (Host.divf A (broadcastInDim S50000x128 ![0, 1] bcast_S50000x1_S50000x128_0_1
            (broadcastInDim S50000x1 ![0] bcast_S50000_S50000x1_0
              (maximumf d (broadcastInDim S50000 ![] bcast_S_S50000 (constant S_ .f32 0x3F800000#32)))))) Wl)
        (Host.dotGeneral dot_S50000x128_S128x64_S50000x64_1_0_0_1_n_n none x Wr))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))
/-- One layer at 64 input features. -/
def layer64 (A x : FVec F S50000x64 .f32) (d : FVec F S50000 .f32) (Wl Wr : FVec F S64x64 .f32) (b : FVec F S64 .f32) :
    FVec F S50000x64 .f32 :=
  maximumf
    (addf
      (addf
        (Host.dotGeneral dot_S50000x64_S64x64_S50000x64_1_0_0_1_n_n none
          (Host.divf A (broadcastInDim S50000x64 ![0, 1] bcast_S50000x1_S50000x64_0_1
            (broadcastInDim S50000x1 ![0] bcast_S50000_S50000x1_0
              (maximumf d (broadcastInDim S50000 ![] bcast_S_S50000 (constant S_ .f32 0x3F800000#32)))))) Wl)
        (Host.dotGeneral dot_S50000x64_S64x64_S50000x64_1_0_0_1_n_n none x Wr))
      (broadcastInDim S50000x64 ![0, 1] bcast_S1x64_S50000x64_0_1 (broadcastInDim S1x64 ![1] bcast_S64_S1x64_1 b)))
    (broadcastInDim S50000x64 ![] bcast_S_S50000x64 (constant S_ .f32 0x00000000#32))

/-- The logits: the concatenated layer outputs times the head matrix, plus the bias. -/
def logits (x1 x2 x3 : FVec F S50000x64 .f32) (W : FVec F S192x40 .f32) (bl : FVec F S40 .f32) : FVec F S50000x40 .f32 :=
  addf
    (Host.dotGeneral dot_S50000x192_S192x40_S50000x40_1_0_0_1_n_n none
      (concatenate S50000x192 1 [⟨S50000x64, x1⟩, ⟨S50000x64, x2⟩, ⟨S50000x64, x3⟩]
        concatenates_S50000x64_S50000x64_S50000x64_S50000x192_d1) W)
    (broadcastInDim S50000x40 ![0, 1] bcast_S1x40_S50000x40_0_1 (broadcastInDim S1x40 ![1] bcast_S40_S1x40_1 bl))
/-- The row maximum of the logits, as the program takes it. -/
def rowMax (L : FVec F S50000x40 .f32) : FVec F S50000 .f32 :=
  maximumf (broadcastInDim S50000 ![] bcast_S_S50000 (constant S_ .f32 0xFF800000#32))
    (Host.reduce FloatOps.maximumf L (constant S_ .f32 0xFF800000#32) reducesTo_S50000x40_S50000_d1 h_S_)
/-- The logits minus their row maximum. -/
def shifted (L : FVec F S50000x40 .f32) : FVec F S50000x40 .f32 :=
  subf L (broadcastInDim S50000x40 ![0, 1] bcast_S50000x1_S50000x40_0_1
    (broadcastInDim S50000x1 ![0] bcast_S50000_S50000x1_0 (rowMax L)))
/-- The log-softmax of the logits. -/
def logSoftmax (L : FVec F S50000x40 .f32) : FVec F S50000x40 .f32 :=
  subf (shifted L)
    (broadcastInDim S50000x40 ![0, 1] bcast_S50000x1_S50000x40_0_1
      (Host.log (broadcastInDim S50000x1 ![0] bcast_S50000_S50000x1_0
        (Host.reduceAdd (Host.exp (shifted L)) (constant S_ .f32 0x00000000#32) reducesTo_S50000x40_S50000_d1 h_S_))))

/-- The three layers' outputs. -/
def x1 (a0 : FVec F S50000x128 .f32) (a1 : IVec S2x1200000 32) (a2 : FVec F S1200000 .f32)
    (a3 a4 : FVec F S128x64 .f32) (a5 : FVec F S64 .f32) : FVec F S50000x64 .f32 :=
  layer128 (agg128 a1 a2 a0) a0 (deg a1) a3 a4 a5
def xNext (a1 : IVec S2x1200000 32) (a2 : FVec F S1200000 .f32) (x : FVec F S50000x64 .f32)
    (Wl Wr : FVec F S64x64 .f32) (b : FVec F S64 .f32) : FVec F S50000x64 .f32 :=
  layer64 (agg64 a1 a2 x) x (deg a1) Wl Wr b

end Cert.ReferenceIdeal.Stages

end
-- ==== Proof.RefEval.lean ====
/-
  The reference's 143 operations, folded over the launch contents, leave in the result buffer the head of the three
  layers applied in turn: the operation list is cut after each layer's rectification, each stretch is evaluated over
  whatever the stretch before left, and the stretches' results are the named stage functions.
-/
import proofs.«420739_j90159953477911_3_alg».proof.Proof.RefRun
import proofs.«420739_j90159953477911_3_alg».proof.Proof.RefStages
import Idealize.ShloMosaic.Lib.Pipeline.Frame

noncomputable section

namespace Cert.ReferenceIdeal.FoldEval

open Cert.ReferenceIdeal Cert.ReferenceIdeal.Gen Cert.ReferenceIdeal.Fold Cert.ReferenceIdeal.Stages
open Idealize.ShloMosaic Idealize.ShloMosaic.TcCoe Idealize.SL.Sem Idealize.ShloMosaic.StableHlo

variable {F : FTy → Type} [FloatOps F]

/-- The first layer's 41 operations: through the rectification that writes the first layer's output. -/
abbrev L1 : List (HloOp τ sig (Elt F)) :=
  [ unary main_arg1 main_v0 ((extractStridedSlice S1x1200000 ![0, 0] · slices_S2x1200000_S1x1200000_0_0) : (⟨S2x1200000, .i32⟩ : BufTy).Contents (Elt F) → (⟨S1x1200000, .i32⟩ : BufTy).Contents (Elt F)),
    reshape main_v0 main_v1 rfl shapeCasts_S1x1200000_S1200000,
    unary main_arg1 main_v2 ((extractStridedSlice S1x1200000 ![1, 0] · slices_S2x1200000_S1x1200000_1_0) : (⟨S2x1200000, .i32⟩ : BufTy).Contents (Elt F) → (⟨S1x1200000, .i32⟩ : BufTy).Contents (Elt F)),
    reshape main_v2 main_v3 rfl shapeCasts_S1x1200000_S1200000,
    nullary main_c (constantI S_ 32 0#32),
    unary main_c main_v4 (broadcastInDim S1200000 ![] bcast_S_S1200000 : (⟨S_, .i32⟩ : BufTy).Contents (Elt F) → (⟨S1200000, .i32⟩ : BufTy).Contents (Elt F)),
    binary main_v1 main_v4 main_v5 (cmpi .slt : (⟨S1200000, .i32⟩ : BufTy).Contents (Elt F) → (⟨S1200000, .i32⟩ : BufTy).Contents (Elt F) → (⟨S1200000, .i1⟩ : BufTy).Contents (Elt F)),
    nullary main_c_0 (constantI S_ 32 50000#32),
    unary main_c_0 main_v6 (broadcastInDim S1200000 ![] bcast_S_S1200000 : (⟨S_, .i32⟩ : BufTy).Contents (Elt F) → (⟨S1200000, .i32⟩ : BufTy).Contents (Elt F)),
    binary main_v1 main_v6 main_v7 (addi : (⟨S1200000, .i32⟩ : BufTy).Contents (Elt F) → (⟨S1200000, .i32⟩ : BufTy).Contents (Elt F) → (⟨S1200000, .i32⟩ : BufTy).Contents (Elt F)),
    ternary main_v5 main_v7 main_v1 main_v8 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v8 main_v9 (broadcastInDim S1200000x1 ![0] bcast_S1200000_S1200000x1_0 : (⟨S1200000, .i32⟩ : BufTy).Contents (Elt F) → (⟨S1200000x1, .i32⟩ : BufTy).Contents (Elt F)),
    binary main_arg0 main_v9 main_v10 ((fun x i => Host.gather gather_S50000x128_S1200000x1_S1200000x128_1_0_n_n_0_1_1128 x i) : (⟨S50000x128, .f32⟩ : BufTy).Contents (Elt F) → (⟨S1200000x1, .i32⟩ : BufTy).Contents (Elt F) → (⟨S1200000x128, .f32⟩ : BufTy).Contents (Elt F)),
    unary main_arg2 main_v11 (broadcastInDim S1200000x1 ![0] bcast_S1200000_S1200000x1_0 : (⟨S1200000, .f32⟩ : BufTy).Contents (Elt F) → (⟨S1200000x1, .f32⟩ : BufTy).Contents (Elt F)),
    unary main_v11 main_v12 (broadcastInDim S1200000x128 ![0, 1] bcast_S1200000x1_S1200000x128_0_1 : (⟨S1200000x1, .f32⟩ : BufTy).Contents (Elt F) → (⟨S1200000x128, .f32⟩ : BufTy).Contents (Elt F)),
    binary main_v10 main_v12 main_v13 (mulf : (⟨S1200000x128, .f32⟩ : BufTy).Contents (Elt F) → (⟨S1200000x128, .f32⟩ : BufTy).Contents (Elt F) → (⟨S1200000x128, .f32⟩ : BufTy).Contents (Elt F)),
    nullary main_cst (constant S_ .f32 0x00000000#32),
    unary main_cst main_v14 (broadcastInDim S50000x128 ![] bcast_S_S50000x128 : (⟨S_, .f32⟩ : BufTy).Contents (Elt F) → (⟨S50000x128, .f32⟩ : BufTy).Contents (Elt F)),
    unary main_v3 main_v15 (broadcastInDim S1200000x1 ![0] bcast_S1200000_S1200000x1_0 : (⟨S1200000, .i32⟩ : BufTy).Contents (Elt F) → (⟨S1200000x1, .i32⟩ : BufTy).Contents (Elt F)),
    ternary main_v14 main_v15 main_v13 main_v16 ((fun x i u => Host.scatterAdd scatter_S50000x128_S1200000x1_S1200000x128_1_0_0_1 x i u) : (⟨S50000x128, .f32⟩ : BufTy).Contents (Elt F) → (⟨S1200000x1, .i32⟩ : BufTy).Contents (Elt F) → (⟨S1200000x128, .f32⟩ : BufTy).Contents (Elt F) → (⟨S50000x128, .f32⟩ : BufTy).Contents (Elt F)),
    nullary main_cst_1 (constant S_ .f32 0x3F800000#32),
    unary main_cst_1 main_v17 (broadcastInDim S1200000 ![] bcast_S_S1200000 : (⟨S_, .f32⟩ : BufTy).Contents (Elt F) → (⟨S1200000, .f32⟩ : BufTy).Contents (Elt F)),
    nullary main_cst_2 (constant S_ .f32 0x00000000#32),
    unary main_cst_2 main_v18 (broadcastInDim S50000 ![] bcast_S_S50000 : (⟨S_, .f32⟩ : BufTy).Contents (Elt F) → (⟨S50000, .f32⟩ : BufTy).Contents (Elt F)),
    unary main_v3 main_v19 (broadcastInDim S1200000x1 ![0] bcast_S1200000_S1200000x1_0 : (⟨S1200000, .i32⟩ : BufTy).Contents (Elt F) → (⟨S1200000x1, .i32⟩ : BufTy).Contents (Elt F)),
    ternary main_v18 main_v19 main_v17 main_v20 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)),
    nullary main_cst_3 (constant S_ .f32 0x3F800000#32),
    unary main_cst_3 main_v21 (broadcastInDim S50000 ![] bcast_S_S50000 : (⟨S_, .f32⟩ : BufTy).Contents (Elt F) → (⟨S50000, .f32⟩ : BufTy).Contents (Elt F)),
    binary main_v20 main_v21 main_v22 (maximumf : (⟨S50000, .f32⟩ : BufTy).Contents (Elt F) → (⟨S50000, .f32⟩ : BufTy).Contents (Elt F) → (⟨S50000, .f32⟩ : BufTy).Contents (Elt F)),
    unary main_v22 main_v23 (broadcastInDim S50000x1 ![0] bcast_S50000_S50000x1_0 : (⟨S50000, .f32⟩ : BufTy).Contents (Elt F) → (⟨S50000x1, .f32⟩ : BufTy).Contents (Elt F)),
    unary main_v23 main_v24 (broadcastInDim S50000x128 ![0, 1] bcast_S50000x1_S50000x128_0_1 : (⟨S50000x1, .f32⟩ : BufTy).Contents (Elt F) → (⟨S50000x128, .f32⟩ : BufTy).Contents (Elt F)),
    binary main_v16 main_v24 main_v25 (Host.divf : (⟨S50000x128, .f32⟩ : BufTy).Contents (Elt F) → (⟨S50000x128, .f32⟩ : BufTy).Contents (Elt F) → (⟨S50000x128, .f32⟩ : BufTy).Contents (Elt F)),
    binary main_v25 main_arg3 main_v26 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_arg0 main_arg4 main_v27 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    binary main_v26 main_v27 main_v28 (addf : (⟨S50000x64, .f32⟩ : BufTy).Contents (Elt F) → (⟨S50000x64, .f32⟩ : BufTy).Contents (Elt F) → (⟨S50000x64, .f32⟩ : BufTy).Contents (Elt F)),
    unary main_arg5 main_v29 (broadcastInDim S1x64 ![1] bcast_S64_S1x64_1 : (⟨S64, .f32⟩ : BufTy).Contents (Elt F) → (⟨S1x64, .f32⟩ : BufTy).Contents (Elt F)),
    unary main_v29 main_v30 (broadcastInDim S50000x64 ![0, 1] bcast_S1x64_S50000x64_0_1 : (⟨S1x64, .f32⟩ : BufTy).Contents (Elt F) → (⟨S50000x64, .f32⟩ : BufTy).Contents (Elt F)),
    binary main_v28 main_v30 main_v31 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S50000x64, .f32⟩) main_call0_v0) (broadcastInDim S50000x64 ![] bcast_S_S50000x64),
    TRef.binary (TRef.of (T := ⟨S50000x64, .f32⟩) main_v31) (TRef.of (T := ⟨S50000x64, .f32⟩) main_call0_v0) (TRef.of (T := ⟨S50000x64, .f32⟩) main_v32) maximumf ]

/-- The second layer's 41 operations. -/
abbrev L2 : List (HloOp τ sig (Elt F)) :=
  [ unary main_arg1 main_v33 ((extractStridedSlice S1x1200000 ![0, 0] · slices_S2x1200000_S1x1200000_0_0) : (⟨S2x1200000, .i32⟩ : BufTy).Contents (Elt F) → (⟨S1x1200000, .i32⟩ : BufTy).Contents (Elt F)),
    reshape main_v33 main_v34 rfl shapeCasts_S1x1200000_S1200000,
    unary main_arg1 main_v35 ((extractStridedSlice S1x1200000 ![1, 0] · slices_S2x1200000_S1x1200000_1_0) : (⟨S2x1200000, .i32⟩ : BufTy).Contents (Elt F) → (⟨S1x1200000, .i32⟩ : BufTy).Contents (Elt F)),
    reshape main_v35 main_v36 rfl shapeCasts_S1x1200000_S1200000,
    nullary main_c_4 (constantI S_ 32 0#32),
    unary main_c_4 main_v37 (broadcastInDim S1200000 ![] bcast_S_S1200000 : (⟨S_, .i32⟩ : BufTy).Contents (Elt F) → (⟨S1200000, .i32⟩ : BufTy).Contents (Elt F)),
    binary main_v34 main_v37 main_v38 (cmpi .slt : (⟨S1200000, .i32⟩ : BufTy).Contents (Elt F) → (⟨S1200000, .i32⟩ : BufTy).Contents (Elt F) → (⟨S1200000, .i1⟩ : BufTy).Contents (Elt F)),
    nullary main_c_5 (constantI S_ 32 50000#32),
    unary main_c_5 main_v39 (broadcastInDim S1200000 ![] bcast_S_S1200000 : (⟨S_, .i32⟩ : BufTy).Contents (Elt F) → (⟨S1200000, .i32⟩ : BufTy).Contents (Elt F)),
    binary main_v34 main_v39 main_v40 (addi : (⟨S1200000, .i32⟩ : BufTy).Contents (Elt F) → (⟨S1200000, .i32⟩ : BufTy).Contents (Elt F) → (⟨S1200000, .i32⟩ : BufTy).Contents (Elt F)),
    ternary main_v38 main_v40 main_v34 main_v41 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v41 main_v42 (broadcastInDim S1200000x1 ![0] bcast_S1200000_S1200000x1_0 : (⟨S1200000, .i32⟩ : BufTy).Contents (Elt F) → (⟨S1200000x1, .i32⟩ : BufTy).Contents (Elt F)),
    binary main_v32 main_v42 main_v43 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v44 (broadcastInDim S1200000x1 ![0] bcast_S1200000_S1200000x1_0 : (⟨S1200000, .f32⟩ : BufTy).Contents (Elt F) → (⟨S1200000x1, .f32⟩ : BufTy).Contents (Elt F)),
    unary main_v44 main_v45 (broadcastInDim S1200000x64 ![0, 1] bcast_S1200000x1_S1200000x64_0_1 : (⟨S1200000x1, .f32⟩ : BufTy).Contents (Elt F) → (⟨S1200000x64, .f32⟩ : BufTy).Contents (Elt F)),
    binary main_v43 main_v45 main_v46 (mulf : (⟨S1200000x64, .f32⟩ : BufTy).Contents (Elt F) → (⟨S1200000x64, .f32⟩ : BufTy).Contents (Elt F) → (⟨S1200000x64, .f32⟩ : BufTy).Contents (Elt F)),
    nullary main_cst_6 (constant S_ .f32 0x00000000#32),
    unary main_cst_6 main_v47 (broadcastInDim S50000x64 ![] bcast_S_S50000x64 : (⟨S_, .f32⟩ : BufTy).Contents (Elt F) → (⟨S50000x64, .f32⟩ : BufTy).Contents (Elt F)),
    unary main_v36 main_v48 (broadcastInDim S1200000x1 ![0] bcast_S1200000_S1200000x1_0 : (⟨S1200000, .i32⟩ : BufTy).Contents (Elt F) → (⟨S1200000x1, .i32⟩ : BufTy).Contents (Elt F)),
    ternary main_v47 main_v48 main_v46 main_v49 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    nullary main_cst_7 (constant S_ .f32 0x3F800000#32),
    unary main_cst_7 main_v50 (broadcastInDim S1200000 ![] bcast_S_S1200000 : (⟨S_, .f32⟩ : BufTy).Contents (Elt F) → (⟨S1200000, .f32⟩ : BufTy).Contents (Elt F)),
    nullary main_cst_8 (constant S_ .f32 0x00000000#32),
    unary main_cst_8 main_v51 (broadcastInDim S50000 ![] bcast_S_S50000 : (⟨S_, .f32⟩ : BufTy).Contents (Elt F) → (⟨S50000, .f32⟩ : BufTy).Contents (Elt F)),
    unary main_v36 main_v52 (broadcastInDim S1200000x1 ![0] bcast_S1200000_S1200000x1_0 : (⟨S1200000, .i32⟩ : BufTy).Contents (Elt F) → (⟨S1200000x1, .i32⟩ : BufTy).Contents (Elt F)),
    ternary main_v51 main_v52 main_v50 main_v53 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)),
    nullary main_cst_9 (constant S_ .f32 0x3F800000#32),
    unary main_cst_9 main_v54 (broadcastInDim S50000 ![] bcast_S_S50000 : (⟨S_, .f32⟩ : BufTy).Contents (Elt F) → (⟨S50000, .f32⟩ : BufTy).Contents (Elt F)),
    binary main_v53 main_v54 main_v55 (maximumf : (⟨S50000, .f32⟩ : BufTy).Contents (Elt F) → (⟨S50000, .f32⟩ : BufTy).Contents (Elt F) → (⟨S50000, .f32⟩ : BufTy).Contents (Elt F)),
    unary main_v55 main_v56 (broadcastInDim S50000x1 ![0] bcast_S50000_S50000x1_0 : (⟨S50000, .f32⟩ : BufTy).Contents (Elt F) → (⟨S50000x1, .f32⟩ : BufTy).Contents (Elt F)),
    unary main_v56 main_v57 (broadcastInDim S50000x64 ![0, 1] bcast_S50000x1_S50000x64_0_1 : (⟨S50000x1, .f32⟩ : BufTy).Contents (Elt F) → (⟨S50000x64, .f32⟩ : BufTy).Contents (Elt F)),
    binary main_v49 main_v57 main_v58 (Host.divf : (⟨S50000x64, .f32⟩ : BufTy).Contents (Elt F) → (⟨S50000x64, .f32⟩ : BufTy).Contents (Elt F) → (⟨S50000x64, .f32⟩ : BufTy).Contents (Elt F)),
    binary main_v58 main_arg6 main_v59 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v32 main_arg7 main_v60 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v59 main_v60 main_v61 (addf : (⟨S50000x64, .f32⟩ : BufTy).Contents (Elt F) → (⟨S50000x64, .f32⟩ : BufTy).Contents (Elt F) → (⟨S50000x64, .f32⟩ : BufTy).Contents (Elt F)),
    unary main_arg8 main_v62 (broadcastInDim S1x64 ![1] bcast_S64_S1x64_1 : (⟨S64, .f32⟩ : BufTy).Contents (Elt F) → (⟨S1x64, .f32⟩ : BufTy).Contents (Elt F)),
    unary main_v62 main_v63 (broadcastInDim S50000x64 ![0, 1] bcast_S1x64_S50000x64_0_1 : (⟨S1x64, .f32⟩ : BufTy).Contents (Elt F) → (⟨S50000x64, .f32⟩ : BufTy).Contents (Elt F)),
    binary main_v61 main_v63 main_v64 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v64) (TRef.of (T := ⟨S50000x64, .f32⟩) main_call1_v0) (TRef.of (T := ⟨S50000x64, .f32⟩) main_v65) maximumf ]

/-- The third layer's 41 operations. -/
abbrev L3 : List (HloOp τ sig (Elt F)) :=
  [ unary main_arg1 main_v66 ((extractStridedSlice S1x1200000 ![0, 0] · slices_S2x1200000_S1x1200000_0_0) : (⟨S2x1200000, .i32⟩ : BufTy).Contents (Elt F) → (⟨S1x1200000, .i32⟩ : BufTy).Contents (Elt F)),
    reshape main_v66 main_v67 rfl shapeCasts_S1x1200000_S1200000,
    unary main_arg1 main_v68 ((extractStridedSlice S1x1200000 ![1, 0] · slices_S2x1200000_S1x1200000_1_0) : (⟨S2x1200000, .i32⟩ : BufTy).Contents (Elt F) → (⟨S1x1200000, .i32⟩ : BufTy).Contents (Elt F)),
    reshape main_v68 main_v69 rfl shapeCasts_S1x1200000_S1200000,
    nullary main_c_10 (constantI S_ 32 0#32),
    unary main_c_10 main_v70 (broadcastInDim S1200000 ![] bcast_S_S1200000 : (⟨S_, .i32⟩ : BufTy).Contents (Elt F) → (⟨S1200000, .i32⟩ : BufTy).Contents (Elt F)),
    binary main_v67 main_v70 main_v71 (cmpi .slt : (⟨S1200000, .i32⟩ : BufTy).Contents (Elt F) → (⟨S1200000, .i32⟩ : BufTy).Contents (Elt F) → (⟨S1200000, .i1⟩ : BufTy).Contents (Elt F)),
    nullary main_c_11 (constantI S_ 32 50000#32),
    unary main_c_11 main_v72 (broadcastInDim S1200000 ![] bcast_S_S1200000 : (⟨S_, .i32⟩ : BufTy).Contents (Elt F) → (⟨S1200000, .i32⟩ : BufTy).Contents (Elt F)),
    binary main_v67 main_v72 main_v73 (addi : (⟨S1200000, .i32⟩ : BufTy).Contents (Elt F) → (⟨S1200000, .i32⟩ : BufTy).Contents (Elt F) → (⟨S1200000, .i32⟩ : BufTy).Contents (Elt F)),
    ternary main_v71 main_v73 main_v67 main_v74 (select : (⟨S1200000, .i1⟩ : BufTy).Contents (Elt F) → (⟨S1200000, .i32⟩ : BufTy).Contents (Elt F) → (⟨S1200000, .i32⟩ : BufTy).Contents (Elt F) → (⟨S1200000, .i32⟩ : BufTy).Contents (Elt F)),
    unary main_v74 main_v75 (broadcastInDim S1200000x1 ![0] bcast_S1200000_S1200000x1_0 : (⟨S1200000, .i32⟩ : BufTy).Contents (Elt F) → (⟨S1200000x1, .i32⟩ : BufTy).Contents (Elt F)),
    binary main_v65 main_v75 main_v76 ((fun x i => Host.gather gather_S50000x64_S1200000x1_S1200000x64_1_0_n_n_0_1_164 x i) : (⟨S50000x64, .f32⟩ : BufTy).Contents (Elt F) → (⟨S1200000x1, .i32⟩ : BufTy).Contents (Elt F) → (⟨S1200000x64, .f32⟩ : BufTy).Contents (Elt F)),
    unary main_arg2 main_v77 (broadcastInDim S1200000x1 ![0] bcast_S1200000_S1200000x1_0 : (⟨S1200000, .f32⟩ : BufTy).Contents (Elt F) → (⟨S1200000x1, .f32⟩ : BufTy).Contents (Elt F)),
    unary main_v77 main_v78 (broadcastInDim S1200000x64 ![0, 1] bcast_S1200000x1_S1200000x64_0_1 : (⟨S1200000x1, .f32⟩ : BufTy).Contents (Elt F) → (⟨S1200000x64, .f32⟩ : BufTy).Contents (Elt F)),
    binary main_v76 main_v78 main_v79 (mulf : (⟨S1200000x64, .f32⟩ : BufTy).Contents (Elt F) → (⟨S1200000x64, .f32⟩ : BufTy).Contents (Elt F) → (⟨S1200000x64, .f32⟩ : BufTy).Contents (Elt F)),
    nullary main_cst_12 (constant S_ .f32 0x00000000#32),
    unary main_cst_12 main_v80 (broadcastInDim S50000x64 ![] bcast_S_S50000x64 : (⟨S_, .f32⟩ : BufTy).Contents (Elt F) → (⟨S50000x64, .f32⟩ : BufTy).Contents (Elt F)),
    unary main_v69 main_v81 (broadcastInDim S1200000x1 ![0] bcast_S1200000_S1200000x1_0 : (⟨S1200000, .i32⟩ : BufTy).Contents (Elt F) → (⟨S1200000x1, .i32⟩ : BufTy).Contents (Elt F)),
    ternary main_v80 main_v81 main_v79 main_v82 ((fun x i u => Host.scatterAdd scatter_S50000x64_S1200000x1_S1200000x64_1_0_0_1 x i u) : (⟨S50000x64, .f32⟩ : BufTy).Contents (Elt F) → (⟨S1200000x1, .i32⟩ : BufTy).Contents (Elt F) → (⟨S1200000x64, .f32⟩ : BufTy).Contents (Elt F) → (⟨S50000x64, .f32⟩ : BufTy).Contents (Elt F)),
    nullary main_cst_13 (constant S_ .f32 0x3F800000#32),
    unary main_cst_13 main_v83 (broadcastInDim S1200000 ![] bcast_S_S1200000 : (⟨S_, .f32⟩ : BufTy).Contents (Elt F) → (⟨S1200000, .f32⟩ : BufTy).Contents (Elt F)),
    nullary main_cst_14 (constant S_ .f32 0x00000000#32),
    unary main_cst_14 main_v84 (broadcastInDim S50000 ![] bcast_S_S50000 : (⟨S_, .f32⟩ : BufTy).Contents (Elt F) → (⟨S50000, .f32⟩ : BufTy).Contents (Elt F)),
    unary main_v69 main_v85 (broadcastInDim S1200000x1 ![0] bcast_S1200000_S1200000x1_0 : (⟨S1200000, .i32⟩ : BufTy).Contents (Elt F) → (⟨S1200000x1, .i32⟩ : BufTy).Contents (Elt F)),
    ternary main_v84 main_v85 main_v83 main_v86 ((fun x i u => Host.scatterAdd scatter_S50000_S1200000x1_S1200000_n_0_0_1 x i u) : (⟨S50000, .f32⟩ : BufTy).Contents (Elt F) → (⟨S1200000x1, .i32⟩ : BufTy).Contents (Elt F) → (⟨S1200000, .f32⟩ : BufTy).Contents (Elt F) → (⟨S50000, .f32⟩ : BufTy).Contents (Elt F)),
    nullary main_cst_15 (constant S_ .f32 0x3F800000#32),
    unary main_cst_15 main_v87 (broadcastInDim S50000 ![] bcast_S_S50000 : (⟨S_, .f32⟩ : BufTy).Contents (Elt F) → (⟨S50000, .f32⟩ : BufTy).Contents (Elt F)),
    binary main_v86 main_v87 main_v88 (maximumf : (⟨S50000, .f32⟩ : BufTy).Contents (Elt F) → (⟨S50000, .f32⟩ : BufTy).Contents (Elt F) → (⟨S50000, .f32⟩ : BufTy).Contents (Elt F)),
    unary main_v88 main_v89 (broadcastInDim S50000x1 ![0] bcast_S50000_S50000x1_0 : (⟨S50000, .f32⟩ : BufTy).Contents (Elt F) → (⟨S50000x1, .f32⟩ : BufTy).Contents (Elt F)),
    unary main_v89 main_v90 (broadcastInDim S50000x64 ![0, 1] bcast_S50000x1_S50000x64_0_1 : (⟨S50000x1, .f32⟩ : BufTy).Contents (Elt F) → (⟨S50000x64, .f32⟩ : BufTy).Contents (Elt F)),
    binary main_v82 main_v90 main_v91 (Host.divf : (⟨S50000x64, .f32⟩ : BufTy).Contents (Elt F) → (⟨S50000x64, .f32⟩ : BufTy).Contents (Elt F) → (⟨S50000x64, .f32⟩ : BufTy).Contents (Elt F)),
    binary main_v91 main_arg9 main_v92 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v65 main_arg10 main_v93 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v92 main_v93 main_v94 (addf : (⟨S50000x64, .f32⟩ : BufTy).Contents (Elt F) → (⟨S50000x64, .f32⟩ : BufTy).Contents (Elt F) → (⟨S50000x64, .f32⟩ : BufTy).Contents (Elt F)),
    unary main_arg11 main_v95 (broadcastInDim S1x64 ![1] bcast_S64_S1x64_1 : (⟨S64, .f32⟩ : BufTy).Contents (Elt F) → (⟨S1x64, .f32⟩ : BufTy).Contents (Elt F)),
    unary main_v95 main_v96 (broadcastInDim S50000x64 ![0, 1] bcast_S1x64_S50000x64_0_1 : (⟨S1x64, .f32⟩ : BufTy).Contents (Elt F) → (⟨S50000x64, .f32⟩ : BufTy).Contents (Elt F)),
    binary main_v94 main_v96 main_v97 (addf : (⟨S50000x64, .f32⟩ : BufTy).Contents (Elt F) → (⟨S50000x64, .f32⟩ : BufTy).Contents (Elt F) → (⟨S50000x64, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v97) (TRef.of (T := ⟨S50000x64, .f32⟩) main_call2_v0) (TRef.of (T := ⟨S50000x64, .f32⟩) main_v98) maximumf ]

/-- The head's first operation: the three layers' outputs side by side. -/
abbrev L4a : List (HloOp τ sig (Elt F)) :=
  [ nary ![main_v32, main_v65, main_v98] main_v99 (fun u => concatenate S50000x192 1 [⟨S50000x64, u 0⟩, ⟨S50000x64, u 1⟩, ⟨S50000x64, u 2⟩] concatenates_S50000x64_S50000x64_S50000x64_S50000x192_d1) ]

/-- The head's other 19 operations: the product with the head matrix, the bias and the log-softmax. -/
abbrev L4b : List (HloOp τ sig (Elt F)) :=
  [ binary main_v99 main_arg12 main_v100 ((fun l r => Host.dotGeneral dot_S50000x192_S192x40_S50000x40_1_0_0_1_n_n none l r) : (⟨S50000x192, .f32⟩ : BufTy).Contents (Elt F) → (⟨S192x40, .f32⟩ : BufTy).Contents (Elt F) → (⟨S50000x40, .f32⟩ : BufTy).Contents (Elt F)),
    unary main_arg13 main_v101 (broadcastInDim S1x40 ![1] bcast_S40_S1x40_1 : (⟨S40, .f32⟩ : BufTy).Contents (Elt F) → (⟨S1x40, .f32⟩ : BufTy).Contents (Elt F)),
    unary main_v101 main_v102 (broadcastInDim S50000x40 ![0, 1] bcast_S1x40_S50000x40_0_1 : (⟨S1x40, .f32⟩ : BufTy).Contents (Elt F) → (⟨S50000x40, .f32⟩ : BufTy).Contents (Elt F)),
    binary main_v100 main_v102 main_v103 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0xFF800000#32),
    TRef.binary (TRef.of (T := ⟨S50000x40, .f32⟩) main_v103) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v103) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v104) subf ]

/-- The operation list is the five stretches in a row. -/
theorem ops_split : (ops (F := F)) = L1 ++ (L2 ++ (L3 ++ (L4a ++ L4b))) := rfl

/-- The logits from the concatenated block: its product with the head matrix, plus the bias. -/
def logitsOf (cat : FVec F S50000x192 .f32) (Wh : FVec F S192x40 .f32) (bl : FVec F S40 .f32) : FVec F S50000x40 .f32 :=
  addf (Host.dotGeneral dot_S50000x192_S192x40_S50000x40_1_0_0_1_n_n none cat Wh)
    (broadcastInDim S50000x40 ![0, 1] bcast_S1x40_S50000x40_0_1 (broadcastInDim S1x40 ![1] bcast_S40_S1x40_1 bl))

/-- The logits of three layer outputs are those of their concatenation. -/
theorem logits_eq (x1 x2 x3 : FVec F S50000x64 .f32) (Wh : FVec F S192x40 .f32) (bl : FVec F S40 .f32) :
    logits x1 x2 x3 Wh bl
      = logitsOf (concatenate S50000x192 1 [⟨S50000x64, x1⟩, ⟨S50000x64, x2⟩, ⟨S50000x64, x3⟩]
          concatenates_S50000x64_S50000x64_S50000x64_S50000x192_d1) Wh bl := rfl

/-! ## Contents moved to a buffer's own type and back -/

/-- Contents moved to a typed reference's buffer type and back are the contents. -/
theorem ofBuf_toBuf {T : BufTy} (x : TRef sig T) (v : T.Contents (Elt F)) : x.ofBuf (x.toBuf v) = v := by
  unfold TRef.ofBuf TRef.toBuf
  rw [cast_cast, cast_eq]

/-! At a literal reference the buffer's type is the value's, and the move is the identity. -/
theorem ofBuf_v31 (h1 : main_v31.ty = (⟨S50000x64, .f32⟩ : BufTy)) (h2 : main_v31.space ≠ .host)
    (h3 : (main_v31 : Ref sig .tc).isScoped = false) (v : (⟨S50000x64, .f32⟩ : BufTy).Contents (Elt F)) :
    (TRef.of (T := ⟨S50000x64, .f32⟩) main_v31 h1 h2 h3).ofBuf v = v := rfl
theorem toBuf_v32 (h1 : main_v32.ty = (⟨S50000x64, .f32⟩ : BufTy)) (h2 : main_v32.space ≠ .host)
    (h3 : (main_v32 : Ref sig .tc).isScoped = false) (v : (⟨S50000x64, .f32⟩ : BufTy).Contents (Elt F)) :
    (TRef.of (T := ⟨S50000x64, .f32⟩) main_v32 h1 h2 h3).toBuf v = v := rfl
theorem ofBuf_v64 (h1 : main_v64.ty = (⟨S50000x64, .f32⟩ : BufTy)) (h2 : main_v64.space ≠ .host)
    (h3 : (main_v64 : Ref sig .tc).isScoped = false) (v : (⟨S50000x64, .f32⟩ : BufTy).Contents (Elt F)) :
    (TRef.of (T := ⟨S50000x64, .f32⟩) main_v64 h1 h2 h3).ofBuf v = v := rfl
theorem toBuf_v65 (h1 : main_v65.ty = (⟨S50000x64, .f32⟩ : BufTy)) (h2 : main_v65.space ≠ .host)
    (h3 : (main_v65 : Ref sig .tc).isScoped = false) (v : (⟨S50000x64, .f32⟩ : BufTy).Contents (Elt F)) :
    (TRef.of (T := ⟨S50000x64, .f32⟩) main_v65 h1 h2 h3).toBuf v = v := rfl
theorem ofBuf_v97 (h1 : main_v97.ty = (⟨S50000x64, .f32⟩ : BufTy)) (h2 : main_v97.space ≠ .host)
    (h3 : (main_v97 : Ref sig .tc).isScoped = false) (v : (⟨S50000x64, .f32⟩ : BufTy).Contents (Elt F)) :
    (TRef.of (T := ⟨S50000x64, .f32⟩) main_v97 h1 h2 h3).ofBuf v = v := rfl
theorem toBuf_v98 (h1 : main_v98.ty = (⟨S50000x64, .f32⟩ : BufTy)) (h2 : main_v98.space ≠ .host)
    (h3 : (main_v98 : Ref sig .tc).isScoped = false) (v : (⟨S50000x64, .f32⟩ : BufTy).Contents (Elt F)) :
    (TRef.of (T := ⟨S50000x64, .f32⟩) main_v98 h1 h2 h3).toBuf v = v := rfl
theorem ofBuf_v103 (h1 : main_v103.ty = (⟨S50000x40, .f32⟩ : BufTy)) (h2 : main_v103.space ≠ .host)
    (h3 : (main_v103 : Ref sig .tc).isScoped = false) (v : (⟨S50000x40, .f32⟩ : BufTy).Contents (Elt F)) :
    (TRef.of (T := ⟨S50000x40, .f32⟩) main_v103 h1 h2 h3).ofBuf v = v := rfl
theorem toBuf_v104 (h1 : main_v104.ty = (⟨S50000x40, .f32⟩ : BufTy)) (h2 : main_v104.space ≠ .host)
    (h3 : (main_v104 : Ref sig .tc).isScoped = false) (v : (⟨S50000x40, .f32⟩ : BufTy).Contents (Elt F)) :
    (TRef.of (T := ⟨S50000x40, .f32⟩) main_v104 h1 h2 h3).toBuf v = v := rfl

/-! ## Each stretch over whatever the one before left -/

set_option maxRecDepth 8192 in
set_option maxHeartbeats 2000000 in
/-- The first stretch leaves in its output buffer the first layer applied to the argument arrays it read. -/
theorem L1_v32 (W : Valuation τ sig (Elt F)) :
    after (L1 (F := F)) W (Proc.devRef .tc main_v32)
      = x1 (W (Proc.devRef .tc main_arg0)) (W (Proc.devRef .tc main_arg1)) (W (Proc.devRef .tc main_arg2))
          (W (Proc.devRef .tc main_arg3)) (W (Proc.devRef .tc main_arg4)) (W (Proc.devRef .tc main_arg5)) := by
  after_results_simp
  simp only [ofBuf_toBuf, ofBuf_v31, toBuf_v32]
  rfl

set_option maxRecDepth 8192 in
set_option maxHeartbeats 2000000 in
/-- The second stretch leaves in its output buffer the next layer applied to what the first layer's buffer held. -/
theorem L2_v65 (W : Valuation τ sig (Elt F)) :
    after (L2 (F := F)) W (Proc.devRef .tc main_v65)
      = xNext (W (Proc.devRef .tc main_arg1)) (W (Proc.devRef .tc main_arg2)) (W (Proc.devRef .tc main_v32))
          (W (Proc.devRef .tc main_arg6)) (W (Proc.devRef .tc main_arg7)) (W (Proc.devRef .tc main_arg8)) := by
  after_results_simp
  simp only [ofBuf_toBuf, ofBuf_v64, toBuf_v65]
  rfl

set_option maxRecDepth 8192 in
set_option maxHeartbeats 2000000 in
/-- The third stretch leaves in its output buffer the next layer applied to what the second layer's buffer held. -/
theorem L3_v98 (W : Valuation τ sig (Elt F)) :
    after (L3 (F := F)) W (Proc.devRef .tc main_v98)
      = xNext (W (Proc.devRef .tc main_arg1)) (W (Proc.devRef .tc main_arg2)) (W (Proc.devRef .tc main_v65))
          (W (Proc.devRef .tc main_arg9)) (W (Proc.devRef .tc main_arg10)) (W (Proc.devRef .tc main_arg11)) := by
  after_results_simp
  simp only [ofBuf_toBuf, ofBuf_v97, toBuf_v98]
  rfl

/-- The head's first operation leaves the three layers' outputs side by side. -/
theorem L4a_v99 (W : Valuation τ sig (Elt F)) :
    after (L4a (F := F)) W (Proc.devRef .tc main_v99)
      = concatenate S50000x192 1 [⟨S50000x64, W (Proc.devRef .tc main_v32)⟩, ⟨S50000x64, W (Proc.devRef .tc main_v65)⟩,
          ⟨S50000x64, W (Proc.devRef .tc main_v98)⟩] concatenates_S50000x64_S50000x64_S50000x64_S50000x192_d1 := by
  simp only [after_cons, after_nil]
  rw [nary_result]
  rfl

set_option maxRecDepth 8192 in
set_option maxHeartbeats 2000000 in
/-- The head's last stretch leaves in the result buffer the log-softmax of the logits of the concatenated block. -/
theorem L4b_v104 (W : Valuation τ sig (Elt F)) :
    after (L4b (F := F)) W (Proc.devRef .tc main_v104)
      = logSoftmax (logitsOf (W (Proc.devRef .tc main_v99)) (W (Proc.devRef .tc main_arg12))
          (W (Proc.devRef .tc main_arg13))) := by
  after_results_simp
  simp only [ofBuf_toBuf, ofBuf_v103, toBuf_v104]
  rfl

/-! ## What each stretch leaves alone -/

set_option maxRecDepth 8192
set_option maxHeartbeats 2000000

theorem L1_arg1 (W : Valuation τ sig (Elt F)) :
    after (L1 (F := F)) W (Proc.devRef .tc main_arg1) = W (Proc.devRef .tc main_arg1) := by
  after_results_simp <;> rfl
theorem L1_arg2 (W : Valuation τ sig (Elt F)) :
    after (L1 (F := F)) W (Proc.devRef .tc main_arg2) = W (Proc.devRef .tc main_arg2) := by
  after_results_simp <;> rfl
theorem L1_arg6 (W : Valuation τ sig (Elt F)) :
    after (L1 (F := F)) W (Proc.devRef .tc main_arg6) = W (Proc.devRef .tc main_arg6) := by
  after_results_simp <;> rfl
theorem L1_arg7 (W : Valuation τ sig (Elt F)) :
    after (L1 (F := F)) W (Proc.devRef .tc main_arg7) = W (Proc.devRef .tc main_arg7) := by
  after_results_simp <;> rfl
theorem L1_arg8 (W : Valuation τ sig (Elt F)) :
    after (L1 (F := F)) W (Proc.devRef .tc main_arg8) = W (Proc.devRef .tc main_arg8) := by
  after_results_simp <;> rfl
theorem L1_arg9 (W : Valuation τ sig (Elt F)) :
    after (L1 (F := F)) W (Proc.devRef .tc main_arg9) = W (Proc.devRef .tc main_arg9) := by
  after_results_simp <;> rfl
theorem L1_arg10 (W : Valuation τ sig (Elt F)) :
    after (L1 (F := F)) W (Proc.devRef .tc main_arg10) = W (Proc.devRef .tc main_arg10) := by
  after_results_simp <;> rfl
theorem L1_arg11 (W : Valuation τ sig (Elt F)) :
    after (L1 (F := F)) W (Proc.devRef .tc main_arg11) = W (Proc.devRef .tc main_arg11) := by
  after_results_simp <;> rfl
theorem L1_arg12 (W : Valuation τ sig (Elt F)) :
    after (L1 (F := F)) W (Proc.devRef .tc main_arg12) = W (Proc.devRef .tc main_arg12) := by
  after_results_simp <;> rfl
theorem L1_arg13 (W : Valuation τ sig (Elt F)) :
    after (L1 (F := F)) W (Proc.devRef .tc main_arg13) = W (Proc.devRef .tc main_arg13) := by
  after_results_simp <;> rfl

theorem L2_v32 (W : Valuation τ sig (Elt F)) :
    after (L2 (F := F)) W (Proc.devRef .tc main_v32) = W (Proc.devRef .tc main_v32) := by
  after_results_simp <;> rfl
theorem L2_arg1 (W : Valuation τ sig (Elt F)) :
    after (L2 (F := F)) W (Proc.devRef .tc main_arg1) = W (Proc.devRef .tc main_arg1) := by
  after_results_simp <;> rfl
theorem L2_arg2 (W : Valuation τ sig (Elt F)) :
    after (L2 (F := F)) W (Proc.devRef .tc main_arg2) = W (Proc.devRef .tc main_arg2) := by
  after_results_simp <;> rfl
theorem L2_arg9 (W : Valuation τ sig (Elt F)) :
    after (L2 (F := F)) W (Proc.devRef .tc main_arg9) = W (Proc.devRef .tc main_arg9) := by
  after_results_simp <;> rfl
theorem L2_arg10 (W : Valuation τ sig (Elt F)) :
    after (L2 (F := F)) W (Proc.devRef .tc main_arg10) = W (Proc.devRef .tc main_arg10) := by
  after_results_simp <;> rfl
theorem L2_arg11 (W : Valuation τ sig (Elt F)) :
    after (L2 (F := F)) W (Proc.devRef .tc main_arg11) = W (Proc.devRef .tc main_arg11) := by
  after_results_simp <;> rfl
theorem L2_arg12 (W : Valuation τ sig (Elt F)) :
    after (L2 (F := F)) W (Proc.devRef .tc main_arg12) = W (Proc.devRef .tc main_arg12) := by
  after_results_simp <;> rfl
theorem L2_arg13 (W : Valuation τ sig (Elt F)) :
    after (L2 (F := F)) W (Proc.devRef .tc main_arg13) = W (Proc.devRef .tc main_arg13) := by
  after_results_simp <;> rfl

theorem L3_v32 (W : Valuation τ sig (Elt F)) :
    after (L3 (F := F)) W (Proc.devRef .tc main_v32) = W (Proc.devRef .tc main_v32) := by
  after_results_simp <;> rfl
theorem L3_v65 (W : Valuation τ sig (Elt F)) :
    after (L3 (F := F)) W (Proc.devRef .tc main_v65) = W (Proc.devRef .tc main_v65) := by
  after_results_simp <;> rfl
theorem L3_arg12 (W : Valuation τ sig (Elt F)) :
    after (L3 (F := F)) W (Proc.devRef .tc main_arg12) = W (Proc.devRef .tc main_arg12) := by
  after_results_simp <;> rfl
theorem L3_arg13 (W : Valuation τ sig (Elt F)) :
    after (L3 (F := F)) W (Proc.devRef .tc main_arg13) = W (Proc.devRef .tc main_arg13) := by
  after_results_simp <;> rfl

theorem L4a_arg12 (W : Valuation τ sig (Elt F)) :
    after (L4a (F := F)) W (Proc.devRef .tc main_arg12) = W (Proc.devRef .tc main_arg12) := by
  after_results_simp <;> rfl
theorem L4a_arg13 (W : Valuation τ sig (Elt F)) :
    after (L4a (F := F)) W (Proc.devRef .tc main_arg13) = W (Proc.devRef .tc main_arg13) := by
  after_results_simp <;> rfl

/-- The result buffer after all operations, as the stages' composition of the fourteen argument arrays. -/
theorem fold_result (m : (ℓ : Loc nD τ sig) → Buf (Elt F) ℓ) (c : Dev nD) :
    after (ops (F := F)) (launchContents m c) (Proc.devRef .tc main_v104)
      = logSoftmax (logits
          (x1 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5)))
          (xNext (m ((c.tc : Thread nD τ).loc main_arg1)) (m ((c.tc : Thread nD τ).loc main_arg2))
            (x1 (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5)))
            (m ((c.tc : Thread nD τ).loc main_arg6)) (m ((c.tc : Thread nD τ).loc main_arg7))
            (m ((c.tc : Thread nD τ).loc main_arg8)))
          (xNext (m ((c.tc : Thread nD τ).loc main_arg1)) (m ((c.tc : Thread nD τ).loc main_arg2))
            (xNext (m ((c.tc : Thread nD τ).loc main_arg1)) (m ((c.tc : Thread nD τ).loc main_arg2))
              (x1 (m ((c.tc : Thread nD τ).loc main_arg0)) (m ((c.tc : Thread nD τ).loc main_arg1))
                (m ((c.tc : Thread nD τ).loc main_arg2)) (m ((c.tc : Thread nD τ).loc main_arg3))
                (m ((c.tc : Thread nD τ).loc main_arg4)) (m ((c.tc : Thread nD τ).loc main_arg5)))
              (m ((c.tc : Thread nD τ).loc main_arg6)) (m ((c.tc : Thread nD τ).loc main_arg7))
              (m ((c.tc : Thread nD τ).loc main_arg8)))
            (m ((c.tc : Thread nD τ).loc main_arg9)) (m ((c.tc : Thread nD τ).loc main_arg10))
            (m ((c.tc : Thread nD τ).loc main_arg11)))
          (m ((c.tc : Thread nD τ).loc main_arg12)) (m ((c.tc : Thread nD τ).loc main_arg13))) := by
  rw [ops_split, after_append, after_append, after_append, after_append]
  rw [L4b_v104, L4a_v99, L4a_arg12, L4a_arg13]
  rw [L3_v98, L3_v32, L3_v65, L3_arg12, L3_arg13]
  rw [L2_v65, L2_v32, L2_arg1, L2_arg2, L2_arg9, L2_arg10, L2_arg11, L2_arg12, L2_arg13]
  rw [L1_v32, L1_arg1, L1_arg2, L1_arg6, L1_arg7, L1_arg8, L1_arg9, L1_arg10, L1_arg11, L1_arg12, L1_arg13]
  rw [logits_eq]

end Cert.ReferenceIdeal.FoldEval

end
-- ==== Proof.KernelStages.lean ====
/-
  The kernel program's host operations as named functions of whole arrays, each spelt with the program's own
  operations: the two node-index vectors of the edge list clamped to `[0, 49999]`, the in-degree as a column, the
  weighted neighbour sum at its two widths, the reshaped biases and the three bands of the head matrix.
-/
import proofs.«420739_j90159953477911_3_alg».proof.Proof.Gen.KernelIdeal

noncomputable section

namespace Cert.KernelIdeal.HostStages

open Cert.KernelIdeal Cert.KernelIdeal.Gen Idealize.ShloMosaic Idealize.ShloMosaic.TcCoe Idealize.SL.Sem Idealize.ShloMosaic.StableHlo

variable {F : FTy → Type} [FloatOps F]

/-- A row of the edge list as a vector of 1200000 node numbers. -/
def srcRow (e : IVec S2x1200000 32) : IVec S1200000 32 :=
  shapeCast _ (extractStridedSlice S1x1200000 ![0, 0] e slices_S2x1200000_S1x1200000_0_0) shapeCasts_S1x1200000_S1200000
def dstRow (e : IVec S2x1200000 32) : IVec S1200000 32 :=
  shapeCast _ (extractStridedSlice S1x1200000 ![1, 0] e slices_S2x1200000_S1x1200000_1_0) shapeCasts_S1x1200000_S1200000
/-- A vector of node numbers clamped to `[0, 49999]`. -/
def clamp (v : IVec S1200000 32) : IVec S1200000 32 :=
  minsi (broadcastInDim S1200000 ![] bcast_S_S1200000 (constantI S_ 32 49999#32))
    (maxsi (broadcastInDim S1200000 ![] bcast_S_S1200000 (constantI S_ 32 0#32)) v)
/-- The gather's start indices from the clamped source numbers. -/
def srcIdx (e : IVec S2x1200000 32) : IVec S1200000x1 32 :=
  broadcastInDim S1200000x1 ![0] bcast_S1200000_S1200000x1_0
    (select (cmpi .slt (clamp (srcRow e)) (broadcastInDim S1200000 ![] bcast_S_S1200000 (constantI S_ 32 0#32)))
      (addi (clamp (srcRow e)) (broadcastInDim S1200000 ![] bcast_S_S1200000 (constantI S_ 32 50000#32)))
      (clamp (srcRow e)))
/-- The scatter's indices from the clamped destination numbers. -/
def dstIdx (e : IVec S2x1200000 32) : IVec S1200000x1 32 :=
  broadcastInDim S1200000x1 ![0] bcast_S1200000_S1200000x1_0 (clamp (dstRow e))
/-- The in-degree of every node, as a column. -/
def degCol (e : IVec S2x1200000 32) : FVec F S50000x1 .f32 :=
  shapeCast _ (Host.scatterAdd scatter_S50000_S1200000x1_S1200000_n_0_0_1
    (broadcastInDim S50000 ![] bcast_S_S50000 (constant S_ .f32 0x00000000#32)) (dstIdx e)
    (broadcastInDim S1200000 ![] bcast_S_S1200000 (constant S_ .f32 0x3F800000#32))) shapeCasts_S50000_S50000x1
/-- The weighted neighbour sum of 128-wide rows. -/
def agg128 (e : IVec S2x1200000 32) (w : FVec F S1200000 .f32) (x : FVec F S50000x128 .f32) : FVec F S50000x128 .f32 :=
  Host.scatterAdd scatter_S50000x128_S1200000x1_S1200000x128_1_0_0_1
    (broadcastInDim S50000x128 ![] bcast_S_S50000x128 (constant S_ .f32 0x00000000#32)) (dstIdx e)
    (mulf (Host.gather gather_S50000x128_S1200000x1_S1200000x128_1_0_n_n_0_1_1128 x (srcIdx e))
      (broadcastInDim S1200000x128 ![0, 1] bcast_S1200000x1_S1200000x128_0_1
        (broadcastInDim S1200000x1 ![0] bcast_S1200000_S1200000x1_0 w)))
/-- The weighted neighbour sum of 64-wide rows. -/
def agg64 (e : IVec S2x1200000 32) (w : FVec F S1200000 .f32) (x : FVec F S50000x64 .f32) : FVec F S50000x64 .f32 :=
  Host.scatterAdd scatter_S50000x64_S1200000x1_S1200000x64_1_0_0_1
    (broadcastInDim S50000x64 ![] bcast_S_S50000x64 (constant S_ .f32 0x00000000#32)) (dstIdx e)
    (mulf (Host.gather gather_S50000x64_S1200000x1_S1200000x64_1_0_n_n_0_1_164 x (srcIdx e))
      (broadcastInDim S1200000x64 ![0, 1] bcast_S1200000x1_S1200000x64_0_1
        (broadcastInDim S1200000x1 ![0] bcast_S1200000_S1200000x1_0 w)))
/-- A bias of 64 as a row. -/
def biasRow (b : FVec F S64 .f32) : FVec F S1x64 .f32 := shapeCast _ b shapeCasts_S64_S1x64
/-- The head bias as a row. -/
def headBiasRow (b : FVec F S40 .f32) : FVec F S1x40 .f32 := shapeCast _ b shapeCasts_S40_S1x40
/-- The three 64-row bands of the head matrix. -/
def band0 (W : FVec F S192x40 .f32) : FVec F S64x40 .f32 := extractStridedSlice S64x40 ![0, 0] W slices_S192x40_S64x40_0_0
def band1 (W : FVec F S192x40 .f32) : FVec F S64x40 .f32 := extractStridedSlice S64x40 ![64, 0] W slices_S192x40_S64x40_64_0
def band2 (W : FVec F S192x40 .f32) : FVec F S64x40 .f32 := extractStridedSlice S64x40 ![128, 0] W slices_S192x40_S64x40_128_0

end Cert.KernelIdeal.HostStages

end
-- ==== Proof.LibERealRows.lean ====
/-
  General facts about rows of real numbers inside the extended reals, as float programs read at exact arithmetic
  meet them.

  * The patterns of `-∞`, `+∞` and `1.0` denote `⊥`, `⊤` and `1`.
  * An extended real whose absolute value `max x (−x)` compares below `+∞` is a real.
  * A finite sum of coerced reals is the coerced sum; a finite sum of products of reals is a real.
  * The maximum of a nonempty row of reals, folded from `-∞`, is a real.
  * A softmax does not see a common shift: for a real row `s` and a real `M`,
    `exp (s j − M) / Σ exp (s i − M) = exp (s j) · (1 / Σ exp (s i))`, the quotient and the product with the reciprocal
    being the same because both sums are positive reals.
-/
import Idealize.ShloMosaic.PureOps.Ideal
import Idealize.ShloMosaic.PureOps.Ideal.Laws
import Mathlib.Analysis.SpecialFunctions.Exp

noncomputable section

namespace Cert.ERealRows

open Idealize.ShloMosaic

/-! ## Float literals as extended reals -/

/-- The pattern of `-∞` denotes the bottom element. -/
theorem ofBits_negInf : Ideal.ofBits .f32 0xFF800000#32 = ⊥ := by
  simp [Ideal.ofBits, Ideal.ieee]

/-- The pattern of `+∞` denotes the top element. -/
theorem ofBits_posInf : Ideal.ofBits .f32 0x7F800000#32 = ⊤ := by
  simp [Ideal.ofBits, Ideal.ieee]

/-- The pattern of `1.0` denotes `1`. -/
theorem ofBits_one : Ideal.ofBits .f32 0x3F800000#32 = 1 := by
  simp [Ideal.ofBits, Ideal.ieee, -EReal.coe_mul]; norm_num

/-- An extended real whose absolute value compares below `+∞` is a real: `max x (−x)` is `+∞` at both infinities. -/
theorem real_of_abs_lt_inf (x : EReal) (h : Ideal.cmp .olt (max x (-x)) (Ideal.ofBits .f32 0x7F800000#32) = 1#1) :
    ∃ r : ℝ, x = (r : EReal) := by
  rw [ofBits_posInf] at h
  have hlt : max x (-x) < ⊤ := by
    by_contra hn
    simp [Ideal.cmp, hn] at h
  induction x using EReal.rec with
  | bot => simp at hlt
  | coe r => exact ⟨r, rfl⟩
  | top => simp at hlt

/-! ## Sums and maxima of real rows -/

section Rows

variable {ι : Type*} [Fintype ι]

/-- A finite sum of coerced reals is the coerced sum. -/
theorem coe_sum (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite sum of products of coerced reals is a real. -/
theorem sum_mul_real {κ : Type*} [Fintype κ] (u v : κ → ℝ) : ∃ r : ℝ, ∑ k, (u k : EReal) * (v k : EReal) = (r : EReal) :=
  ⟨∑ k, u k * v k, by rw [← coe_sum]; exact Finset.sum_congr rfl fun k _ => (EReal.coe_mul _ _).symm⟩

/-- The maximum of a nonempty row of reals, folded from `-∞`, is a real: it is below `+∞` because every entry is,
    and above `-∞` because some entry is. -/
theorem fold_max_real [Nonempty ι] (f : ι → ℝ) :
    ∃ M : ℝ, (Finset.univ : Finset ι).fold max (⊥ : EReal) (fun j => (f j : EReal)) = (M : EReal) := by
  have h1 : (Finset.univ : Finset ι).fold max (⊥ : EReal) (fun j => (f j : EReal)) ≠ ⊤ := by
    refine ne_of_lt ?_
    rw [Finset.fold_max_lt]
    exact ⟨bot_lt_top, fun x _ => EReal.coe_lt_top _⟩
  have h2 : (Finset.univ : Finset ι).fold max (⊥ : EReal) (fun j => (f j : EReal)) ≠ ⊥ := by
    obtain ⟨j0⟩ := ‹Nonempty ι›
    refine ne_of_gt (lt_of_lt_of_le (EReal.bot_lt_coe (f j0)) ?_)
    rw [Finset.le_fold_max]
    exact Or.inr ⟨j0, Finset.mem_univ _, le_rfl⟩
  exact ⟨_, (EReal.coe_toReal h1 h2).symm⟩

/-- A softmax does not see a common shift, and its quotient is the product with the reciprocal of the unshifted sum:
    `exp (s j − M) = exp (s j) / exp M` with `exp M` a positive real common to numerator and denominator. -/
theorem softmax_shift [Nonempty ι] (s : ι → ℝ) (M : ℝ) (j : ι) :
    Ideal.div (Ideal.exp ((s j : EReal) - (M : EReal))) (∑ i, Ideal.exp ((s i : EReal) - (M : EReal)))
      = Ideal.exp (s j : EReal) * Ideal.div 1 (∑ i, Ideal.exp (s i : EReal)) := by
  have h1 : ∀ i, Ideal.exp ((s i : EReal) - (M : EReal)) = ((Real.exp (s i - M) : ℝ) : EReal) := fun i => by
    rw [← EReal.coe_sub]; rfl
  have h2 : ∀ i, Ideal.exp (s i : EReal) = ((Real.exp (s i) : ℝ) : EReal) := fun i => rfl
  have hS1 : 0 < ∑ i, Real.exp (s i - M) := Finset.sum_pos (fun i _ => Real.exp_pos _) Finset.univ_nonempty
  have hS2 : 0 < ∑ i, Real.exp (s i) := Finset.sum_pos (fun i _ => Real.exp_pos _) Finset.univ_nonempty
  simp only [h1, h2, coe_sum]
  rw [Ideal.div_coe hS1.ne', Ideal.div_coe hS2.ne', one_mul, ← EReal.coe_mul, ← EReal.coe_mul]
  congr 1
  have hsub : ∀ i, Real.exp (s i - M) = Real.exp (s i) / Real.exp M := fun i => Real.exp_sub _ _
  have hM0 : Real.exp M ≠ 0 := (Real.exp_pos M).ne'
  have hS20 : (∑ i, Real.exp (s i)) ≠ 0 := hS2.ne'
  simp only [hsub, ← Finset.sum_div]
  field_simp

end Rows

end Cert.ERealRows

end
-- ==== Proof.Rows.lean ====
/-
  One node's row of the three-layer mean-aggregating graph convolution, over the extended reals.

  A layer maps a node's aggregated neighbour row `a`, its own row `x` and its in-degree `d` to
  `max (Σ_k (a k / max d 1) · Wl k j + Σ_k x k · Wr k j + b j) 0`.
  The head takes the three layers' rows of one node, multiplies the concatenation by a 192 × 40 matrix (equivalently:
  adds the three products with the matrix's three 64-row bands), adds a bias and takes the log-softmax of the 40
  logits. Two spellings of the log-softmax occur: `l j − (log Σ exp (l − m) + m)` and `(l j − m) − log Σ exp (l − m)`
  with `m` the row maximum; they agree when the logits are real numbers, which they are when every input is.
-/
import proofs.«420739_j90159953477911_3_alg».proof.Proof.LibERealRows

noncomputable section

namespace Cert.GraphRows

open Idealize.ShloMosaic

/-- The float words of `0.0`, `1.0` and `-∞` as extended reals. -/
abbrev zeroW : EReal := Ideal.ofBits .f32 0x00000000#32
abbrev oneW : EReal := Ideal.ofBits .f32 0x3F800000#32
abbrev negInfW : EReal := Ideal.ofBits .f32 0xFF800000#32

/-- One node's output row of a layer. -/
def layRow {K H : ℕ} (a x : Fin K → EReal) (d : EReal) (Wl Wr : Fin K → Fin H → EReal) (b : Fin H → EReal)
    (j : Fin H) : EReal :=
  max (((∑ k : Fin K, Ideal.div (a k) (max d oneW) * Wl k j) + (∑ k : Fin K, x k * Wr k j)) + b j) zeroW

/-- The 40 logits of one node from its three layer rows and the three bands of the head matrix. -/
def logitsBands (x1 x2 x3 : Fin 64 → EReal) (Wa Wb Wc : Fin 64 → Fin 40 → EReal) (bl : Fin 40 → EReal)
    (j : Fin 40) : EReal :=
  (((∑ k : Fin 64, x1 k * Wa k j) + (∑ k : Fin 64, x2 k * Wb k j)) + (∑ k : Fin 64, x3 k * Wc k j)) + bl j

/-- Log-softmax as `l j − (log Σ exp (l − m) + m)`, `m` the row maximum folded from `-∞`. -/
def lsmOuter (l : Fin 40 → EReal) (j : Fin 40) : EReal :=
  l j - (Ideal.log (∑ j' : Fin 40, Ideal.exp (l j' - (Finset.univ : Finset (Fin 40)).fold max negInfW l))
    + (Finset.univ : Finset (Fin 40)).fold max negInfW l)

/-- Log-softmax as `(l j − m) − log (0 + Σ exp (l − m))`, `m = max (-∞) (row maximum folded from -∞)`. -/
def lsmInner (l : Fin 40 → EReal) (j : Fin 40) : EReal :=
  (l j - max negInfW ((Finset.univ : Finset (Fin 40)).fold max negInfW l))
    - Ideal.log (zeroW + ∑ j' : Fin 40,
        Ideal.exp (l j' - max negInfW ((Finset.univ : Finset (Fin 40)).fold max negInfW l)))

/-- The concatenation of three rows of 64. -/
def cat3 (x1 x2 x3 : Fin 64 → EReal) (k : Fin 192) : EReal :=
  if h1 : k.val < 64 then x1 ⟨k.val, h1⟩
  else if h2 : k.val < 128 then x2 ⟨k.val - 64, by omega⟩
  else x3 ⟨k.val - 128, by omega⟩

/-- The 40 logits of one node from the concatenated row and the whole head matrix. -/
def logitsCat (x1 x2 x3 : Fin 64 → EReal) (W : Fin 192 → Fin 40 → EReal) (bl : Fin 40 → EReal) (j : Fin 40) : EReal :=
  (∑ k : Fin 192, cat3 x1 x2 x3 k * W k j) + bl j

/-- A row is real when each entry is a real number. -/
def RealRow {n : ℕ} (v : Fin n → EReal) : Prop := ∀ k, ∃ r : ℝ, v k = (r : EReal)
/-- A matrix is real when each entry is a real number. -/
def RealMat {n p : ℕ} (W : Fin n → Fin p → EReal) : Prop := ∀ k j, ∃ r : ℝ, W k j = (r : EReal)

/-- The maximum of two coerced reals is the coerced maximum. -/
private theorem coe_max' (a b : ℝ) : max (a : EReal) (b : EReal) = ((max a b : ℝ) : EReal) := by
  rcases le_total a b with h | h
  · rw [max_eq_right h, max_eq_right (EReal.coe_le_coe_iff.mpr h)]
  · rw [max_eq_left h, max_eq_left (EReal.coe_le_coe_iff.mpr h)]

/-- A sum over 192 indices is the sum of its three bands of 64: split `192 = 128 + 64`, then `128 = 64 + 64`, and
    name each band's index by its offset. -/
private theorem sum_three_bands (f : Fin 192 → EReal) :
    ∑ k : Fin 192, f k
      = ((∑ k : Fin 64, f ⟨k.val, by omega⟩) + (∑ k : Fin 64, f ⟨k.val + 64, by omega⟩))
          + (∑ k : Fin 64, f ⟨k.val + 128, by omega⟩) := by
  have h := Fin.sum_univ_add (a := 128) (b := 64) f
  have h2 := Fin.sum_univ_add (a := 64) (b := 64) (fun i : Fin (64 + 64) => f (Fin.castAdd 64 i))
  rw [h, h2]
  refine congrArg₂ (· + ·) (congrArg₂ (· + ·) ?_ ?_) ?_
  · exact Finset.sum_congr rfl fun k _ => rfl
  · exact Finset.sum_congr rfl fun k _ => congrArg f (Fin.ext (Nat.add_comm 64 k.val))
  · exact Finset.sum_congr rfl fun k _ => congrArg f (Fin.ext (Nat.add_comm 128 k.val))

/-- The concatenation reads the first row on the first band. -/
private theorem cat3_lo (x1 x2 x3 : Fin 64 → EReal) (k : Fin 64) : cat3 x1 x2 x3 ⟨k.val, by omega⟩ = x1 k := by
  unfold cat3
  rw [dif_pos k.isLt]

/-- The concatenation reads the second row on the second band. -/
private theorem cat3_mid (x1 x2 x3 : Fin 64 → EReal) (k : Fin 64) :
    cat3 x1 x2 x3 ⟨k.val + 64, by omega⟩ = x2 k := by
  have h1 : ¬ (k.val + 64 < 64) := by omega
  have h2 : k.val + 64 < 128 := by omega
  unfold cat3
  rw [dif_neg h1, dif_pos h2]
  exact congrArg x2 (Fin.ext (Nat.add_sub_cancel k.val 64))

/-- The concatenation reads the third row on the third band. -/
private theorem cat3_hi (x1 x2 x3 : Fin 64 → EReal) (k : Fin 64) :
    cat3 x1 x2 x3 ⟨k.val + 128, by omega⟩ = x3 k := by
  have h1 : ¬ (k.val + 128 < 64) := by omega
  have h2 : ¬ (k.val + 128 < 128) := by omega
  unfold cat3
  rw [dif_neg h1, dif_neg h2]
  exact congrArg x3 (Fin.ext (Nat.add_sub_cancel k.val 128))

/-- A layer's row of real inputs is real: the divisor `max d 1` is a real at least one. -/
theorem layRow_real {K H : ℕ} {a x : Fin K → EReal} {d : EReal} {Wl Wr : Fin K → Fin H → EReal} {b : Fin H → EReal}
    (ha : RealRow a) (hx : RealRow x) (hd : ∃ r : ℝ, d = (r : EReal)) (hWl : RealMat Wl) (hWr : RealMat Wr)
    (hb : RealRow b) : RealRow (layRow a x d Wl Wr b) := by
  intro j
  obtain ⟨rd, rfl⟩ := hd
  choose ra hra using ha
  choose rx hrx using hx
  choose rl hrl using hWl
  choose rr hrr using hWr
  choose rb hrb using hb
  have hone : oneW = ((1 : ℝ) : EReal) := Cert.ERealRows.ofBits_one.trans EReal.coe_one.symm
  have hzero : zeroW = ((0 : ℝ) : EReal) := Ideal.ofBits_zero_f32.trans EReal.coe_zero.symm
  have hmax : max (rd : EReal) oneW = ((max rd 1 : ℝ) : EReal) := by rw [hone, coe_max']
  have hpos : (max rd 1 : ℝ) ≠ 0 := (lt_of_lt_of_le one_pos (le_max_right _ _)).ne'
  unfold layRow
  rw [hmax, hzero]
  simp only [hra, hrx, hrl, hrr, hrb, Ideal.div_coe hpos, ← EReal.coe_mul, Cert.ERealRows.coe_sum, ← EReal.coe_add,
    coe_max']
  exact ⟨_, rfl⟩

/-- The band form and the concatenated form of the logits agree (a sum over 192 splits into three sums over 64;
    addition of extended reals is associative and commutative, so no finiteness is needed). -/
theorem logitsCat_eq_bands (x1 x2 x3 : Fin 64 → EReal) (W : Fin 192 → Fin 40 → EReal) (bl : Fin 40 → EReal) :
    logitsCat x1 x2 x3 W bl
      = logitsBands x1 x2 x3 (fun k j => W ⟨k.val, by omega⟩ j) (fun k j => W ⟨k.val + 64, by omega⟩ j)
          (fun k j => W ⟨k.val + 128, by omega⟩ j) bl := by
  funext j
  unfold logitsCat logitsBands
  rw [sum_three_bands]
  simp only [cat3_lo, cat3_mid, cat3_hi]

/-- The logits of real rows and a real head are real. -/
theorem logitsBands_real {x1 x2 x3 : Fin 64 → EReal} {Wa Wb Wc : Fin 64 → Fin 40 → EReal} {bl : Fin 40 → EReal}
    (h1 : RealRow x1) (h2 : RealRow x2) (h3 : RealRow x3) (hA : RealMat Wa) (hB : RealMat Wb) (hC : RealMat Wc)
    (hb : RealRow bl) : RealRow (logitsBands x1 x2 x3 Wa Wb Wc bl) := by
  intro j
  choose r1 hr1 using h1
  choose r2 hr2 using h2
  choose r3 hr3 using h3
  choose rA hrA using hA
  choose rB hrB using hB
  choose rC hrC using hC
  choose rb hrb using hb
  unfold logitsBands
  simp only [hr1, hr2, hr3, hrA, hrB, hrC, hrb, ← EReal.coe_mul, Cert.ERealRows.coe_sum, ← EReal.coe_add]
  exact ⟨_, rfl⟩

/-- On a real row of logits the two spellings of the log-softmax agree. -/
theorem lsmOuter_eq_lsmInner {l : Fin 40 → EReal} (hl : RealRow l) : lsmOuter l = lsmInner l := by
  choose r hr using hl
  obtain rfl : l = fun j => (r j : EReal) := funext hr
  funext j
  obtain ⟨M, hM⟩ := Cert.ERealRows.fold_max_real (ι := Fin 40) r
  have hneg : negInfW = ⊥ := Cert.ERealRows.ofBits_negInf
  have hzero : zeroW = (0 : EReal) := Ideal.ofBits_zero_f32
  have hexp : ∀ j', Ideal.exp ((r j' : EReal) - (M : EReal)) = ((Real.exp (r j' - M) : ℝ) : EReal) := fun j' => by
    rw [← EReal.coe_sub]; rfl
  have hS : 0 < ∑ j' : Fin 40, Real.exp (r j' - M) :=
    Finset.sum_pos (fun i _ => Real.exp_pos _) Finset.univ_nonempty
  unfold lsmOuter lsmInner
  rw [hneg, hM, hzero, max_eq_right (bot_le : (⊥ : EReal) ≤ (M : EReal)), zero_add]
  simp only [hexp, Cert.ERealRows.coe_sum]
  rw [Ideal.log_coe, if_neg (not_le.mpr hS), ← EReal.coe_add, ← EReal.coe_sub, ← EReal.coe_sub, ← EReal.coe_sub]
  congr 1
  ring

end Cert.GraphRows

end
-- ==== Proof.KPay.lean ====
/-
  The arithmetic of each kernel body, read at one entry of its output block: the two combine bodies give a layer's row
  of the block's node, and the fused third body gives the log-softmax of that node's forty logits.
-/
import proofs.«420739_j90159953477911_3_alg».proof.Proof.Gen.KernelIdeal.Skeleton
import proofs.«420739_j90159953477911_3_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRows

open Cert.KernelIdeal Cert.KernelIdeal.Gen Cert.GraphRows Idealize.ShloMosaic Idealize.ShloMosaic.ValueIdx

/-! ## Layout operations at explicit coordinates -/

section Layout
variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to the column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

/-- The exponential of a vector at an index is the exponential of the entry. -/
theorem exp_apply {s : Shape} {φ : FTy} (a : FVec Ideal s φ) (i : s.Idx) : exp a i = Ideal.exp (a i) := rfl
/-- The logarithm of a vector at an index is the logarithm of the entry. -/
theorem log_apply {s : Shape} {φ : FTy} (a : FVec Ideal s φ) (i : s.Idx) : log a i = Ideal.log (a i) := rfl

/-! ## A row-by-column product into the zero block -/

/-- A product of an `[M, K]` block with a `[K, N]` block contracting the one shared axis, accumulated into zero, at
    `(p, j)`: the sum over `k` of the products of the entries `(p, k)` and `(k, j)`. The four hypotheses say which
    coordinate each operand index takes from the output index and which from the contraction index. -/
theorem matmul_zero_ix2 {M K N : ℕ} (d : DotDims (⟨2, ![M, K]⟩ : Shape) ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (prec : Option ContractPrecision) (lhs : FVec Ideal ⟨2, ![M, K]⟩ .f32) (rhs : FVec Ideal ⟨2, ![K, N]⟩ .f32)
    (p : Fin M) (j : Fin N) :
    matmul d prec lhs rhs (constant (F := Ideal) ⟨2, ![M, N]⟩ .f32 0x00000000#32) (ix2 p j)
      = ∑ k : Fin K, lhs (ix2 p k) * rhs (ix2 k j) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

/-! ### The contraction `dot_S5000x128_S128x64_S5000x64_1_0_0_1_n_n` -/

theorem lhs_d128_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs_d128_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs_d128_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs_d128_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl
/-- This product into the zero block, at `(p, j)`: the sum over the 128 shared coordinates. -/
theorem mm_d128 (lhs : FVec Ideal S5000x128 .f32) (rhs : FVec Ideal S128x64 .f32) (p : Fin 5000) (j : Fin 64) :
    matmul dot_S5000x128_S128x64_S5000x64_1_0_0_1_n_n none lhs rhs (constant (F := Ideal) S5000x64 .f32 0x00000000#32) (ix2 p j)
      = ∑ k : Fin 128, lhs (ix2 p k) * rhs (ix2 k j) :=
  matmul_zero_ix2 dot_S5000x128_S128x64_S5000x64_1_0_0_1_n_n rfl rfl lhs_d128_0 lhs_d128_1 rhs_d128_0 rhs_d128_1 none lhs rhs p j

/-! ### The contraction `dot_S5000x64_S64x64_S5000x64_1_0_0_1_n_n` -/

theorem lhs_d64_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_d64_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_d64_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_d64_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl
/-- This product into the zero block, at `(p, j)`: the sum over the 64 shared coordinates. -/
theorem mm_d64 (lhs : FVec Ideal S5000x64 .f32) (rhs : FVec Ideal S64x64 .f32) (p : Fin 5000) (j : Fin 64) :
    matmul dot_S5000x64_S64x64_S5000x64_1_0_0_1_n_n none lhs rhs (constant (F := Ideal) S5000x64 .f32 0x00000000#32) (ix2 p j)
      = ∑ k : Fin 64, lhs (ix2 p k) * rhs (ix2 k j) :=
  matmul_zero_ix2 dot_S5000x64_S64x64_S5000x64_1_0_0_1_n_n rfl rfl lhs_d64_0 lhs_d64_1 rhs_d64_0 rhs_d64_1 none lhs rhs p j

/-! ### The contraction `dot_S5000x64_S64x40_S5000x40_1_0_0_1_n_n` -/

theorem lhs_d40_0 (i : S5000x40.Idx) (q : dot_S5000x64_S64x40_S5000x40_1_0_0_1_n_n.contr.Idx) :
    (dot_S5000x64_S64x40_S5000x40_1_0_0_1_n_n.lhsIdx i q 0).val = (i 0).val := by
  unfold DotDims.lhsIdx
  rw [dif_neg (show ¬(0 : Fin S5000x64.rank) ∈ dot_S5000x64_S64x40_S5000x40_1_0_0_1_n_n.lhsBatch by decide), dif_pos (show (0 : Fin S5000x64.rank) ∈ dot_S5000x64_S64x40_S5000x40_1_0_0_1_n_n.lhsNonContracting by decide)]
  rfl
theorem lhs_d40_1 (i : S5000x40.Idx) (q : dot_S5000x64_S64x40_S5000x40_1_0_0_1_n_n.contr.Idx) :
    (dot_S5000x64_S64x40_S5000x40_1_0_0_1_n_n.lhsIdx i q 1).val = (q ⟨0, by decide⟩).val :=
  dot_S5000x64_S64x40_S5000x40_1_0_0_1_n_n.lhsIdx_val_of_single rfl i q
theorem rhs_d40_0 (i : S5000x40.Idx) (q : dot_S5000x64_S64x40_S5000x40_1_0_0_1_n_n.contr.Idx) :
    (dot_S5000x64_S64x40_S5000x40_1_0_0_1_n_n.rhsIdx i q 0).val = (q ⟨0, by decide⟩).val :=
  dot_S5000x64_S64x40_S5000x40_1_0_0_1_n_n.rhsIdx_val_of_single rfl i q
theorem rhs_d40_1 (i : S5000x40.Idx) (q : dot_S5000x64_S64x40_S5000x40_1_0_0_1_n_n.contr.Idx) :
    (dot_S5000x64_S64x40_S5000x40_1_0_0_1_n_n.rhsIdx i q 1).val = (i 1).val := by
  unfold DotDims.rhsIdx
  rw [dif_neg (show ¬(1 : Fin S64x40.rank) ∈ dot_S5000x64_S64x40_S5000x40_1_0_0_1_n_n.rhsBatch by decide), dif_pos (show (1 : Fin S64x40.rank) ∈ dot_S5000x64_S64x40_S5000x40_1_0_0_1_n_n.rhsNonContracting by decide)]
  rfl
/-- This product into the zero block, at `(p, j)`: the sum over the 64 shared coordinates. -/
theorem mm_d40 (lhs : FVec Ideal S5000x64 .f32) (rhs : FVec Ideal S64x40 .f32) (p : Fin 5000) (j : Fin 40) :
    matmul dot_S5000x64_S64x40_S5000x40_1_0_0_1_n_n none lhs rhs (constant (F := Ideal) S5000x40 .f32 0x00000000#32) (ix2 p j)
      = ∑ k : Fin 64, lhs (ix2 p k) * rhs (ix2 k j) :=
  matmul_zero_ix2 dot_S5000x64_S64x40_S5000x40_1_0_0_1_n_n rfl rfl lhs_d40_0 lhs_d40_1 rhs_d40_0 rhs_d40_1 none lhs rhs p j

/-! ## A layer's row -/

/-- The combine body's arithmetic over variables: the aggregated block divided by the clamped degree column times the
    left weights, plus the node block times the right weights, plus the bias row, clamped below at zero; read at
    `(p, j)` it is the layer's row of node `p` at `j`. `hmm` reads the product at an entry. -/
theorem layer_apply {M K H : ℕ} (d : DotDims (⟨2, ![M, K]⟩ : Shape) ⟨2, ![K, H]⟩ ⟨2, ![M, H]⟩)
    (hmm : ∀ (lhs : FVec Ideal ⟨2, ![M, K]⟩ .f32) (rhs : FVec Ideal ⟨2, ![K, H]⟩ .f32) (p : Fin M) (j : Fin H),
      matmul d none lhs rhs (constant (F := Ideal) ⟨2, ![M, H]⟩ .f32 0x00000000#32) (ix2 p j)
        = ∑ k : Fin K, lhs (ix2 p k) * rhs (ix2 k j))
    (a x : FVec Ideal ⟨2, ![M, K]⟩ .f32) (dg : FVec Ideal ⟨2, ![M, 1]⟩ .f32) (wl wr : FVec Ideal ⟨2, ![K, H]⟩ .f32)
    (b : FVec Ideal ⟨2, ![1, H]⟩ .f32) (hb1 : (⟨2, ![M, 1]⟩ : Shape).Broadcasts ⟨2, ![M, K]⟩)
    (hb2 : (⟨2, ![1, H]⟩ : Shape).Broadcasts ⟨2, ![M, H]⟩) (p : Fin M) (j : Fin H) :
    maximumf (addf (addf
        (matmul d none (divf a (broadcastTo ⟨2, ![M, K]⟩
            (maximumf dg (broadcast ⟨2, ![M, 1]⟩ (Scalar.ofBits (F := Ideal) .f32 0x3F800000#32))) hb1)) wl
          (constant (F := Ideal) ⟨2, ![M, H]⟩ .f32 0x00000000#32))
        (matmul d none x wr (constant (F := Ideal) ⟨2, ![M, H]⟩ .f32 0x00000000#32)))
        (broadcastTo ⟨2, ![M, H]⟩ b hb2))
      (broadcast ⟨2, ![M, H]⟩ (Scalar.ofBits (F := Ideal) .f32 0x00000000#32)) (ix2 p j)
      = layRow (fun k : Fin K => a (ix2 p k)) (fun k : Fin K => x (ix2 p k)) (dg (ix2 p (0 : Fin 1)))
          (fun (k : Fin K) (j' : Fin H) => wl (ix2 k j')) (fun (k : Fin K) (j' : Fin H) => wr (ix2 k j'))
          (fun j' : Fin H => b (ix2 (0 : Fin 1) j')) j := by
  simp only [maximumf_apply, addf_apply, hmm, broadcastTo_1b_ab_apply, divf_apply, broadcastTo_a1_ab_apply,
    broadcast_apply]
  rfl

/-! ## The two lane reductions of a `[M, N]` block at a row -/

/-- The index over row `p` with lane coordinate `k` inserted is `(p, k)`. -/
theorem lift_ix1 {M N : ℕ} (h : (⟨2, ![M, N]⟩ : Shape).Reduces [1] ⟨1, ![M]⟩) (p : Fin M) (k : Fin N) :
    h.lift (ix1 p) k = ix2 p k := by
  funext a
  match a with
  | ⟨0, _⟩ => exact Fin.ext rfl
  | ⟨1, _⟩ => exact Fin.ext rfl

/-- The lane sum at row `p`: the sum of the row's entries. -/
theorem lanesum_apply {M N : ℕ} (src : FVec Ideal ⟨2, ![M, N]⟩ .f32) (acc : BitVec FTy.f32.bits)
    (h : (⟨2, ![M, N]⟩ : Shape).Reduces [1] ⟨1, ![M]⟩) (hφ : FKind.Formats .f32)
    (hacc : acc = FKind.add.neutral .f32 hφ) (p : Fin M) :
    multiReduction (F := Ideal) .add [1] ⟨1, ![M]⟩ src acc h hφ hacc (ix1 p) = ∑ k : Fin N, src (ix2 p k) := by
  refine (Ideal.multiReduction_add_single src acc h hφ hacc (ix1 p)).trans ?_
  exact Finset.sum_congr rfl fun k _ => congrArg src (lift_ix1 h p k)

/-- The lane maximum at row `p`: the fold of `max` from the accumulator's value over the row's entries. -/
theorem lanemax_apply {M N : ℕ} (src : FVec Ideal ⟨2, ![M, N]⟩ .f32) (acc : BitVec FTy.f32.bits)
    (h : (⟨2, ![M, N]⟩ : Shape).Reduces [1] ⟨1, ![M]⟩) (hφ : FKind.Formats .f32)
    (hacc : acc = FKind.maximumf.neutral .f32 hφ) (p : Fin M) :
    multiReduction (F := Ideal) .maximumf [1] ⟨1, ![M]⟩ src acc h hφ hacc (ix1 p)
      = (Finset.univ : Finset (Fin N)).fold max (Ideal.ofBits .f32 acc) (fun k : Fin N => src (ix2 p k)) := by
  refine (Ideal.multiReduction_maximumf_single src acc h hφ hacc (ix1 p)).trans ?_
  have e : (src ∘ h.lift (ix1 p)) = fun k : Fin N => src (ix2 p k) := funext fun k => congrArg src (lift_ix1 h p k)
  rw [e]
  rfl

/-- The lane sum of a `[5000, 40]` block at row `p`. -/
theorem lanesum40 (src : FVec Ideal S5000x40 .f32) (hφ : FKind.Formats .f32)
    (hadd : (0x00000000#32 : BitVec FTy.f32.bits) = FKind.add.neutral .f32 hφ) (p : Fin 5000) :
    multiReduction (F := Ideal) .add [1] S5000 src 0x00000000#32 reduces_S5000x40_S5000 hφ hadd (ix1 p)
      = ∑ k : Fin 40, src (ix2 p k) :=
  lanesum_apply src _ reduces_S5000x40_S5000 hφ hadd p

/-- The lane maximum of a `[5000, 40]` block at row `p`, folded from `-∞`. -/
theorem lanemax40 (src : FVec Ideal S5000x40 .f32) (hφ : FKind.Formats .f32)
    (hmax : (0xFF800000#32 : BitVec FTy.f32.bits) = FKind.maximumf.neutral .f32 hφ) (p : Fin 5000) :
    multiReduction (F := Ideal) .maximumf [1] S5000 src 0xFF800000#32 reduces_S5000x40_S5000 hφ hmax (ix1 p)
      = (Finset.univ : Finset (Fin 40)).fold max negInfW (fun k : Fin 40 => src (ix2 p k)) :=
  lanemax_apply src _ reduces_S5000x40_S5000 hφ hmax p

/-! ## The log-softmax tail -/

/-- The tail of the fused body over a variable block of logits `L`: subtract from each entry the logarithm of the
    row's sum of exponentials of the entries less the row maximum, plus that maximum. At `(p, j)` it is the
    log-softmax of row `p` at `j`, in the spelling that subtracts the sum of the two terms. -/
theorem lsm_tail (L : FVec Ideal S5000x40 .f32) (hφ : FKind.Formats .f32)
    (hmax : (0xFF800000#32 : BitVec FTy.f32.bits) = FKind.maximumf.neutral .f32 hφ)
    (hadd : (0x00000000#32 : BitVec FTy.f32.bits) = FKind.add.neutral .f32 hφ) (p : Fin 5000) (j : Fin 40) :
    subf L (broadcastTo S5000x40
        (addf
          (log (shapeCast S5000x1
            (multiReduction (F := Ideal) .add [1] S5000
              (exp (subf L (broadcastTo S5000x40
                (shapeCast S5000x1
                  (multiReduction (F := Ideal) .maximumf [1] S5000 L 0xFF800000#32 reduces_S5000x40_S5000 hφ hmax)
                  shapeCasts_S5000_S5000x1) broadcasts_S5000x1_S5000x40)))
              0x00000000#32 reduces_S5000x40_S5000 hφ hadd) shapeCasts_S5000_S5000x1))
          (shapeCast S5000x1
            (multiReduction (F := Ideal) .maximumf [1] S5000 L 0xFF800000#32 reduces_S5000x40_S5000 hφ hmax)
            shapeCasts_S5000_S5000x1))
        broadcasts_S5000x1_S5000x40) (ix2 p j)
      = lsmOuter (fun j' : Fin 40 => L (ix2 p j')) j := by
  simp only [subf_apply, broadcastTo_a1_ab_apply, addf_apply, log_apply, shapeCast_a_a1_apply]
  rw [lanemax40 L hφ hmax p]
  rw [lanesum40 _ hφ hadd p]
  simp only [exp_apply, subf_apply, broadcastTo_a1_ab_apply, shapeCast_a_a1_apply]
  rw [lanemax40 L hφ hmax p]
  rfl

/-! ## The three bodies -/

/-- The first combine body at row `p`, column `j` of its block: the layer's row of that node (128 input features). -/
theorem pay0_row (v0 : Vec Ideal S5000x128 .f32) (v2 : Vec Ideal S5000x1 .f32) (v8 : Vec Ideal S128x64 .f32)
    (v10 : Vec Ideal S5000x128 .f32) (v11 : Vec Ideal S128x64 .f32) (v14 : Vec Ideal S1x64 .f32)
    (p : Fin 5000) (j : Fin 64) :
    k0_pay1 (F := Ideal) v0 v2 v8 v10 v11 v14 (ix2 p j)
      = layRow (fun k : Fin 128 => v0 (ix2 p k)) (fun k : Fin 128 => v10 (ix2 p k)) (v2 (ix2 p (0 : Fin 1)))
          (fun (k : Fin 128) (j' : Fin 64) => v8 (ix2 k j')) (fun (k : Fin 128) (j' : Fin 64) => v11 (ix2 k j'))
          (fun j' : Fin 64 => v14 (ix2 (0 : Fin 1) j')) j := by
  unfold k0_pay1
  simp only [shapeCast_self]
  exact layer_apply dot_S5000x128_S128x64_S5000x64_1_0_0_1_n_n mm_d128 v0 v10 v2 v8 v11 v14 _ _ p j

/-- The second combine body: the same with 64 input features. -/
theorem pay1_row (v0 : Vec Ideal S5000x64 .f32) (v2 : Vec Ideal S5000x1 .f32) (v8 : Vec Ideal S64x64 .f32)
    (v10 : Vec Ideal S5000x64 .f32) (v12 : Vec Ideal S64x64 .f32) (v15 : Vec Ideal S1x64 .f32)
    (p : Fin 5000) (j : Fin 64) :
    k1_pay1 (F := Ideal) v0 v2 v8 v10 v12 v15 (ix2 p j)
      = layRow (fun k : Fin 64 => v0 (ix2 p k)) (fun k : Fin 64 => v10 (ix2 p k)) (v2 (ix2 p (0 : Fin 1)))
          (fun (k : Fin 64) (j' : Fin 64) => v8 (ix2 k j')) (fun (k : Fin 64) (j' : Fin 64) => v12 (ix2 k j'))
          (fun j' : Fin 64 => v15 (ix2 (0 : Fin 1) j')) j := by
  unfold k1_pay1
  simp only [shapeCast_self]
  exact layer_apply dot_S5000x64_S64x64_S5000x64_1_0_0_1_n_n mm_d64 v0 v10 v2 v8 v12 v15 _ _ p j

/-- The third layer's block inside the fused body, at `(p, k)`: the layer's row of node `p`. -/
theorem pay2l_row (v0 : Vec Ideal S5000x64 .f32) (v2 : Vec Ideal S5000x1 .f32) (v8 : Vec Ideal S64x64 .f32)
    (v10 : Vec Ideal S5000x64 .f32) (v12 : Vec Ideal S64x64 .f32) (v15 : Vec Ideal S1x64 .f32)
    (p : Fin 5000) (j : Fin 64) :
    k2_pay2 (F := Ideal) v0 v2 v8 v10 v12 v15 (ix2 p j)
      = layRow (fun k : Fin 64 => v0 (ix2 p k)) (fun k : Fin 64 => v10 (ix2 p k)) (v2 (ix2 p (0 : Fin 1)))
          (fun (k : Fin 64) (j' : Fin 64) => v8 (ix2 k j')) (fun (k : Fin 64) (j' : Fin 64) => v12 (ix2 k j'))
          (fun j' : Fin 64 => v15 (ix2 (0 : Fin 1) j')) j := by
  unfold k2_pay2
  simp only [shapeCast_self]
  exact layer_apply dot_S5000x64_S64x64_S5000x64_1_0_0_1_n_n mm_d64 v0 v10 v2 v8 v12 v15 _ _ p j

/-- The first two bands' contribution to the logits, at `(p, j)`: two sums over 64. -/
theorem pay3_apply (v21 : Vec Ideal S5000x64 .f32) (v23 : Vec Ideal S64x40 .f32) (v26 : Vec Ideal S5000x64 .f32)
    (v28 : Vec Ideal S64x40 .f32) (p : Fin 5000) (j : Fin 40) :
    k2_pay3 (F := Ideal) v21 v23 v26 v28 (ix2 p j)
      = (∑ k : Fin 64, v21 (ix2 p k) * v23 (ix2 k j)) + (∑ k : Fin 64, v26 (ix2 p k) * v28 (ix2 k j)) := by
  unfold k2_pay3
  simp only [shapeCast_self]
  exact (addf_apply _ _ _).trans (congrArg₂ (· + ·) (mm_d40 v21 v23 p j) (mm_d40 v26 v28 p j))

/-- The logits block over variables, at `(p, j)`: the two bands' contribution plus the third band's product plus the
    bias row. -/
theorem logits_apply (x3 : FVec Ideal S5000x64 .f32) (v31 : FVec Ideal S5000x40 .f32) (wc : FVec Ideal S64x40 .f32)
    (bl : FVec Ideal S1x40 .f32) (p : Fin 5000) (j : Fin 40) :
    addf (addf v31 (matmul dot_S5000x64_S64x40_S5000x40_1_0_0_1_n_n none x3 wc
        (constant (F := Ideal) S5000x40 .f32 0x00000000#32))) (broadcastTo S5000x40 bl broadcasts_S1x40_S5000x40) (ix2 p j)
      = (v31 (ix2 p j) + ∑ k : Fin 64, x3 (ix2 p k) * wc (ix2 k j)) + bl (ix2 (0 : Fin 1) j) := by
  simp only [addf_apply, mm_d40, broadcastTo_1b_ab_apply]

/-- The fused third body: the third layer's row of the node, the logits from the three layers' rows and the three
    bands of the head matrix, and their log-softmax. `a3` is the aggregated block, `x2` the second layer's block,
    `dg` the degrees, `x1` the first layer's block. -/
theorem pay2_row (a3 x2 : Vec Ideal S5000x64 .f32) (dg : Vec Ideal S5000x1 .f32) (w3l w3r : Vec Ideal S64x64 .f32)
    (b3 : Vec Ideal S1x64 .f32) (x1 : Vec Ideal S5000x64 .f32) (wa wb wc : Vec Ideal S64x40 .f32)
    (bl : Vec Ideal S1x40 .f32) (p : Fin 5000) (j : Fin 40) :
    k2_pay1 (F := Ideal) (k2_pay2 a3 dg w3l x2 w3r b3) (k2_pay3 x1 wa x2 wb) wc bl (ix2 p j)
      = lsmOuter (logitsBands (fun k : Fin 64 => x1 (ix2 p k)) (fun k : Fin 64 => x2 (ix2 p k))
          (layRow (fun k : Fin 64 => a3 (ix2 p k)) (fun k : Fin 64 => x2 (ix2 p k)) (dg (ix2 p (0 : Fin 1)))
            (fun (k : Fin 64) (j' : Fin 64) => w3l (ix2 k j')) (fun (k : Fin 64) (j' : Fin 64) => w3r (ix2 k j'))
            (fun j' : Fin 64 => b3 (ix2 (0 : Fin 1) j')))
          (fun (k : Fin 64) (j' : Fin 40) => wa (ix2 k j')) (fun (k : Fin 64) (j' : Fin 40) => wb (ix2 k j'))
          (fun (k : Fin 64) (j' : Fin 40) => wc (ix2 k j')) (fun j' : Fin 40 => bl (ix2 (0 : Fin 1) j'))) j := by
  unfold k2_pay1
  simp only [shapeCast_self]
  refine (lsm_tail _ _ _ _ p j).trans ?_
  refine congrArg (fun l : Fin 40 → EReal => lsmOuter l j) (funext fun j' => ?_)
  refine (logits_apply _ _ _ _ p j').trans ?_
  rw [pay3_apply]
  simp only [pay2l_row]
  rfl

end Cert.KernelIdeal.PayRows

end
-- ==== Proof.Region0.lean ====
/-
  The first combine launch: ten row tiles of 5000 nodes. Tile `t` of the output is the body's value on tile `t` of the
  aggregated features, of the node features and of the degrees (the two weight matrices and the bias are whole at
  every tile), the tiles cover the 50000 rows, and the body's value at a row is the layer's row of that node: so the
  output array holds, at node `r` and column `j`, the layer's row of node `r` at `j`.
-/
import proofs.«420739_j90159953477911_3_alg».proof.Proof.Gen.KernelIdeal.Frame
import proofs.«420739_j90159953477911_3_alg».proof.Proof.KPay
import Idealize.ShloMosaic.Lib.ValueIdx
import Idealize.ShloMosaic.Lib.Pipeline.Value

set_option maxRecDepth 16384

noncomputable section

namespace Cert.KernelIdeal.Region0

open Cert.KernelIdeal Cert.KernelIdeal.Gen Cert.GraphRows
open Idealize.ShloMosaic Idealize.ShloMosaic.ValueIdx Idealize.ShloMosaic.TcCoe Idealize.SL.Sem
open Idealize.ShloMosaic.Pipeline (Dat)

-- the buffer contents when the region is entered
variable (V : (c : Dev nD) → (b : Ref sig .tc) → Buf (Elt Ideal) ((c : Thread nD τ).loc b))

/-- The printed index maps, decided once over the ten points: a row-tiled window's block index is the point's
    number on the row axis and zero on the column axis; a whole window's block index is zero on both. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The row of the array that row `p` of tile `t` is. -/
def tileRow (t : Fin cfg0.N) (p : Fin 5000) : Fin 50000 :=
  ⟨t.val * 5000 + p.val, by have ht : t.val < 10 := t.isLt; have hp := p.isLt; omega⟩

/-- Tile `t` of the aggregated features reads the array at the tile's rows. -/
theorem blk0_read (c : Dev nD) (t : Fin cfg0.N) (p : Fin 5000) (k : Fin 128) :
    (iblk0 V c 0 t : Vec Ideal S5000x128 .f32) (ix2 p k) = V c main_v23 (ix2 (tileRow t p) k) := by
  show V c main_v23 (((cfg0.win 0).blk t).view.emb (ix2 p k)) = V c main_v23 (ix2 (tileRow t p) k)
  obtain ⟨e0, e1, -⟩ := index_facts t
  refine congrArg _ ?_
  funext a; apply Fin.ext
  match a with
  | ⟨0, _⟩ => show win0_0.index t (0 : Fin 2) * 5000 + 1 * p.val = t.val * 5000 + p.val; omega
  | ⟨1, _⟩ => show win0_0.index t (1 : Fin 2) * 128 + 1 * k.val = k.val; omega

/-- Tile `t` of the node features reads the array at the tile's rows. -/
theorem blk1_read (c : Dev nD) (t : Fin cfg0.N) (p : Fin 5000) (k : Fin 128) :
    (iblk0 V c 1 t : Vec Ideal S5000x128 .f32) (ix2 p k) = V c main_arg0 (ix2 (tileRow t p) k) := by
  show V c main_arg0 (((cfg0.win 1).blk t).view.emb (ix2 p k)) = V c main_arg0 (ix2 (tileRow t p) k)
  obtain ⟨-, -, e0, e1, -⟩ := index_facts t
  refine congrArg _ ?_
  funext a; apply Fin.ext
  match a with
  | ⟨0, _⟩ => show win0_1.index t (0 : Fin 2) * 5000 + 1 * p.val = t.val * 5000 + p.val; omega
  | ⟨1, _⟩ => show win0_1.index t (1 : Fin 2) * 128 + 1 * k.val = k.val; omega

/-- Tile `t` of the degree column reads the array at the tile's rows. -/
theorem blk2_read (c : Dev nD) (t : Fin cfg0.N) (p : Fin 5000) (k : Fin 1) :
    (iblk0 V c 2 t : Vec Ideal S5000x1 .f32) (ix2 p k) = V c main_v10 (ix2 (tileRow t p) k) := by
  show V c main_v10 (((cfg0.win 2).blk t).view.emb (ix2 p k)) = V c main_v10 (ix2 (tileRow t p) k)
  obtain ⟨-, -, -, -, e0, e1, -⟩ := index_facts t
  refine congrArg _ ?_
  funext a; apply Fin.ext
  match a with
  | ⟨0, _⟩ => show win0_2.index t (0 : Fin 2) * 5000 + 1 * p.val = t.val * 5000 + p.val; omega
  | ⟨1, _⟩ => show win0_2.index t (1 : Fin 2) * 1 + 1 * k.val = k.val; omega

/-- The first weight matrix is whole at every tile. -/
theorem blk3_read (c : Dev nD) (t : Fin cfg0.N) (k : Fin 128) (j : Fin 64) :
    (iblk0 V c 3 t : Vec Ideal S128x64 .f32) (ix2 k j) = V c main_arg3 (ix2 k j) := by
  show V c main_arg3 (((cfg0.win 3).blk t).view.emb (ix2 k j)) = V c main_arg3 (ix2 k j)
  obtain ⟨-, -, -, -, -, -, e0, e1, -⟩ := index_facts t
  refine congrArg _ ?_
  funext a; apply Fin.ext
  match a with
  | ⟨0, _⟩ => show win0_3.index t (0 : Fin 2) * 128 + 1 * k.val = k.val; omega
  | ⟨1, _⟩ => show win0_3.index t (1 : Fin 2) * 64 + 1 * j.val = j.val; omega

/-- The second weight matrix is whole at every tile. -/
theorem blk4_read (c : Dev nD) (t : Fin cfg0.N) (k : Fin 128) (j : Fin 64) :
    (iblk0 V c 4 t : Vec Ideal S128x64 .f32) (ix2 k j) = V c main_arg4 (ix2 k j) := by
  show V c main_arg4 (((cfg0.win 4).blk t).view.emb (ix2 k j)) = V c main_arg4 (ix2 k j)
  obtain ⟨-, -, -, -, -, -, -, -, e0, e1, -⟩ := index_facts t
  refine congrArg _ ?_
  funext a; apply Fin.ext
  match a with
  | ⟨0, _⟩ => show win0_4.index t (0 : Fin 2) * 128 + 1 * k.val = k.val; omega
  | ⟨1, _⟩ => show win0_4.index t (1 : Fin 2) * 64 + 1 * j.val = j.val; omega

/-- The bias row is whole at every tile. -/
theorem blk5_read (c : Dev nD) (t : Fin cfg0.N) (k : Fin 1) (j : Fin 64) :
    (iblk0 V c 5 t : Vec Ideal S1x64 .f32) (ix2 k j) = V c main_v24 (ix2 k j) := by
  show V c main_v24 (((cfg0.win 5).blk t).view.emb (ix2 k j)) = V c main_v24 (ix2 k j)
  obtain ⟨-, -, -, -, -, -, -, -, -, -, e0, e1, -⟩ := index_facts t
  refine congrArg _ ?_
  funext a; apply Fin.ext
  match a with
  | ⟨0, _⟩ => show win0_5.index t (0 : Fin 2) * 1 + 1 * k.val = k.val; omega
  | ⟨1, _⟩ => show win0_5.index t (1 : Fin 2) * 64 + 1 * j.val = j.val; omega

/-- Where entry `(p, q)` of the output's tile `t` sits in the output array. -/
theorem blk6_emb (t : Fin cfg0.N) (p : Fin 5000) (q : Fin 64) :
    ((cfg0.win 6).blk t).view.emb (ix2 p q) = ix2 (tileRow t p) q := by
  obtain ⟨-, -, -, -, -, -, -, -, -, -, -, -, e0, e1⟩ := index_facts t
  funext a; apply Fin.ext
  match a with
  | ⟨0, _⟩ => show win0_6.index t (0 : Fin 2) * 5000 + 1 * p.val = t.val * 5000 + p.val; omega
  | ⟨1, _⟩ => show win0_6.index t (1 : Fin 2) * 64 + 1 * q.val = q.val; omega

/-- The layer's row of every node, as one function of the output array's index. -/
def layArr (c : Dev nD) : S50000x64.Idx → Elt Ideal .f32 := fun i =>
  layRow (fun k : Fin 128 => V c main_v23 (ix2 (i 0) k)) (fun k : Fin 128 => V c main_arg0 (ix2 (i 0) k))
    (V c main_v10 (ix2 (i 0) (0 : Fin 1)))
    (fun (k : Fin 128) (j' : Fin 64) => V c main_arg3 (ix2 k j'))
    (fun (k : Fin 128) (j' : Fin 64) => V c main_arg4 (ix2 k j'))
    (fun j' : Fin 64 => V c main_v24 (ix2 (0 : Fin 1) j')) (i 1)

theorem off_zero : (![0, 0] : Fin 2 → Nat) = fun _ => 0 := funext fun a => by fin_cases a <;> rfl

/-- What point `t` writes back is tile `t` of the layer's rows. -/
theorem flushed_eq (c : Dev nD) (t : Fin cfg0.N) :
    (dat0 (F := Ideal) V c).flushed 6 t = ((cfg0.win 6).blk t).view.read (Elt Ideal) (layArr V c) := by
  show (cfg0.win 6).cut (grid0.coords t) ((dat0 (F := Ideal) V c).after 6 t) = _
  rw [after0_6]
  unfold out0_6
  rw [View.canon_unit_zero off_zero]
  simp only [View.ld_unit_zero (S := S5000x128) off_zero, View.ld_unit_zero (S := S5000x1) off_zero,
    View.ld_unit_zero (S := S128x64) off_zero, View.ld_unit_zero (S := S1x64) off_zero]
  funext y
  obtain ⟨p, q, rfl⟩ : ∃ (p : Fin 5000) (q : Fin 64), y = ix2 p q := ⟨y 0, y 1, eq_ix2 y⟩
  show k0_pay1 (F := Ideal) (iblk0 V c 0 t) (iblk0 V c 2 t) (iblk0 V c 3 t) (iblk0 V c 1 t) (iblk0 V c 4 t) (iblk0 V c 5 t) (ix2 p q)
      = layArr V c (((cfg0.win 6).blk t).view.emb (ix2 p q))
  rw [PayRows.pay0_row, blk6_emb]
  simp only [blk0_read, blk1_read, blk2_read, blk3_read, blk4_read, blk5_read]
  rfl

/-- An index of the output array is in point `t`'s tile iff each coordinate is in the tile's range on its axis. -/
theorem mem_blk (t : Fin cfg0.N) (i : S50000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v25).slice (win0_6.rect t)).set ↔ _
  rw [View.set_slice_whole, Rect.mem_set_unit]
  exact Iff.rfl

/-- Every index of the output array is in the tile of the point its row falls in, and every point writes back. -/
theorem cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have ht : (i 0).val / 5000 < 10 := by omega
  refine ⟨⟨(i 0).val / 5000, ht⟩, flush0_6 _, ?_⟩
  rw [mem_blk]
  obtain ⟨-, -, -, -, -, -, -, -, -, -, -, -, e0, e1⟩ := index_facts ⟨(i 0).val / 5000, ht⟩
  have e0' : win0_6.index ⟨(i 0).val / 5000, ht⟩ (0 : Fin 2) = (i 0).val / 5000 := e0
  intro a
  match a with
  | ⟨0, _⟩ =>
    show win0_6.index ⟨(i 0).val / 5000, ht⟩ (0 : Fin 2) * 5000 ≤ (i 0).val
      ∧ (i 0).val < win0_6.index ⟨(i 0).val / 5000, ht⟩ (0 : Fin 2) * 5000 + 5000
    omega
  | ⟨1, _⟩ =>
    show win0_6.index ⟨(i 0).val / 5000, ht⟩ (1 : Fin 2) * 64 ≤ (i 1).val
      ∧ (i 1).val < win0_6.index ⟨(i 0).val / 5000, ht⟩ (1 : Fin 2) * 64 + 64
    omega

/-- The output array after the launch is the layer's rows. -/
theorem arr_eq (c : Dev nD) : (dat0 (F := Ideal) V c).arrAt 6 cfg0.N = layArr V c :=
  (dat0 (F := Ideal) V c).arrAt_eq_of_cover 6 (layArr V c) (fun t _ => flushed_eq V c t) cover

/-- After the launch the output array holds each node's layer row. -/
theorem arr0_6 (c : Dev nD) (r : Fin 50000) (j : Fin 64) :
    (dat0 (F := Ideal) V c).arrAt 6 cfg0.N (ix2 r j)
      = layRow (fun k : Fin 128 => V c main_v23 (ix2 r k)) (fun k : Fin 128 => V c main_arg0 (ix2 r k))
          (V c main_v10 (ix2 r (0 : Fin 1)))
          (fun (k : Fin 128) (j' : Fin 64) => V c main_arg3 (ix2 k j'))
          (fun (k : Fin 128) (j' : Fin 64) => V c main_arg4 (ix2 k j'))
          (fun j' : Fin 64 => V c main_v24 (ix2 (0 : Fin 1) j')) j := by
  rw [arr_eq]
  rfl

end Cert.KernelIdeal.Region0

end
-- ==== Proof.Region1.lean ====
/-
  The second combine launch: the same ten row tiles, 64 input features. After it the output array holds, at node `r`
  and column `j`, the second layer's row of node `r` at `j`.
-/
import proofs.«420739_j90159953477911_3_alg».proof.Proof.Gen.KernelIdeal.Frame
import proofs.«420739_j90159953477911_3_alg».proof.Proof.KPay
import Idealize.ShloMosaic.Lib.ValueIdx
import Idealize.ShloMosaic.Lib.Pipeline.Value

set_option maxRecDepth 16384

noncomputable section

namespace Cert.KernelIdeal.Region1

open Cert.KernelIdeal Cert.KernelIdeal.Gen Cert.GraphRows
open Idealize.ShloMosaic Idealize.ShloMosaic.ValueIdx Idealize.ShloMosaic.TcCoe Idealize.SL.Sem
open Idealize.ShloMosaic.Pipeline (Dat)

-- the buffer contents when the region is entered
variable (V : (c : Dev nD) → (b : Ref sig .tc) → Buf (Elt Ideal) ((c : Thread nD τ).loc b))

/-- The printed index maps, decided once over the ten points: a row-tiled window's block index is the point's
    number on the row axis and zero on the column axis; a whole window's block index is zero on both. -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The row of the array that row `p` of tile `t` is. -/
def tileRow (t : Fin cfg1.N) (p : Fin 5000) : Fin 50000 :=
  ⟨t.val * 5000 + p.val, by have ht : t.val < 10 := t.isLt; have hp := p.isLt; omega⟩

/-- Tile `t` of the aggregated features reads the array at the tile's rows. -/
theorem blk0_read (c : Dev nD) (t : Fin cfg1.N) (p : Fin 5000) (k : Fin 64) :
    (iblk1 V c 0 t : Vec Ideal S5000x64 .f32) (ix2 p k) = V c main_v38 (ix2 (tileRow t p) k) := by
  show V c main_v38 (((cfg1.win 0).blk t).view.emb (ix2 p k)) = V c main_v38 (ix2 (tileRow t p) k)
  obtain ⟨e0, e1, -⟩ := index_facts t
  refine congrArg _ ?_
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

/-- Tile `t` of the previous layer's output reads the array at the tile's rows. -/
theorem blk1_read (c : Dev nD) (t : Fin cfg1.N) (p : Fin 5000) (k : Fin 64) :
    (iblk1 V c 1 t : Vec Ideal S5000x64 .f32) (ix2 p k) = V c main_v25 (ix2 (tileRow t p) k) := by
  show V c main_v25 (((cfg1.win 1).blk t).view.emb (ix2 p k)) = V c main_v25 (ix2 (tileRow t p) k)
  obtain ⟨-, -, e0, e1, -⟩ := index_facts t
  refine congrArg _ ?_
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

/-- Tile `t` of the degree column reads the array at the tile's rows. -/
theorem blk2_read (c : Dev nD) (t : Fin cfg1.N) (p : Fin 5000) (k : Fin 1) :
    (iblk1 V c 2 t : Vec Ideal S5000x1 .f32) (ix2 p k) = V c main_v10 (ix2 (tileRow t p) k) := by
  show V c main_v10 (((cfg1.win 2).blk t).view.emb (ix2 p k)) = V c main_v10 (ix2 (tileRow t p) k)
  obtain ⟨-, -, -, -, e0, e1, -⟩ := index_facts t
  refine congrArg _ ?_
  funext a; apply Fin.ext
  match a with
  | ⟨0, _⟩ => show win1_2.index t (0 : Fin 2) * 5000 + 1 * p.val = t.val * 5000 + p.val; omega
  | ⟨1, _⟩ => show win1_2.index t (1 : Fin 2) * 1 + 1 * k.val = k.val; omega

/-- The first weight matrix is whole at every tile. -/
theorem blk3_read (c : Dev nD) (t : Fin cfg1.N) (k : Fin 64) (j : Fin 64) :
    (iblk1 V c 3 t : Vec Ideal S64x64 .f32) (ix2 k j) = V c main_arg6 (ix2 k j) := by
  show V c main_arg6 (((cfg1.win 3).blk t).view.emb (ix2 k j)) = V c main_arg6 (ix2 k j)
  obtain ⟨-, -, -, -, -, -, e0, e1, -⟩ := index_facts t
  refine congrArg _ ?_
  funext a; apply Fin.ext
  match a with
  | ⟨0, _⟩ => show win1_3.index t (0 : Fin 2) * 64 + 1 * k.val = k.val; omega
  | ⟨1, _⟩ => show win1_3.index t (1 : Fin 2) * 64 + 1 * j.val = j.val; omega

/-- The second weight matrix is whole at every tile. -/
theorem blk4_read (c : Dev nD) (t : Fin cfg1.N) (k : Fin 64) (j : Fin 64) :
    (iblk1 V c 4 t : Vec Ideal S64x64 .f32) (ix2 k j) = V c main_arg7 (ix2 k j) := by
  show V c main_arg7 (((cfg1.win 4).blk t).view.emb (ix2 k j)) = V c main_arg7 (ix2 k j)
  obtain ⟨-, -, -, -, -, -, -, -, e0, e1, -⟩ := index_facts t
  refine congrArg _ ?_
  funext a; apply Fin.ext
  match a with
  | ⟨0, _⟩ => show win1_4.index t (0 : Fin 2) * 64 + 1 * k.val = k.val; omega
  | ⟨1, _⟩ => show win1_4.index t (1 : Fin 2) * 64 + 1 * j.val = j.val; omega

/-- The bias row is whole at every tile. -/
theorem blk5_read (c : Dev nD) (t : Fin cfg1.N) (k : Fin 1) (j : Fin 64) :
    (iblk1 V c 5 t : Vec Ideal S1x64 .f32) (ix2 k j) = V c main_v39 (ix2 k j) := by
  show V c main_v39 (((cfg1.win 5).blk t).view.emb (ix2 k j)) = V c main_v39 (ix2 k j)
  obtain ⟨-, -, -, -, -, -, -, -, -, -, e0, e1, -⟩ := index_facts t
  refine congrArg _ ?_
  funext a; apply Fin.ext
  match a with
  | ⟨0, _⟩ => show win1_5.index t (0 : Fin 2) * 1 + 1 * k.val = k.val; omega
  | ⟨1, _⟩ => show win1_5.index t (1 : Fin 2) * 64 + 1 * j.val = j.val; omega

/-- Where entry `(p, q)` of the output's tile `t` sits in the output array. -/
theorem blk6_emb (t : Fin cfg1.N) (p : Fin 5000) (q : Fin 64) :
    ((cfg1.win 6).blk t).view.emb (ix2 p q) = ix2 (tileRow t p) q := by
  obtain ⟨-, -, -, -, -, -, -, -, -, -, -, -, e0, e1⟩ := index_facts t
  funext a; apply Fin.ext
  match a with
  | ⟨0, _⟩ => show win1_6.index t (0 : Fin 2) * 5000 + 1 * p.val = t.val * 5000 + p.val; omega
  | ⟨1, _⟩ => show win1_6.index t (1 : Fin 2) * 64 + 1 * q.val = q.val; omega

/-- The layer's row of every node, as one function of the output array's index. -/
def layArr (c : Dev nD) : S50000x64.Idx → Elt Ideal .f32 := fun i =>
  layRow (fun k : Fin 64 => V c main_v38 (ix2 (i 0) k)) (fun k : Fin 64 => V c main_v25 (ix2 (i 0) k))
    (V c main_v10 (ix2 (i 0) (0 : Fin 1)))
    (fun (k : Fin 64) (j' : Fin 64) => V c main_arg6 (ix2 k j'))
    (fun (k : Fin 64) (j' : Fin 64) => V c main_arg7 (ix2 k j'))
    (fun j' : Fin 64 => V c main_v39 (ix2 (0 : Fin 1) j')) (i 1)

theorem off_zero : (![0, 0] : Fin 2 → Nat) = fun _ => 0 := funext fun a => by fin_cases a <;> rfl

/-- What point `t` writes back is tile `t` of the layer's rows. -/
theorem flushed_eq (c : Dev nD) (t : Fin cfg1.N) :
    (dat1 (F := Ideal) V c).flushed 6 t = ((cfg1.win 6).blk t).view.read (Elt Ideal) (layArr V c) := by
  show (cfg1.win 6).cut (grid1.coords t) ((dat1 (F := Ideal) V c).after 6 t) = _
  rw [after1_6]
  unfold out1_6
  rw [View.canon_unit_zero off_zero]
  simp only [View.ld_unit_zero (S := S5000x64) off_zero, View.ld_unit_zero (S := S5000x1) off_zero,
    View.ld_unit_zero (S := S64x64) off_zero, View.ld_unit_zero (S := S1x64) off_zero]
  funext y
  obtain ⟨p, q, rfl⟩ : ∃ (p : Fin 5000) (q : Fin 64), y = ix2 p q := ⟨y 0, y 1, eq_ix2 y⟩
  show k1_pay1 (F := Ideal) (iblk1 V c 0 t) (iblk1 V c 2 t) (iblk1 V c 3 t) (iblk1 V c 1 t) (iblk1 V c 4 t) (iblk1 V c 5 t) (ix2 p q)
      = layArr V c (((cfg1.win 6).blk t).view.emb (ix2 p q))
  rw [PayRows.pay1_row, blk6_emb]
  simp only [blk0_read, blk1_read, blk2_read, blk3_read, blk4_read, blk5_read]
  rfl

/-- An index of the output array is in point `t`'s tile iff each coordinate is in the tile's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v40).slice (win1_6.rect t)).set ↔ _
  rw [View.set_slice_whole, Rect.mem_set_unit]
  exact Iff.rfl

/-- Every index of the output array is in the tile of the point its row falls in, and every point writes back. -/
theorem cover (i : S50000x64.Idx) :
    ∃ t : Fin cfg1.N, (cfg1.win 6).flush t = true ∧ i ∈ ((cfg1.win 6).blk t).view.set := by
  have hi0 : (i 0).val < 50000 := (i 0).isLt
  have hi1 : (i 1).val < 64 := (i 1).isLt
  have ht : (i 0).val / 5000 < 10 := by omega
  refine ⟨⟨(i 0).val / 5000, ht⟩, flush1_6 _, ?_⟩
  rw [mem_blk]
  obtain ⟨-, -, -, -, -, -, -, -, -, -, -, -, e0, e1⟩ := index_facts ⟨(i 0).val / 5000, ht⟩
  have e0' : win1_6.index ⟨(i 0).val / 5000, ht⟩ (0 : Fin 2) = (i 0).val / 5000 := e0
  intro a
  match a with
  | ⟨0, _⟩ =>
    show win1_6.index ⟨(i 0).val / 5000, ht⟩ (0 : Fin 2) * 5000 ≤ (i 0).val
      ∧ (i 0).val < win1_6.index ⟨(i 0).val / 5000, ht⟩ (0 : Fin 2) * 5000 + 5000
    omega
  | ⟨1, _⟩ =>
    show win1_6.index ⟨(i 0).val / 5000, ht⟩ (1 : Fin 2) * 64 ≤ (i 1).val
      ∧ (i 1).val < win1_6.index ⟨(i 0).val / 5000, ht⟩ (1 : Fin 2) * 64 + 64
    omega

/-- The output array after the launch is the layer's rows. -/
theorem arr_eq (c : Dev nD) : (dat1 (F := Ideal) V c).arrAt 6 cfg1.N = layArr V c :=
  (dat1 (F := Ideal) V c).arrAt_eq_of_cover 6 (layArr V c) (fun t _ => flushed_eq V c t) cover

/-- After the launch the output array holds each node's layer row. -/
theorem arr1_6 (c : Dev nD) (r : Fin 50000) (j : Fin 64) :
    (dat1 (F := Ideal) V c).arrAt 6 cfg1.N (ix2 r j)
      = layRow (fun k : Fin 64 => V c main_v38 (ix2 r k)) (fun k : Fin 64 => V c main_v25 (ix2 r k))
          (V c main_v10 (ix2 r (0 : Fin 1)))
          (fun (k : Fin 64) (j' : Fin 64) => V c main_arg6 (ix2 k j'))
          (fun (k : Fin 64) (j' : Fin 64) => V c main_arg7 (ix2 k j'))
          (fun j' : Fin 64 => V c main_v39 (ix2 (0 : Fin 1) j')) j := by
  rw [arr_eq]
  rfl

end Cert.KernelIdeal.Region1

end
-- ==== Proof.Region2.lean ====
/-
  The fused third launch: ten row tiles of 5000 nodes. Tile `t` of the output is the body's value on tile `t` of the
  third aggregation, of the second and first layers' outputs and of the degrees (weights and biases whole at every
  tile); the tiles cover the 50000 rows; the body's value at a row is the log-softmax of that node's logits. So the
  output array holds, at node `r` and class `j`, the log-softmax of node `r`'s forty logits at `j`.
-/
import proofs.«420739_j90159953477911_3_alg».proof.Proof.Gen.KernelIdeal.Frame
import proofs.«420739_j90159953477911_3_alg».proof.Proof.KPay
import Idealize.ShloMosaic.Lib.ValueIdx
import Idealize.ShloMosaic.Lib.Pipeline.Value

set_option maxRecDepth 16384

noncomputable section

namespace Cert.KernelIdeal.Region2

open Cert.KernelIdeal Cert.KernelIdeal.Gen Cert.GraphRows
open Idealize.ShloMosaic Idealize.ShloMosaic.ValueIdx Idealize.ShloMosaic.TcCoe Idealize.SL.Sem
open Idealize.ShloMosaic.Pipeline (Dat)

-- the buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The windows' index maps over the ten tiles: a row-tiled window sits at row block `t`, column block 0; a whole
    window sits at block (0, 0). -/
theorem index_maps : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = 0 ∧ win2_9.index t (1 : Fin 2) = 0)
    ∧ (win2_10.index t (0 : Fin 2) = 0 ∧ win2_10.index t (1 : Fin 2) = 0)
    ∧ (win2_11.index t (0 : Fin 2) = t.val ∧ win2_11.index t (1 : Fin 2) = 0) :=
  (by decide +kernel : ∀ t : Fin grid2.N, _)

theorem tile_lt (t : Fin cfg2.N) : t.val < 10 := t.isLt

/-- The node that row `p` of tile `t` holds. -/
def tileRow (t : Fin cfg2.N) (p : Fin 5000) : Fin 50000 :=
  ⟨t.val * 5000 + p.val, by have ht := tile_lt t; omega⟩

/-- An index of the output array is in tile `t`'s block iff each coordinate is in the block's range on its axis. -/
theorem mem_blk (t : Fin cfg2.N) (i : S50000x40.Idx) :
    i ∈ ((cfg2.win 11).blk t).view.set ↔ ∀ a : Fin 2, win2_11.index t a * S5000x40.size a ≤ (i a).val ∧ (i a).val < win2_11.index t a * S5000x40.size a + S5000x40.size a := by
  show i ∈ ((View.whole main_v59).slice (win2_11.rect t)).set ↔ _
  rw [View.set_slice_whole, Rect.mem_set_unit]
  exact Iff.rfl

/-- Tile `t` of the third aggregation holds the aggregated rows of its nodes. -/
theorem blk_agg3 (c : Dev nD) (t : Fin cfg2.N) (p : Fin 5000) (k : Fin 64) :
    iblk2 (F := Ideal) V c 0 t (ix2 p k) = V c main_v53 (ix2 (tileRow t p) k) := by
  have h : ((cfg2.win 0).blk t).view.emb (ix2 p k) = ix2 (tileRow t p) k := by
    obtain ⟨e0, e1⟩ := (index_maps t).1
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  show V c main_v53 (((cfg2.win 0).blk t).view.emb (ix2 p k)) = V c main_v53 (ix2 (tileRow t p) k)
  rw [h]

/-- Tile `t` of the second layer's output holds that layer's rows of its nodes. -/
theorem blk_lay2 (c : Dev nD) (t : Fin cfg2.N) (p : Fin 5000) (k : Fin 64) :
    iblk2 (F := Ideal) V c 1 t (ix2 p k) = V c main_v40 (ix2 (tileRow t p) k) := by
  have h : ((cfg2.win 1).blk t).view.emb (ix2 p k) = ix2 (tileRow t p) k := by
    obtain ⟨e0, e1⟩ := (index_maps t).2.1
    funext a; apply Fin.ext
    match a with
    | ⟨0, _⟩ => show win2_1.index t (0 : Fin 2) * 5000 + 1 * p.val = t.val * 5000 + p.val; omega
    | ⟨1, _⟩ => show win2_1.index t (1 : Fin 2) * 64 + 1 * k.val = k.val; omega
  show V c main_v40 (((cfg2.win 1).blk t).view.emb (ix2 p k)) = V c main_v40 (ix2 (tileRow t p) k)
  rw [h]

/-- Tile `t` of the degrees holds the degrees of its nodes. -/
theorem blk_deg (c : Dev nD) (t : Fin cfg2.N) (p : Fin 5000) (k : Fin 1) :
    iblk2 (F := Ideal) V c 2 t (ix2 p k) = V c main_v10 (ix2 (tileRow t p) k) := by
  have h : ((cfg2.win 2).blk t).view.emb (ix2 p k) = ix2 (tileRow t p) k := by
    obtain ⟨e0, e1⟩ := (index_maps t).2.2.1
    funext a; apply Fin.ext
    match a with
    | ⟨0, _⟩ => show win2_2.index t (0 : Fin 2) * 5000 + 1 * p.val = t.val * 5000 + p.val; omega
    | ⟨1, _⟩ => show win2_2.index t (1 : Fin 2) * 1 + 1 * k.val = k.val; omega
  show V c main_v10 (((cfg2.win 2).blk t).view.emb (ix2 p k)) = V c main_v10 (ix2 (tileRow t p) k)
  rw [h]

/-- The third layer's neighbour weights are read whole at every tile. -/
theorem blk_w3l (c : Dev nD) (t : Fin cfg2.N) (k : Fin 64) (j : Fin 64) :
    iblk2 (F := Ideal) V c 3 t (ix2 k j) = V c main_arg9 (ix2 k j) := by
  have h : ((cfg2.win 3).blk t).view.emb (ix2 k j) = ix2 k j := by
    obtain ⟨e0, e1⟩ := (index_maps t).2.2.2.1
    funext a; apply Fin.ext
    match a with
    | ⟨0, _⟩ => show win2_3.index t (0 : Fin 2) * 64 + 1 * k.val = k.val; omega
    | ⟨1, _⟩ => show win2_3.index t (1 : Fin 2) * 64 + 1 * j.val = j.val; omega
  show V c main_arg9 (((cfg2.win 3).blk t).view.emb (ix2 k j)) = V c main_arg9 (ix2 k j)
  rw [h]

/-- The third layer's self weights are read whole at every tile. -/
theorem blk_w3r (c : Dev nD) (t : Fin cfg2.N) (k : Fin 64) (j : Fin 64) :
    iblk2 (F := Ideal) V c 4 t (ix2 k j) = V c main_arg10 (ix2 k j) := by
  have h : ((cfg2.win 4).blk t).view.emb (ix2 k j) = ix2 k j := by
    obtain ⟨e0, e1⟩ := (index_maps t).2.2.2.2.1
    funext a; apply Fin.ext
    match a with
    | ⟨0, _⟩ => show win2_4.index t (0 : Fin 2) * 64 + 1 * k.val = k.val; omega
    | ⟨1, _⟩ => show win2_4.index t (1 : Fin 2) * 64 + 1 * j.val = j.val; omega
  show V c main_arg10 (((cfg2.win 4).blk t).view.emb (ix2 k j)) = V c main_arg10 (ix2 k j)
  rw [h]

/-- The third layer's bias is read whole at every tile. -/
theorem blk_b3 (c : Dev nD) (t : Fin cfg2.N) (k : Fin 1) (j : Fin 64) :
    iblk2 (F := Ideal) V c 5 t (ix2 k j) = V c main_v57 (ix2 k j) := by
  have h : ((cfg2.win 5).blk t).view.emb (ix2 k j) = ix2 k j := by
    obtain ⟨e0, e1⟩ := (index_maps t).2.2.2.2.2.1
    funext a; apply Fin.ext
    match a with
    | ⟨0, _⟩ => show win2_5.index t (0 : Fin 2) * 1 + 1 * k.val = k.val; omega
    | ⟨1, _⟩ => show win2_5.index t (1 : Fin 2) * 64 + 1 * j.val = j.val; omega
  show V c main_v57 (((cfg2.win 5).blk t).view.emb (ix2 k j)) = V c main_v57 (ix2 k j)
  rw [h]

/-- Tile `t` of the first layer's output holds that layer's rows of its nodes. -/
theorem blk_lay1 (c : Dev nD) (t : Fin cfg2.N) (p : Fin 5000) (k : Fin 64) :
    iblk2 (F := Ideal) V c 6 t (ix2 p k) = V c main_v25 (ix2 (tileRow t p) k) := by
  have h : ((cfg2.win 6).blk t).view.emb (ix2 p k) = ix2 (tileRow t p) k := by
    obtain ⟨e0, e1⟩ := (index_maps t).2.2.2.2.2.2.1
    funext a; apply Fin.ext
    match a with
    | ⟨0, _⟩ => show win2_6.index t (0 : Fin 2) * 5000 + 1 * p.val = t.val * 5000 + p.val; omega
    | ⟨1, _⟩ => show win2_6.index t (1 : Fin 2) * 64 + 1 * k.val = k.val; omega
  show V c main_v25 (((cfg2.win 6).blk t).view.emb (ix2 p k)) = V c main_v25 (ix2 (tileRow t p) k)
  rw [h]

/-- The head's first band is read whole at every tile. -/
theorem blk_wa (c : Dev nD) (t : Fin cfg2.N) (k : Fin 64) (j : Fin 40) :
    iblk2 (F := Ideal) V c 7 t (ix2 k j) = V c main_v54 (ix2 k j) := by
  have h : ((cfg2.win 7).blk t).view.emb (ix2 k j) = ix2 k j := by
    obtain ⟨e0, e1⟩ := (index_maps t).2.2.2.2.2.2.2.1
    funext a; apply Fin.ext
    match a with
    | ⟨0, _⟩ => show win2_7.index t (0 : Fin 2) * 64 + 1 * k.val = k.val; omega
    | ⟨1, _⟩ => show win2_7.index t (1 : Fin 2) * 40 + 1 * j.val = j.val; omega
  show V c main_v54 (((cfg2.win 7).blk t).view.emb (ix2 k j)) = V c main_v54 (ix2 k j)
  rw [h]

/-- The head's second band is read whole at every tile. -/
theorem blk_wb (c : Dev nD) (t : Fin cfg2.N) (k : Fin 64) (j : Fin 40) :
    iblk2 (F := Ideal) V c 8 t (ix2 k j) = V c main_v55 (ix2 k j) := by
  have h : ((cfg2.win 8).blk t).view.emb (ix2 k j) = ix2 k j := by
    obtain ⟨e0, e1⟩ := (index_maps t).2.2.2.2.2.2.2.2.1
    funext a; apply Fin.ext
    match a with
    | ⟨0, _⟩ => show win2_8.index t (0 : Fin 2) * 64 + 1 * k.val = k.val; omega
    | ⟨1, _⟩ => show win2_8.index t (1 : Fin 2) * 40 + 1 * j.val = j.val; omega
  show V c main_v55 (((cfg2.win 8).blk t).view.emb (ix2 k j)) = V c main_v55 (ix2 k j)
  rw [h]

/-- The head's third band is read whole at every tile. -/
theorem blk_wc (c : Dev nD) (t : Fin cfg2.N) (k : Fin 64) (j : Fin 40) :
    iblk2 (F := Ideal) V c 9 t (ix2 k j) = V c main_v56 (ix2 k j) := by
  have h : ((cfg2.win 9).blk t).view.emb (ix2 k j) = ix2 k j := by
    obtain ⟨e0, e1⟩ := (index_maps t).2.2.2.2.2.2.2.2.2.1
    funext a; apply Fin.ext
    match a with
    | ⟨0, _⟩ => show win2_9.index t (0 : Fin 2) * 64 + 1 * k.val = k.val; omega
    | ⟨1, _⟩ => show win2_9.index t (1 : Fin 2) * 40 + 1 * j.val = j.val; omega
  show V c main_v56 (((cfg2.win 9).blk t).view.emb (ix2 k j)) = V c main_v56 (ix2 k j)
  rw [h]

/-- The head's bias is read whole at every tile. -/
theorem blk_bl (c : Dev nD) (t : Fin cfg2.N) (k : Fin 1) (j : Fin 40) :
    iblk2 (F := Ideal) V c 10 t (ix2 k j) = V c main_v58 (ix2 k j) := by
  have h : ((cfg2.win 10).blk t).view.emb (ix2 k j) = ix2 k j := by
    obtain ⟨e0, e1⟩ := (index_maps t).2.2.2.2.2.2.2.2.2.2.1
    funext a; apply Fin.ext
    match a with
    | ⟨0, _⟩ => show win2_10.index t (0 : Fin 2) * 1 + 1 * k.val = k.val; omega
    | ⟨1, _⟩ => show win2_10.index t (1 : Fin 2) * 40 + 1 * j.val = j.val; omega
  show V c main_v58 (((cfg2.win 10).blk t).view.emb (ix2 k j)) = V c main_v58 (ix2 k j)
  rw [h]

/-- Row `p`, class `q` of tile `t`'s output block is node `tileRow t p`, class `q` of the output array. -/
theorem emb_out (t : Fin cfg2.N) (p : Fin 5000) (q : Fin 40) :
    ((cfg2.win 11).blk t).view.emb (ix2 p q) = ix2 (tileRow t p) q := by
  obtain ⟨e0, e1⟩ := (index_maps t).2.2.2.2.2.2.2.2.2.2.2
  funext a; apply Fin.ext
  match a with
  | ⟨0, _⟩ => show win2_11.index t (0 : Fin 2) * 5000 + 1 * p.val = t.val * 5000 + p.val; omega
  | ⟨1, _⟩ => show win2_11.index t (1 : Fin 2) * 40 + 1 * q.val = q.val; omega

/-- Node `r`'s log-softmax row from the region-entry contents of the eleven input arrays. -/
def nodeRow (c : Dev nD) (r : Fin 50000) (j : Fin 40) : EReal :=
  lsmOuter (logitsBands (fun k : Fin 64 => V c main_v25 (ix2 r k)) (fun k : Fin 64 => V c main_v40 (ix2 r k))
      (layRow (fun k : Fin 64 => V c main_v53 (ix2 r k)) (fun k : Fin 64 => V c main_v40 (ix2 r k))
        (V c main_v10 (ix2 r (0 : Fin 1)))
        (fun (k : Fin 64) (j' : Fin 64) => V c main_arg9 (ix2 k j'))
        (fun (k : Fin 64) (j' : Fin 64) => V c main_arg10 (ix2 k j'))
        (fun j' : Fin 64 => V c main_v57 (ix2 (0 : Fin 1) j')))
      (fun (k : Fin 64) (j' : Fin 40) => V c main_v54 (ix2 k j'))
      (fun (k : Fin 64) (j' : Fin 40) => V c main_v55 (ix2 k j'))
      (fun (k : Fin 64) (j' : Fin 40) => V c main_v56 (ix2 k j'))
      (fun j' : Fin 40 => V c main_v58 (ix2 (0 : Fin 1) j'))) j

/-- The array of all nodes' log-softmax rows. -/
def nodeRows (c : Dev nD) : S50000x40.Idx → EReal := fun i => nodeRow V c (i 0) (i 1)

/-- WHAT TILE `t` WRITES BACK is block `t` of the array of log-softmax rows: the body's value at row `p` of the
    tile is the log-softmax row of the blocks' row `p`, and each block's row `p` is node `tileRow t p`'s row of its
    array (the weights and biases whole). -/
theorem flushed_eq (c : Dev nD) (t : Fin cfg2.N) :
    (dat2 (F := Ideal) V c).flushed 11 t = ((cfg2.win 11).blk t).view.read (Elt Ideal) (nodeRows V c) := by
  show (cfg2.win 11).cut (grid2.coords t) ((dat2 (F := Ideal) V c).after 11 t) = _
  rw [after2_11]
  unfold out2_11
  rw [View.canon_unit_zero hz]
  simp only [View.ld_unit_zero (S := S5000x64) hz, View.ld_unit_zero (S := S5000x1) hz,
    View.ld_unit_zero (S := S64x64) hz, View.ld_unit_zero (S := S1x64) hz, View.ld_unit_zero (S := S64x40) hz,
    View.ld_unit_zero (S := S1x40) hz]
  funext y
  obtain ⟨p, q, rfl⟩ : ∃ (p : Fin 5000) (q : Fin 40), y = ix2 p q := ⟨y 0, y 1, eq_ix2 y⟩
  refine (PayRows.pay2_row _ _ _ _ _ _ _ _ _ _ _ p q).trans ?_
  show _ = nodeRows V c (((cfg2.win 11).blk t).view.emb (ix2 p q))
  rw [emb_out]
  show _ = nodeRow V c (tileRow t p) q
  unfold nodeRow
  simp only [blk_agg3, blk_lay2, blk_deg, blk_w3l, blk_w3r, blk_b3, blk_lay1, blk_wa, blk_wb, blk_wc, blk_bl]

/-- Every node's row is in some tile: node `r` is in tile `r / 5000`. -/
theorem cover (i : S50000x40.Idx) :
    ∃ t : Fin cfg2.N, (cfg2.win 11).flush t = true ∧ i ∈ ((cfg2.win 11).blk t).view.set := by
  have hi0 : (i 0).val < 50000 := (i 0).isLt
  have hi1 : (i 1).val < 40 := (i 1).isLt
  have ht : (i 0).val / 5000 < 10 := by omega
  refine ⟨⟨(i 0).val / 5000, ht⟩, flush2_11 _, ?_⟩
  obtain ⟨e0, e1⟩ := (index_maps ⟨(i 0).val / 5000, ht⟩).2.2.2.2.2.2.2.2.2.2.2
  have e0' : win2_11.index ⟨(i 0).val / 5000, ht⟩ (0 : Fin 2) = (i 0).val / 5000 := e0
  rw [mem_blk]
  intro a
  match a with
  | ⟨0, _⟩ => show win2_11.index ⟨(i 0).val / 5000, ht⟩ (0 : Fin 2) * 5000 ≤ (i 0).val ∧ (i 0).val < win2_11.index ⟨(i 0).val / 5000, ht⟩ (0 : Fin 2) * 5000 + 5000; omega
  | ⟨1, _⟩ => show win2_11.index ⟨(i 0).val / 5000, ht⟩ (1 : Fin 2) * 40 ≤ (i 1).val ∧ (i 1).val < win2_11.index ⟨(i 0).val / 5000, ht⟩ (1 : Fin 2) * 40 + 40; omega

/-- THE ARRAY after the ten tiles: every node's log-softmax row. -/
theorem arr_eq (c : Dev nD) : (dat2 (F := Ideal) V c).arrAt 11 cfg2.N = nodeRows V c :=
  (dat2 (F := Ideal) V c).arrAt_eq_of_cover 11 (nodeRows V c) (fun t _ => flushed_eq V c t) (cover)

/-- After the launch the output array holds each node's log-softmax row. -/
theorem arr2_11 (c : Dev nD) (r : Fin 50000) (j : Fin 40) :
    (dat2 (F := Ideal) V c).arrAt 11 cfg2.N (ix2 r j)
      = lsmOuter (logitsBands (fun k : Fin 64 => V c main_v25 (ix2 r k)) (fun k : Fin 64 => V c main_v40 (ix2 r k))
          (layRow (fun k : Fin 64 => V c main_v53 (ix2 r k)) (fun k : Fin 64 => V c main_v40 (ix2 r k))
            (V c main_v10 (ix2 r (0 : Fin 1)))
            (fun (k : Fin 64) (j' : Fin 64) => V c main_arg9 (ix2 k j'))
            (fun (k : Fin 64) (j' : Fin 64) => V c main_arg10 (ix2 k j'))
            (fun j' : Fin 64 => V c main_v57 (ix2 (0 : Fin 1) j')))
          (fun (k : Fin 64) (j' : Fin 40) => V c main_v54 (ix2 k j'))
          (fun (k : Fin 64) (j' : Fin 40) => V c main_v55 (ix2 k j'))
          (fun (k : Fin 64) (j' : Fin 40) => V c main_v56 (ix2 k j'))
          (fun j' : Fin 40 => V c main_v58 (ix2 (0 : Fin 1) j'))) j := by
  rw [arr_eq]
  rfl

end Cert.KernelIdeal.Region2

end
-- ==== Proof.KernelEval.lean ====
/-
  What the kernel program leaves in its result buffer, entry by entry, as a function of the launch memory.
  Walking the program's boundaries: the host operations before the first launch build the clamped index vectors, the
  degree column and the first weighted neighbour sum; the first launch leaves the first layer's rows; the host
  operations after it build the second neighbour sum from those rows, the second launch leaves the second layer's rows,
  and so on; no host operation or launch writes a buffer that a later one still reads, other than by producing it.
-/
import proofs.«420739_j90159953477911_3_alg».proof.Proof.Gen.KernelIdeal.Frame
import proofs.«420739_j90159953477911_3_alg».proof.Proof.KernelStages
import proofs.«420739_j90159953477911_3_alg».proof.Proof.Region0
import proofs.«420739_j90159953477911_3_alg».proof.Proof.Region1
import proofs.«420739_j90159953477911_3_alg».proof.Proof.Region2

set_option maxRecDepth 16384

noncomputable section

namespace Cert.KernelIdeal.FoldEval

open Cert.KernelIdeal Cert.KernelIdeal.Gen Cert.KernelIdeal.HostStages Cert.GraphRows
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-- The first layer's output array, from the launch memory. -/
def lay1 : FVec Ideal S50000x64 .f32 := fun i =>
  layRow (fun k : Fin 128 => agg128 (F := Ideal) (m ((c : Thread nD τ).loc main_arg1)) (m ((c : Thread nD τ).loc main_arg2)) (m ((c : Thread nD τ).loc main_arg0)) (ix2 (i 0) k))
    (fun k : Fin 128 => (m ((c : Thread nD τ).loc main_arg0)) (ix2 (i 0) k)) (degCol (F := Ideal) (m ((c : Thread nD τ).loc main_arg1)) (ix2 (i 0) (0 : Fin 1)))
    (fun (k : Fin 128) (j' : Fin 64) => (m ((c : Thread nD τ).loc main_arg3)) (ix2 k j')) (fun (k : Fin 128) (j' : Fin 64) => (m ((c : Thread nD τ).loc main_arg4)) (ix2 k j'))
    (fun j' : Fin 64 => biasRow (F := Ideal) (m ((c : Thread nD τ).loc main_arg5)) (ix2 (0 : Fin 1) j')) (i 1)

/-- The second layer's output array, from the launch memory. -/
def lay2 : FVec Ideal S50000x64 .f32 := fun i =>
  layRow (fun k : Fin 64 => agg64 (F := Ideal) (m ((c : Thread nD τ).loc main_arg1)) (m ((c : Thread nD τ).loc main_arg2)) (lay1 m c) (ix2 (i 0) k))
    (fun k : Fin 64 => lay1 m c (ix2 (i 0) k)) (degCol (F := Ideal) (m ((c : Thread nD τ).loc main_arg1)) (ix2 (i 0) (0 : Fin 1)))
    (fun (k : Fin 64) (j' : Fin 64) => (m ((c : Thread nD τ).loc main_arg6)) (ix2 k j')) (fun (k : Fin 64) (j' : Fin 64) => (m ((c : Thread nD τ).loc main_arg7)) (ix2 k j'))
    (fun j' : Fin 64 => biasRow (F := Ideal) (m ((c : Thread nD τ).loc main_arg8)) (ix2 (0 : Fin 1) j')) (i 1)

/-- One step back across a stretch of host operations none of which writes the buffer read: the buffer holds after the
    stretch what it held before. -/
local macro "across" ops:ident : tactic =>
  `(tactic| (refine Eq.trans (StableHlo.after_of_forall_not_mem $ops:ident _ (List.forall_iff_forall_mem.mp ?_)) ?_
             · simp only [$ops:ident, List.flatten_cons, List.flatten_nil, List.append_nil, List.cons_append,
                 List.nil_append, List.Forall, StableHlo.nullary_writes, StableHlo.unary_writes,
                 StableHlo.binary_writes, StableHlo.ternary_writes, StableHlo.quaternary_writes,
                 StableHlo.reshape_writes, StableHlo.binaryIndexed_writes, Finset.mem_singleton]
               repeat' apply And.intro
               all_goals exact StableHlo.devRef_ne_of_ne (by decide)))

/-- An argument buffer that none of the five stretches before the first launch writes holds its launch contents
    after them. -/
local macro "to_launch" : tactic =>
  `(tactic| (across hostOps0_4; across hostOps0_3; across hostOps0_2; across hostOps0_1; across hostOps0; rfl))

/-! ## The weighted neighbour sum from the clamped node numbers -/

/-- The weighted neighbour sum of 128-wide rows from the clamped node numbers: the rows of `x` at the source numbers,
    each scaled by its edge's weight, added up at the destination numbers. -/
def aggOf128 (s d : IVec S1200000 32) (w : FVec Ideal S1200000 .f32) (x : FVec Ideal S50000x128 .f32) :
    FVec Ideal S50000x128 .f32 :=
  Host.scatterAdd scatter_S50000x128_S1200000x1_S1200000x128_1_0_0_1
    (broadcastInDim S50000x128 ![] bcast_S_S50000x128 (constant S_ .f32 0x00000000#32))
    (broadcastInDim S1200000x1 ![0] bcast_S1200000_S1200000x1_0 d)
    (mulf (Host.gather gather_S50000x128_S1200000x1_S1200000x128_1_0_n_n_0_1_1128 x
        (broadcastInDim S1200000x1 ![0] bcast_S1200000_S1200000x1_0
          (select (cmpi .slt s (broadcastInDim S1200000 ![] bcast_S_S1200000 (constantI S_ 32 0#32)))
            (addi s (broadcastInDim S1200000 ![] bcast_S_S1200000 (constantI S_ 32 50000#32))) s)))
      (broadcastInDim S1200000x128 ![0, 1] bcast_S1200000x1_S1200000x128_0_1
        (broadcastInDim S1200000x1 ![0] bcast_S1200000_S1200000x1_0 w)))

/-- The same of 64-wide rows. -/
def aggOf64 (s d : IVec S1200000 32) (w : FVec Ideal S1200000 .f32) (x : FVec Ideal S50000x64 .f32) :
    FVec Ideal S50000x64 .f32 :=
  Host.scatterAdd scatter_S50000x64_S1200000x1_S1200000x64_1_0_0_1
    (broadcastInDim S50000x64 ![] bcast_S_S50000x64 (constant S_ .f32 0x00000000#32))
    (broadcastInDim S1200000x1 ![0] bcast_S1200000_S1200000x1_0 d)
    (mulf (Host.gather gather_S50000x64_S1200000x1_S1200000x64_1_0_n_n_0_1_164 x
        (broadcastInDim S1200000x1 ![0] bcast_S1200000_S1200000x1_0
          (select (cmpi .slt s (broadcastInDim S1200000 ![] bcast_S_S1200000 (constantI S_ 32 0#32)))
            (addi s (broadcastInDim S1200000 ![] bcast_S_S1200000 (constantI S_ 32 50000#32))) s)))
      (broadcastInDim S1200000x64 ![0, 1] bcast_S1200000x1_S1200000x64_0_1
        (broadcastInDim S1200000x1 ![0] bcast_S1200000_S1200000x1_0 w)))

/-- The stage functions of the edge list are these at the edge list's clamped rows. -/
theorem agg128_eq (e : IVec S2x1200000 32) (w : FVec Ideal S1200000 .f32) (x : FVec Ideal S50000x128 .f32) :
    agg128 (F := Ideal) e w x = aggOf128 (clamp (srcRow e)) (clamp (dstRow e)) w x := rfl
theorem agg64_eq (e : IVec S2x1200000 32) (w : FVec Ideal S1200000 .f32) (x : FVec Ideal S50000x64 .f32) :
    agg64 (F := Ideal) e w x = aggOf64 (clamp (srcRow e)) (clamp (dstRow e)) w x := rfl

/-- What each of the three long stretches leaves in its neighbour-sum buffer, from the buffers it reads. -/
theorem stretch_v23 (W : Valuation τ sig (Elt Ideal)) :
    (StableHlo.after hostOps0_4 W (Proc.devRef .tc main_v23) : FVec Ideal S50000x128 .f32)
      = aggOf128 (W (Proc.devRef .tc main_v2)) (W (Proc.devRef .tc main_v5)) (W (Proc.devRef .tc main_arg2))
          (W (Proc.devRef .tc main_arg0)) := by
  after_results_simp
  rfl
theorem stretch_v38 (W : Valuation τ sig (Elt Ideal)) :
    (StableHlo.after hostOps1 W (Proc.devRef .tc main_v38) : FVec Ideal S50000x64 .f32)
      = aggOf64 (W (Proc.devRef .tc main_v2)) (W (Proc.devRef .tc main_v5)) (W (Proc.devRef .tc main_arg2))
          (W (Proc.devRef .tc main_v25)) := by
  after_results_simp
  rfl
theorem stretch_v53 (W : Valuation τ sig (Elt Ideal)) :
    (StableHlo.after hostOps2 W (Proc.devRef .tc main_v53) : FVec Ideal S50000x64 .f32)
      = aggOf64 (W (Proc.devRef .tc main_v2)) (W (Proc.devRef .tc main_v5)) (W (Proc.devRef .tc main_arg2))
          (W (Proc.devRef .tc main_v40)) := by
  after_results_simp
  rfl

/-! ## Before the first launch: the node numbers of the edge list, clamped -/

/-- The edge list's first row, as a vector. -/
theorem W1_v1 : (W1 (F := Ideal) m ρ c (Proc.devRef .tc main_v1) : IVec S1200000 32)
    = srcRow (m ((c : Thread nD τ).loc main_arg1)) := by
  show StableHlo.after hostOps0 (W0 (F := Ideal) m ρ c) (Proc.devRef .tc main_v1) = _
  after_results
  rfl

theorem W1_c : (W1 (F := Ideal) m ρ c (Proc.devRef .tc main_c) : IVec S_ 32) = constantI S_ 32 0#32 := by
  show StableHlo.after hostOps0 (W0 (F := Ideal) m ρ c) (Proc.devRef .tc main_c) = _
  after_results

theorem W1_c_0 : (W1 (F := Ideal) m ρ c (Proc.devRef .tc main_c_0) : IVec S_ 32) = constantI S_ 32 49999#32 := by
  show StableHlo.after hostOps0 (W0 (F := Ideal) m ρ c) (Proc.devRef .tc main_c_0) = _
  after_results

/-- The source numbers, clamped. -/
theorem W2_v2 : (W2 (F := Ideal) m ρ c (Proc.devRef .tc main_v2) : IVec S1200000 32)
    = clamp (srcRow (m ((c : Thread nD τ).loc main_arg1))) := by
  have h1 := W1_v1 m ρ c
  have h2 := W1_c m ρ c
  have h3 := W1_c_0 m ρ c
  show StableHlo.after hostOps0_1 (W1 (F := Ideal) m ρ c) (Proc.devRef .tc main_v2) = _
  generalize W1 (F := Ideal) m ρ c = W at h1 h2 h3 ⊢
  after_results
  rw [h1, h2, h3]
  rfl

/-- The edge list is as launched when its second row is read. -/
theorem W2_arg1 : W2 (F := Ideal) m ρ c (Proc.devRef .tc main_arg1) = m ((c : Thread nD τ).loc main_arg1) := by
  across hostOps0_1
  across hostOps0
  rfl

/-- The edge list's second row, as a vector. -/
theorem W3_v4 : (W3 (F := Ideal) m ρ c (Proc.devRef .tc main_v4) : IVec S1200000 32)
    = dstRow (m ((c : Thread nD τ).loc main_arg1)) := by
  have h1 := W2_arg1 m ρ c
  show StableHlo.after hostOps0_2 (W2 (F := Ideal) m ρ c) (Proc.devRef .tc main_v4) = _
  generalize W2 (F := Ideal) m ρ c = W at h1 ⊢
  after_results
  rw [h1]
  rfl

theorem W3_c_1 : (W3 (F := Ideal) m ρ c (Proc.devRef .tc main_c_1) : IVec S_ 32) = constantI S_ 32 0#32 := by
  show StableHlo.after hostOps0_2 (W2 (F := Ideal) m ρ c) (Proc.devRef .tc main_c_1) = _
  after_results

theorem W3_c_2 : (W3 (F := Ideal) m ρ c (Proc.devRef .tc main_c_2) : IVec S_ 32) = constantI S_ 32 49999#32 := by
  show StableHlo.after hostOps0_2 (W2 (F := Ideal) m ρ c) (Proc.devRef .tc main_c_2) = _
  after_results

/-- The destination numbers, clamped. -/
theorem W4_v5 : (W4 (F := Ideal) m ρ c (Proc.devRef .tc main_v5) : IVec S1200000 32)
    = clamp (dstRow (m ((c : Thread nD τ).loc main_arg1))) := by
  have h1 := W3_v4 m ρ c
  have h2 := W3_c_1 m ρ c
  have h3 := W3_c_2 m ρ c
  show StableHlo.after hostOps0_3 (W3 (F := Ideal) m ρ c) (Proc.devRef .tc main_v5) = _
  generalize W3 (F := Ideal) m ρ c = W at h1 h2 h3 ⊢
  after_results
  rw [h1, h2, h3]
  rfl

/-- The clamped source numbers are still there when the destination numbers are done. -/
theorem W4_v2 : (W4 (F := Ideal) m ρ c (Proc.devRef .tc main_v2) : IVec S1200000 32)
    = clamp (srcRow (m ((c : Thread nD τ).loc main_arg1))) := by
  across hostOps0_3
  across hostOps0_2
  exact W2_v2 m ρ c

theorem W4_arg0 : W4 (F := Ideal) m ρ c (Proc.devRef .tc main_arg0) = m ((c : Thread nD τ).loc main_arg0) := by
  across hostOps0_3; across hostOps0_2; across hostOps0_1; across hostOps0; rfl
theorem W4_arg2 : W4 (F := Ideal) m ρ c (Proc.devRef .tc main_arg2) = m ((c : Thread nD τ).loc main_arg2) := by
  across hostOps0_3; across hostOps0_2; across hostOps0_1; across hostOps0; rfl
theorem W4_arg5 : W4 (F := Ideal) m ρ c (Proc.devRef .tc main_arg5) = m ((c : Thread nD τ).loc main_arg5) := by
  across hostOps0_3; across hostOps0_2; across hostOps0_1; across hostOps0; rfl

/-! ## The first launch's inputs -/

/-- The in-degree column. -/
theorem W5_v10 : (W5 (F := Ideal) m ρ c (Proc.devRef .tc main_v10) : FVec Ideal S50000x1 .f32)
    = degCol (F := Ideal) (m ((c : Thread nD τ).loc main_arg1)) := by
  have h1 := W4_v5 m ρ c
  show StableHlo.after hostOps0_4 (W4 (F := Ideal) m ρ c) (Proc.devRef .tc main_v10) = _
  generalize W4 (F := Ideal) m ρ c = W at h1 ⊢
  after_results
  rw [h1]
  rfl

/-- The weighted neighbour sum of the input features. -/
theorem W5_v23 : (W5 (F := Ideal) m ρ c (Proc.devRef .tc main_v23) : FVec Ideal S50000x128 .f32)
    = agg128 (F := Ideal) (m ((c : Thread nD τ).loc main_arg1)) (m ((c : Thread nD τ).loc main_arg2))
        (m ((c : Thread nD τ).loc main_arg0)) := by
  refine (stretch_v23 (W4 (F := Ideal) m ρ c)).trans ?_
  rw [W4_v2 m ρ c, W4_v5 m ρ c, W4_arg2 m ρ c, W4_arg0 m ρ c, agg128_eq]

/-- The first layer's bias as a row. -/
theorem W5_v24 : (W5 (F := Ideal) m ρ c (Proc.devRef .tc main_v24) : FVec Ideal S1x64 .f32)
    = biasRow (F := Ideal) (m ((c : Thread nD τ).loc main_arg5)) := by
  have h1 := W4_arg5 m ρ c
  show StableHlo.after hostOps0_4 (W4 (F := Ideal) m ρ c) (Proc.devRef .tc main_v24) = _
  generalize W4 (F := Ideal) m ρ c = W at h1 ⊢
  after_results
  rw [h1]
  rfl

theorem W5_arg0 : W5 (F := Ideal) m ρ c (Proc.devRef .tc main_arg0) = m ((c : Thread nD τ).loc main_arg0) := by
  to_launch
theorem W5_arg3 : W5 (F := Ideal) m ρ c (Proc.devRef .tc main_arg3) = m ((c : Thread nD τ).loc main_arg3) := by
  to_launch
theorem W5_arg4 : W5 (F := Ideal) m ρ c (Proc.devRef .tc main_arg4) = m ((c : Thread nD τ).loc main_arg4) := by
  to_launch

/-! ## After the first launch -/

/-- The first launch leaves the first layer's rows. -/
theorem W6_v25 : (W6 (F := Ideal) m ρ c (Proc.devRef .tc main_v25) : FVec Ideal S50000x64 .f32) = lay1 m c := by
  funext i
  obtain ⟨r, q, rfl⟩ : ∃ (r : Fin 50000) (q : Fin 64), i = ix2 r q := ⟨i 0, i 1, eq_ix2 i⟩
  refine (congrFun (W6_arr (F := Ideal) m ρ c 6) (ix2 r q)).trans ?_
  refine (Region0.arr0_6 (V5 (F := Ideal) m ρ) c r q).trans ?_
  show layRow (fun k : Fin 128 => W5 (F := Ideal) m ρ c (Proc.devRef .tc main_v23) (ix2 r k))
      (fun k : Fin 128 => W5 (F := Ideal) m ρ c (Proc.devRef .tc main_arg0) (ix2 r k))
      (W5 (F := Ideal) m ρ c (Proc.devRef .tc main_v10) (ix2 r (0 : Fin 1)))
      (fun (k : Fin 128) (j' : Fin 64) => W5 (F := Ideal) m ρ c (Proc.devRef .tc main_arg3) (ix2 k j'))
      (fun (k : Fin 128) (j' : Fin 64) => W5 (F := Ideal) m ρ c (Proc.devRef .tc main_arg4) (ix2 k j'))
      (fun j' : Fin 64 => W5 (F := Ideal) m ρ c (Proc.devRef .tc main_v24) (ix2 (0 : Fin 1) j')) q = _
  rw [W5_v23 m ρ c, W5_arg0 m ρ c, W5_v10 m ρ c, W5_arg3 m ρ c, W5_arg4 m ρ c, W5_v24 m ρ c]
  rfl

theorem W6_v2 : (W6 (F := Ideal) m ρ c (Proc.devRef .tc main_v2) : IVec S1200000 32)
    = clamp (srcRow (m ((c : Thread nD τ).loc main_arg1))) := by
  refine (W6_of_ne m ρ c _ (by decide)).trans ?_
  across hostOps0_4
  exact W4_v2 m ρ c
theorem W6_v5 : (W6 (F := Ideal) m ρ c (Proc.devRef .tc main_v5) : IVec S1200000 32)
    = clamp (dstRow (m ((c : Thread nD τ).loc main_arg1))) := by
  refine (W6_of_ne m ρ c _ (by decide)).trans ?_
  across hostOps0_4
  exact W4_v5 m ρ c
theorem W6_arg2 : W6 (F := Ideal) m ρ c (Proc.devRef .tc main_arg2) = m ((c : Thread nD τ).loc main_arg2) := by
  refine (W6_of_ne m ρ c _ (by decide)).trans ?_
  across hostOps0_4
  exact W4_arg2 m ρ c
theorem W6_arg8 : W6 (F := Ideal) m ρ c (Proc.devRef .tc main_arg8) = m ((c : Thread nD τ).loc main_arg8) := by
  refine (W6_of_ne m ρ c _ (by decide)).trans ?_
  to_launch
/-- The degree column is an input of the first launch, so it is unchanged by it. -/
theorem W6_v10 : (W6 (F := Ideal) m ρ c (Proc.devRef .tc main_v10) : FVec Ideal S50000x1 .f32)
    = degCol (F := Ideal) (m ((c : Thread nD τ).loc main_arg1)) :=
  ((W6_arr m ρ c 2).trans (((dat0 (V5 m ρ) c).arrAt_in 2 rfl _).trans (A_eq0 (V5 m ρ) c 2))).trans (W5_v10 m ρ c)

/-! ## The second launch's inputs -/

/-- The weighted neighbour sum of the first layer's rows. -/
theorem W7_v38 : (W7 (F := Ideal) m ρ c (Proc.devRef .tc main_v38) : FVec Ideal S50000x64 .f32)
    = agg64 (F := Ideal) (m ((c : Thread nD τ).loc main_arg1)) (m ((c : Thread nD τ).loc main_arg2)) (lay1 m c) := by
  refine (stretch_v38 (W6 (F := Ideal) m ρ c)).trans ?_
  rw [W6_v2 m ρ c, W6_v5 m ρ c, W6_arg2 m ρ c, W6_v25 m ρ c, agg64_eq]

/-- The second layer's bias as a row. -/
theorem W7_v39 : (W7 (F := Ideal) m ρ c (Proc.devRef .tc main_v39) : FVec Ideal S1x64 .f32)
    = biasRow (F := Ideal) (m ((c : Thread nD τ).loc main_arg8)) := by
  have h1 := W6_arg8 m ρ c
  show StableHlo.after hostOps1 (W6 (F := Ideal) m ρ c) (Proc.devRef .tc main_v39) = _
  generalize W6 (F := Ideal) m ρ c = W at h1 ⊢
  after_results
  rw [h1]
  rfl

theorem W7_v25 : (W7 (F := Ideal) m ρ c (Proc.devRef .tc main_v25) : FVec Ideal S50000x64 .f32) = lay1 m c := by
  across hostOps1
  exact W6_v25 m ρ c
theorem W7_v10 : (W7 (F := Ideal) m ρ c (Proc.devRef .tc main_v10) : FVec Ideal S50000x1 .f32)
    = degCol (F := Ideal) (m ((c : Thread nD τ).loc main_arg1)) := by
  across hostOps1
  exact W6_v10 m ρ c
theorem W7_arg6 : W7 (F := Ideal) m ρ c (Proc.devRef .tc main_arg6) = m ((c : Thread nD τ).loc main_arg6) := by
  across hostOps1
  refine (W6_of_ne m ρ c _ (by decide)).trans ?_
  to_launch
theorem W7_arg7 : W7 (F := Ideal) m ρ c (Proc.devRef .tc main_arg7) = m ((c : Thread nD τ).loc main_arg7) := by
  across hostOps1
  refine (W6_of_ne m ρ c _ (by decide)).trans ?_
  to_launch

/-! ## After the second launch -/

/-- The second launch leaves the second layer's rows. -/
theorem W8_v40 : (W8 (F := Ideal) m ρ c (Proc.devRef .tc main_v40) : FVec Ideal S50000x64 .f32) = lay2 m c := by
  funext i
  obtain ⟨r, q, rfl⟩ : ∃ (r : Fin 50000) (q : Fin 64), i = ix2 r q := ⟨i 0, i 1, eq_ix2 i⟩
  refine (congrFun (W8_arr (F := Ideal) m ρ c 6) (ix2 r q)).trans ?_
  refine (Region1.arr1_6 (V7 (F := Ideal) m ρ) c r q).trans ?_
  show layRow (fun k : Fin 64 => W7 (F := Ideal) m ρ c (Proc.devRef .tc main_v38) (ix2 r k))
      (fun k : Fin 64 => W7 (F := Ideal) m ρ c (Proc.devRef .tc main_v25) (ix2 r k))
      (W7 (F := Ideal) m ρ c (Proc.devRef .tc main_v10) (ix2 r (0 : Fin 1)))
      (fun (k : Fin 64) (j' : Fin 64) => W7 (F := Ideal) m ρ c (Proc.devRef .tc main_arg6) (ix2 k j'))
      (fun (k : Fin 64) (j' : Fin 64) => W7 (F := Ideal) m ρ c (Proc.devRef .tc main_arg7) (ix2 k j'))
      (fun j' : Fin 64 => W7 (F := Ideal) m ρ c (Proc.devRef .tc main_v39) (ix2 (0 : Fin 1) j')) q = _
  rw [W7_v38 m ρ c, W7_v25 m ρ c, W7_v10 m ρ c, W7_arg6 m ρ c, W7_arg7 m ρ c, W7_v39 m ρ c]
  rfl

theorem W8_v2 : (W8 (F := Ideal) m ρ c (Proc.devRef .tc main_v2) : IVec S1200000 32)
    = clamp (srcRow (m ((c : Thread nD τ).loc main_arg1))) := by
  refine (W8_of_ne m ρ c _ (by decide)).trans ?_
  across hostOps1
  exact W6_v2 m ρ c
theorem W8_v5 : (W8 (F := Ideal) m ρ c (Proc.devRef .tc main_v5) : IVec S1200000 32)
    = clamp (dstRow (m ((c : Thread nD τ).loc main_arg1))) := by
  refine (W8_of_ne m ρ c _ (by decide)).trans ?_
  across hostOps1
  exact W6_v5 m ρ c
theorem W8_arg2 : W8 (F := Ideal) m ρ c (Proc.devRef .tc main_arg2) = m ((c : Thread nD τ).loc main_arg2) := by
  refine (W8_of_ne m ρ c _ (by decide)).trans ?_
  across hostOps1
  exact W6_arg2 m ρ c
theorem W8_arg11 : W8 (F := Ideal) m ρ c (Proc.devRef .tc main_arg11) = m ((c : Thread nD τ).loc main_arg11) := by
  refine (W8_of_ne m ρ c _ (by decide)).trans ?_
  across hostOps1
  refine (W6_of_ne m ρ c _ (by decide)).trans ?_
  to_launch
theorem W8_arg12 : W8 (F := Ideal) m ρ c (Proc.devRef .tc main_arg12) = m ((c : Thread nD τ).loc main_arg12) := by
  refine (W8_of_ne m ρ c _ (by decide)).trans ?_
  across hostOps1
  refine (W6_of_ne m ρ c _ (by decide)).trans ?_
  to_launch
theorem W8_arg13 : W8 (F := Ideal) m ρ c (Proc.devRef .tc main_arg13) = m ((c : Thread nD τ).loc main_arg13) := by
  refine (W8_of_ne m ρ c _ (by decide)).trans ?_
  across hostOps1
  refine (W6_of_ne m ρ c _ (by decide)).trans ?_
  to_launch
/-- The first layer's rows and the degree column are inputs of the second launch, so they are unchanged by it. -/
theorem W8_v25 : (W8 (F := Ideal) m ρ c (Proc.devRef .tc main_v25) : FVec Ideal S50000x64 .f32) = lay1 m c :=
  ((W8_arr m ρ c 1).trans (((dat1 (V7 m ρ) c).arrAt_in 1 rfl _).trans (A_eq1 (V7 m ρ) c 1))).trans (W7_v25 m ρ c)
theorem W8_v10 : (W8 (F := Ideal) m ρ c (Proc.devRef .tc main_v10) : FVec Ideal S50000x1 .f32)
    = degCol (F := Ideal) (m ((c : Thread nD τ).loc main_arg1)) :=
  ((W8_arr m ρ c 2).trans (((dat1 (V7 m ρ) c).arrAt_in 2 rfl _).trans (A_eq1 (V7 m ρ) c 2))).trans (W7_v10 m ρ c)

/-! ## The third launch's inputs -/

/-- The weighted neighbour sum of the second layer's rows. -/
theorem W9_v53 : (W9 (F := Ideal) m ρ c (Proc.devRef .tc main_v53) : FVec Ideal S50000x64 .f32)
    = agg64 (F := Ideal) (m ((c : Thread nD τ).loc main_arg1)) (m ((c : Thread nD τ).loc main_arg2)) (lay2 m c) := by
  refine (stretch_v53 (W8 (F := Ideal) m ρ c)).trans ?_
  rw [W8_v2 m ρ c, W8_v5 m ρ c, W8_arg2 m ρ c, W8_v40 m ρ c, agg64_eq]

/-- The three bands of the head matrix. -/
theorem W9_v54 : (W9 (F := Ideal) m ρ c (Proc.devRef .tc main_v54) : FVec Ideal S64x40 .f32)
    = band0 (F := Ideal) (m ((c : Thread nD τ).loc main_arg12)) := by
  have h1 := W8_arg12 m ρ c
  show StableHlo.after hostOps2 (W8 (F := Ideal) m ρ c) (Proc.devRef .tc main_v54) = _
  generalize W8 (F := Ideal) m ρ c = W at h1 ⊢
  after_results
  rw [h1]
  rfl
theorem W9_v55 : (W9 (F := Ideal) m ρ c (Proc.devRef .tc main_v55) : FVec Ideal S64x40 .f32)
    = band1 (F := Ideal) (m ((c : Thread nD τ).loc main_arg12)) := by
  have h1 := W8_arg12 m ρ c
  show StableHlo.after hostOps2 (W8 (F := Ideal) m ρ c) (Proc.devRef .tc main_v55) = _
  generalize W8 (F := Ideal) m ρ c = W at h1 ⊢
  after_results
  rw [h1]
  rfl
theorem W9_v56 : (W9 (F := Ideal) m ρ c (Proc.devRef .tc main_v56) : FVec Ideal S64x40 .f32)
    = band2 (F := Ideal) (m ((c : Thread nD τ).loc main_arg12)) := by
  have h1 := W8_arg12 m ρ c
  show StableHlo.after hostOps2 (W8 (F := Ideal) m ρ c) (Proc.devRef .tc main_v56) = _
  generalize W8 (F := Ideal) m ρ c = W at h1 ⊢
  after_results
  rw [h1]
  rfl

/-- The third layer's bias and the head's bias as rows. -/
theorem W9_v57 : (W9 (F := Ideal) m ρ c (Proc.devRef .tc main_v57) : FVec Ideal S1x64 .f32)
    = biasRow (F := Ideal) (m ((c : Thread nD τ).loc main_arg11)) := by
  have h1 := W8_arg11 m ρ c
  show StableHlo.after hostOps2 (W8 (F := Ideal) m ρ c) (Proc.devRef .tc main_v57) = _
  generalize W8 (F := Ideal) m ρ c = W at h1 ⊢
  after_results
  rw [h1]
  rfl
theorem W9_v58 : (W9 (F := Ideal) m ρ c (Proc.devRef .tc main_v58) : FVec Ideal S1x40 .f32)
    = headBiasRow (F := Ideal) (m ((c : Thread nD τ).loc main_arg13)) := by
  have h1 := W8_arg13 m ρ c
  show StableHlo.after hostOps2 (W8 (F := Ideal) m ρ c) (Proc.devRef .tc main_v58) = _
  generalize W8 (F := Ideal) m ρ c = W at h1 ⊢
  after_results
  rw [h1]
  rfl

theorem W9_v40 : (W9 (F := Ideal) m ρ c (Proc.devRef .tc main_v40) : FVec Ideal S50000x64 .f32) = lay2 m c := by
  across hostOps2
  exact W8_v40 m ρ c
theorem W9_v25 : (W9 (F := Ideal) m ρ c (Proc.devRef .tc main_v25) : FVec Ideal S50000x64 .f32) = lay1 m c := by
  across hostOps2
  exact W8_v25 m ρ c
theorem W9_v10 : (W9 (F := Ideal) m ρ c (Proc.devRef .tc main_v10) : FVec Ideal S50000x1 .f32)
    = degCol (F := Ideal) (m ((c : Thread nD τ).loc main_arg1)) := by
  across hostOps2
  exact W8_v10 m ρ c
theorem W9_arg9 : W9 (F := Ideal) m ρ c (Proc.devRef .tc main_arg9) = m ((c : Thread nD τ).loc main_arg9) := by
  across hostOps2
  refine (W8_of_ne m ρ c _ (by decide)).trans ?_
  across hostOps1
  refine (W6_of_ne m ρ c _ (by decide)).trans ?_
  to_launch
theorem W9_arg10 : W9 (F := Ideal) m ρ c (Proc.devRef .tc main_arg10) = m ((c : Thread nD τ).loc main_arg10) := by
  across hostOps2
  refine (W8_of_ne m ρ c _ (by decide)).trans ?_
  across hostOps1
  refine (W6_of_ne m ρ c _ (by decide)).trans ?_
  to_launch

/-- The result buffer at the program's last boundary, at node `r` and class `j`. -/
theorem result_entry (r : Fin 50000) (j : Fin 40) :
    W10 (F := Ideal) m ρ c (Proc.devRef .tc main_v59) (ix2 r j)
      = lsmOuter (logitsBands (fun k : Fin 64 => lay1 m c (ix2 r k)) (fun k : Fin 64 => lay2 m c (ix2 r k))
          (layRow (fun k : Fin 64 => agg64 (F := Ideal) (m ((c : Thread nD τ).loc main_arg1)) (m ((c : Thread nD τ).loc main_arg2)) (lay2 m c) (ix2 r k))
            (fun k : Fin 64 => lay2 m c (ix2 r k)) (degCol (F := Ideal) (m ((c : Thread nD τ).loc main_arg1)) (ix2 r (0 : Fin 1)))
            (fun (k : Fin 64) (j' : Fin 64) => (m ((c : Thread nD τ).loc main_arg9)) (ix2 k j')) (fun (k : Fin 64) (j' : Fin 64) => (m ((c : Thread nD τ).loc main_arg10)) (ix2 k j'))
            (fun j' : Fin 64 => biasRow (F := Ideal) (m ((c : Thread nD τ).loc main_arg11)) (ix2 (0 : Fin 1) j')))
          (fun (k : Fin 64) (j' : Fin 40) => band0 (F := Ideal) (m ((c : Thread nD τ).loc main_arg12)) (ix2 k j'))
          (fun (k : Fin 64) (j' : Fin 40) => band1 (F := Ideal) (m ((c : Thread nD τ).loc main_arg12)) (ix2 k j'))
          (fun (k : Fin 64) (j' : Fin 40) => band2 (F := Ideal) (m ((c : Thread nD τ).loc main_arg12)) (ix2 k j'))
          (fun j' : Fin 40 => headBiasRow (F := Ideal) (m ((c : Thread nD τ).loc main_arg13)) (ix2 (0 : Fin 1) j'))) j := by
  refine (congrFun (W10_arr (F := Ideal) m ρ c 11) (ix2 r j)).trans ?_
  refine (Region2.arr2_11 (V9 (F := Ideal) m ρ) c r j).trans ?_
  show lsmOuter (logitsBands (fun k : Fin 64 => W9 (F := Ideal) m ρ c (Proc.devRef .tc main_v25) (ix2 r k))
      (fun k : Fin 64 => W9 (F := Ideal) m ρ c (Proc.devRef .tc main_v40) (ix2 r k))
      (layRow (fun k : Fin 64 => W9 (F := Ideal) m ρ c (Proc.devRef .tc main_v53) (ix2 r k))
        (fun k : Fin 64 => W9 (F := Ideal) m ρ c (Proc.devRef .tc main_v40) (ix2 r k))
        (W9 (F := Ideal) m ρ c (Proc.devRef .tc main_v10) (ix2 r (0 : Fin 1)))
        (fun (k : Fin 64) (j' : Fin 64) => W9 (F := Ideal) m ρ c (Proc.devRef .tc main_arg9) (ix2 k j'))
        (fun (k : Fin 64) (j' : Fin 64) => W9 (F := Ideal) m ρ c (Proc.devRef .tc main_arg10) (ix2 k j'))
        (fun j' : Fin 64 => W9 (F := Ideal) m ρ c (Proc.devRef .tc main_v57) (ix2 (0 : Fin 1) j')))
      (fun (k : Fin 64) (j' : Fin 40) => W9 (F := Ideal) m ρ c (Proc.devRef .tc main_v54) (ix2 k j'))
      (fun (k : Fin 64) (j' : Fin 40) => W9 (F := Ideal) m ρ c (Proc.devRef .tc main_v55) (ix2 k j'))
      (fun (k : Fin 64) (j' : Fin 40) => W9 (F := Ideal) m ρ c (Proc.devRef .tc main_v56) (ix2 k j'))
      (fun j' : Fin 40 => W9 (F := Ideal) m ρ c (Proc.devRef .tc main_v58) (ix2 (0 : Fin 1) j'))) j = _
  rw [W9_v25 m ρ c, W9_v40 m ρ c, W9_v53 m ρ c, W9_v10 m ρ c, W9_arg9 m ρ c, W9_arg10 m ρ c, W9_v57 m ρ c,
    W9_v54 m ρ c, W9_v55 m ρ c, W9_v56 m ρ c, W9_v58 m ρ c]

end Cert.KernelIdeal.FoldEval

end
-- ==== Proof.RefRows.lean ====
/-
  The reference's stages read at one entry: a layer's output at node `r`, column `j` is the layer's row of that node,
  and the head's output at node `r`, class `j` is the log-softmax (in the reference's spelling) of the node's forty
  logits taken from the concatenated row.
-/
import proofs.«420739_j90159953477911_3_alg».proof.Proof.RefStages
import proofs.«420739_j90159953477911_3_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.StageRows

open Cert.ReferenceIdeal Cert.ReferenceIdeal.Gen Cert.ReferenceIdeal.Stages Cert.GraphRows
open Idealize.ShloMosaic Idealize.ShloMosaic.ValueIdx

/-! ## Operations read at one index -/

section Reads

variable {α : Type}

/-- A scalar broadcast to any shape reads the scalar everywhere. -/
theorem bcast_scalar_apply {t : Shape} (h : S_.BroadcastsInDim t (![] : Fin 0 → Fin t.rank)) (v : S_.Idx → α) (i : t.Idx) :
    broadcastInDim t ![] h v i = v ix0 :=
  broadcastInDim_apply _ h v i ix0 (fun a => a.elim0)

/-- An `n × 1` column laid across the `m` columns of an `n × m` rectangle reads, at `(r, k)`, the column at `(r, 0)`. -/
theorem bcast_col_apply {n m : Nat} (h2 : (⟨2, ![n, 1]⟩ : Shape).BroadcastsInDim ⟨2, ![n, m]⟩ ![0, 1])
    (y : (⟨2, ![n, 1]⟩ : Shape).Idx → α) (r : Fin n) (k : Fin m) :
    broadcastInDim ⟨2, ![n, m]⟩ ![0, 1] h2 y (ix2 r k) = y (ix2 r (0 : Fin 1)) := by
  refine broadcastInDim_apply _ h2 y (ix2 r k) (ix2 r (0 : Fin 1)) (fun a => ?_)
  match a with
  | ⟨0, _⟩ =>
    show r.val = if n = 1 then 0 else r.val
    have := r.isLt
    split <;> omega
  | ⟨1, _⟩ => show (0 : Nat) = if (1 : Nat) = 1 then 0 else k.val; rw [if_pos rfl]

/-- A vector of `n` as an `n × 1` column reads, at `(r, 0)`, the vector at `r`. -/
theorem bcast_vec_col_apply {n : Nat} (h1 : (⟨1, ![n]⟩ : Shape).BroadcastsInDim ⟨2, ![n, 1]⟩ ![0])
    (v : (⟨1, ![n]⟩ : Shape).Idx → α) (r : Fin n) :
    broadcastInDim ⟨2, ![n, 1]⟩ ![0] h1 v (ix2 r (0 : Fin 1)) = v (ix1 r) := by
  refine broadcastInDim_apply _ h1 v _ (ix1 r) (fun a => ?_)
  match a with
  | ⟨0, _⟩ =>
    show r.val = if n = 1 then 0 else r.val
    have := r.isLt
    split <;> omega

/-- A vector of `n` laid down the rows of an `n × m` rectangle (first as an `n × 1` column, then across the columns)
    reads, at `(r, k)`, the vector at `r`. -/
theorem bcast_rowvec {n m : Nat} (h1 : (⟨1, ![n]⟩ : Shape).BroadcastsInDim ⟨2, ![n, 1]⟩ ![0])
    (h2 : (⟨2, ![n, 1]⟩ : Shape).BroadcastsInDim ⟨2, ![n, m]⟩ ![0, 1]) (v : (⟨1, ![n]⟩ : Shape).Idx → α)
    (r : Fin n) (k : Fin m) :
    broadcastInDim ⟨2, ![n, m]⟩ ![0, 1] h2 (broadcastInDim ⟨2, ![n, 1]⟩ ![0] h1 v) (ix2 r k) = v (ix1 r) :=
  (bcast_col_apply h2 _ r k).trans (bcast_vec_col_apply h1 v r)

/-- A vector of `m` laid along the columns of an `n × m` rectangle (first as a `1 × m` row, then down the rows) reads,
    at `(r, k)`, the vector at `k`. -/
theorem bcast_colvec {n m : Nat} (h1 : (⟨1, ![m]⟩ : Shape).BroadcastsInDim ⟨2, ![1, m]⟩ ![1])
    (h2 : (⟨2, ![1, m]⟩ : Shape).BroadcastsInDim ⟨2, ![n, m]⟩ ![0, 1]) (v : (⟨1, ![m]⟩ : Shape).Idx → α)
    (r : Fin n) (k : Fin m) :
    broadcastInDim ⟨2, ![n, m]⟩ ![0, 1] h2 (broadcastInDim ⟨2, ![1, m]⟩ ![1] h1 v) (ix2 r k) = v (ix1 k) := by
  refine (broadcastInDim_apply _ h2 _ (ix2 r k) (ix2 (0 : Fin 1) k) (fun a => ?_)).trans
    (broadcastInDim_apply _ h1 v _ (ix1 k) (fun a => ?_))
  · match a with
    | ⟨0, _⟩ => show (0 : Nat) = if (1 : Nat) = 1 then 0 else r.val; rw [if_pos rfl]
    | ⟨1, _⟩ =>
      show k.val = if m = 1 then 0 else k.val
      have := k.isLt
      split <;> omega
  · match a with
    | ⟨0, _⟩ =>
      show k.val = if m = 1 then 0 else k.val
      have := k.isLt
      split <;> omega

end Reads

/-- The host's division, exponential and logarithm at an index are the exact ones of the entries. -/
theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

/-! ## The three matrix products at an entry -/

/-- A product of a `50000 × 128` array with a `128 × 64` matrix, contracting the first's columns with the second's rows, read at
    row `r`, column `j`: the sum over `k` of the row's entry `k` times the matrix's entry `(k, j)`. -/
theorem dot128_apply (y : FVec Ideal S50000x128 .f32) (W : FVec Ideal S128x64 .f32) (r : Fin 50000) (j : Fin 64) :
    Host.dotGeneral dot_S50000x128_S128x64_S50000x64_1_0_0_1_n_n none y W (ix2 r j) = ∑ k : Fin 128, y (ix2 r k) * W (ix2 k j) := by
  simp only [Host.dotGeneral]
  rw [Ideal.dotGeneral_apply, ← Equiv.sum_comp (contrEquiv1 dot_S50000x128_S128x64_S50000x64_1_0_0_1_n_n 128 rfl rfl).symm]
  refine Finset.sum_congr rfl fun k _ => ?_
  have hk := contrEquiv1_symm_val dot_S50000x128_S128x64_S50000x64_1_0_0_1_n_n 128 rfl rfl k
  have l0 : ∀ q : dot_S50000x128_S128x64_S50000x64_1_0_0_1_n_n.contr.Idx, (dot_S50000x128_S128x64_S50000x64_1_0_0_1_n_n.lhsIdx (ix2 r j) q 0).val = r.val := fun q => by
    unfold DotDims.lhsIdx
    rw [dif_neg (show ¬(0 : Fin S50000x128.rank) ∈ dot_S50000x128_S128x64_S50000x64_1_0_0_1_n_n.lhsBatch by decide),
      dif_pos (show (0 : Fin S50000x128.rank) ∈ dot_S50000x128_S128x64_S50000x64_1_0_0_1_n_n.lhsNonContracting by decide)]
    rfl
  have l1 : ∀ q : dot_S50000x128_S128x64_S50000x64_1_0_0_1_n_n.contr.Idx, (dot_S50000x128_S128x64_S50000x64_1_0_0_1_n_n.lhsIdx (ix2 r j) q 1).val = (q ⟨0, by decide⟩).val := fun q =>
    dot_S50000x128_S128x64_S50000x64_1_0_0_1_n_n.lhsIdx_val_of_single rfl (ix2 r j) q
  have r0 : ∀ q : dot_S50000x128_S128x64_S50000x64_1_0_0_1_n_n.contr.Idx, (dot_S50000x128_S128x64_S50000x64_1_0_0_1_n_n.rhsIdx (ix2 r j) q 0).val = (q ⟨0, by decide⟩).val := fun q =>
    dot_S50000x128_S128x64_S50000x64_1_0_0_1_n_n.rhsIdx_val_of_single rfl (ix2 r j) q
  have r1 : ∀ q : dot_S50000x128_S128x64_S50000x64_1_0_0_1_n_n.contr.Idx, (dot_S50000x128_S128x64_S50000x64_1_0_0_1_n_n.rhsIdx (ix2 r j) q 1).val = j.val := fun q => by
    unfold DotDims.rhsIdx
    rw [dif_neg (show ¬(1 : Fin S128x64.rank) ∈ dot_S50000x128_S128x64_S50000x64_1_0_0_1_n_n.rhsBatch by decide),
      dif_pos (show (1 : Fin S128x64.rank) ∈ dot_S50000x128_S128x64_S50000x64_1_0_0_1_n_n.rhsNonContracting by decide)]
    rfl
  have el : dot_S50000x128_S128x64_S50000x64_1_0_0_1_n_n.lhsIdx (ix2 r j) ((contrEquiv1 dot_S50000x128_S128x64_S50000x64_1_0_0_1_n_n 128 rfl rfl).symm k) = ix2 r k := funext fun a => Fin.ext (by
    match a with
    | ⟨0, _⟩ => exact l0 _
    | ⟨1, _⟩ => exact (l1 _).trans hk)
  have er : dot_S50000x128_S128x64_S50000x64_1_0_0_1_n_n.rhsIdx (ix2 r j) ((contrEquiv1 dot_S50000x128_S128x64_S50000x64_1_0_0_1_n_n 128 rfl rfl).symm k) = ix2 k j := funext fun a => Fin.ext (by
    match a with
    | ⟨0, _⟩ => exact (r0 _).trans hk
    | ⟨1, _⟩ => exact r1 _)
  rw [el, er]

/-- A product of a `50000 × 64` array with a `64 × 64` matrix, contracting the first's columns with the second's rows, read at
    row `r`, column `j`: the sum over `k` of the row's entry `k` times the matrix's entry `(k, j)`. -/
theorem dot64_apply (y : FVec Ideal S50000x64 .f32) (W : FVec Ideal S64x64 .f32) (r : Fin 50000) (j : Fin 64) :
    Host.dotGeneral dot_S50000x64_S64x64_S50000x64_1_0_0_1_n_n none y W (ix2 r j) = ∑ k : Fin 64, y (ix2 r k) * W (ix2 k j) := by
  simp only [Host.dotGeneral]
  rw [Ideal.dotGeneral_apply, ← Equiv.sum_comp (contrEquiv1 dot_S50000x64_S64x64_S50000x64_1_0_0_1_n_n 64 rfl rfl).symm]
  refine Finset.sum_congr rfl fun k _ => ?_
  have hk := contrEquiv1_symm_val dot_S50000x64_S64x64_S50000x64_1_0_0_1_n_n 64 rfl rfl k
  have l0 : ∀ q : dot_S50000x64_S64x64_S50000x64_1_0_0_1_n_n.contr.Idx, (dot_S50000x64_S64x64_S50000x64_1_0_0_1_n_n.lhsIdx (ix2 r j) q 0).val = r.val := fun q => by
    unfold DotDims.lhsIdx
    rw [dif_neg (show ¬(0 : Fin S50000x64.rank) ∈ dot_S50000x64_S64x64_S50000x64_1_0_0_1_n_n.lhsBatch by decide),
      dif_pos (show (0 : Fin S50000x64.rank) ∈ dot_S50000x64_S64x64_S50000x64_1_0_0_1_n_n.lhsNonContracting by decide)]
    rfl
  have l1 : ∀ q : dot_S50000x64_S64x64_S50000x64_1_0_0_1_n_n.contr.Idx, (dot_S50000x64_S64x64_S50000x64_1_0_0_1_n_n.lhsIdx (ix2 r j) q 1).val = (q ⟨0, by decide⟩).val := fun q =>
    dot_S50000x64_S64x64_S50000x64_1_0_0_1_n_n.lhsIdx_val_of_single rfl (ix2 r j) q
  have r0 : ∀ q : dot_S50000x64_S64x64_S50000x64_1_0_0_1_n_n.contr.Idx, (dot_S50000x64_S64x64_S50000x64_1_0_0_1_n_n.rhsIdx (ix2 r j) q 0).val = (q ⟨0, by decide⟩).val := fun q =>
    dot_S50000x64_S64x64_S50000x64_1_0_0_1_n_n.rhsIdx_val_of_single rfl (ix2 r j) q
  have r1 : ∀ q : dot_S50000x64_S64x64_S50000x64_1_0_0_1_n_n.contr.Idx, (dot_S50000x64_S64x64_S50000x64_1_0_0_1_n_n.rhsIdx (ix2 r j) q 1).val = j.val := fun q => by
    unfold DotDims.rhsIdx
    rw [dif_neg (show ¬(1 : Fin S64x64.rank) ∈ dot_S50000x64_S64x64_S50000x64_1_0_0_1_n_n.rhsBatch by decide),
      dif_pos (show (1 : Fin S64x64.rank) ∈ dot_S50000x64_S64x64_S50000x64_1_0_0_1_n_n.rhsNonContracting by decide)]
    rfl
  have el : dot_S50000x64_S64x64_S50000x64_1_0_0_1_n_n.lhsIdx (ix2 r j) ((contrEquiv1 dot_S50000x64_S64x64_S50000x64_1_0_0_1_n_n 64 rfl rfl).symm k) = ix2 r k := funext fun a => Fin.ext (by
    match a with
    | ⟨0, _⟩ => exact l0 _
    | ⟨1, _⟩ => exact (l1 _).trans hk)
  have er : dot_S50000x64_S64x64_S50000x64_1_0_0_1_n_n.rhsIdx (ix2 r j) ((contrEquiv1 dot_S50000x64_S64x64_S50000x64_1_0_0_1_n_n 64 rfl rfl).symm k) = ix2 k j := funext fun a => Fin.ext (by
    match a with
    | ⟨0, _⟩ => exact (r0 _).trans hk
    | ⟨1, _⟩ => exact r1 _)
  rw [el, er]

/-- A product of a `50000 × 192` array with a `192 × 40` matrix, contracting the first's columns with the second's rows, read at
    row `r`, column `j`: the sum over `k` of the row's entry `k` times the matrix's entry `(k, j)`. -/
theorem dot192_apply (y : FVec Ideal S50000x192 .f32) (W : FVec Ideal S192x40 .f32) (r : Fin 50000) (j : Fin 40) :
    Host.dotGeneral dot_S50000x192_S192x40_S50000x40_1_0_0_1_n_n none y W (ix2 r j) = ∑ k : Fin 192, y (ix2 r k) * W (ix2 k j) := by
  simp only [Host.dotGeneral]
  rw [Ideal.dotGeneral_apply, ← Equiv.sum_comp (contrEquiv1 dot_S50000x192_S192x40_S50000x40_1_0_0_1_n_n 192 rfl rfl).symm]
  refine Finset.sum_congr rfl fun k _ => ?_
  have hk := contrEquiv1_symm_val dot_S50000x192_S192x40_S50000x40_1_0_0_1_n_n 192 rfl rfl k
  have l0 : ∀ q : dot_S50000x192_S192x40_S50000x40_1_0_0_1_n_n.contr.Idx, (dot_S50000x192_S192x40_S50000x40_1_0_0_1_n_n.lhsIdx (ix2 r j) q 0).val = r.val := fun q => by
    unfold DotDims.lhsIdx
    rw [dif_neg (show ¬(0 : Fin S50000x192.rank) ∈ dot_S50000x192_S192x40_S50000x40_1_0_0_1_n_n.lhsBatch by decide),
      dif_pos (show (0 : Fin S50000x192.rank) ∈ dot_S50000x192_S192x40_S50000x40_1_0_0_1_n_n.lhsNonContracting by decide)]
    rfl
  have l1 : ∀ q : dot_S50000x192_S192x40_S50000x40_1_0_0_1_n_n.contr.Idx, (dot_S50000x192_S192x40_S50000x40_1_0_0_1_n_n.lhsIdx (ix2 r j) q 1).val = (q ⟨0, by decide⟩).val := fun q =>
    dot_S50000x192_S192x40_S50000x40_1_0_0_1_n_n.lhsIdx_val_of_single rfl (ix2 r j) q
  have r0 : ∀ q : dot_S50000x192_S192x40_S50000x40_1_0_0_1_n_n.contr.Idx, (dot_S50000x192_S192x40_S50000x40_1_0_0_1_n_n.rhsIdx (ix2 r j) q 0).val = (q ⟨0, by decide⟩).val := fun q =>
    dot_S50000x192_S192x40_S50000x40_1_0_0_1_n_n.rhsIdx_val_of_single rfl (ix2 r j) q
  have r1 : ∀ q : dot_S50000x192_S192x40_S50000x40_1_0_0_1_n_n.contr.Idx, (dot_S50000x192_S192x40_S50000x40_1_0_0_1_n_n.rhsIdx (ix2 r j) q 1).val = j.val := fun q => by
    unfold DotDims.rhsIdx
    rw [dif_neg (show ¬(1 : Fin S192x40.rank) ∈ dot_S50000x192_S192x40_S50000x40_1_0_0_1_n_n.rhsBatch by decide),
      dif_pos (show (1 : Fin S192x40.rank) ∈ dot_S50000x192_S192x40_S50000x40_1_0_0_1_n_n.rhsNonContracting by decide)]
    rfl
  have el : dot_S50000x192_S192x40_S50000x40_1_0_0_1_n_n.lhsIdx (ix2 r j) ((contrEquiv1 dot_S50000x192_S192x40_S50000x40_1_0_0_1_n_n 192 rfl rfl).symm k) = ix2 r k := funext fun a => Fin.ext (by
    match a with
    | ⟨0, _⟩ => exact l0 _
    | ⟨1, _⟩ => exact (l1 _).trans hk)
  have er : dot_S50000x192_S192x40_S50000x40_1_0_0_1_n_n.rhsIdx (ix2 r j) ((contrEquiv1 dot_S50000x192_S192x40_S50000x40_1_0_0_1_n_n 192 rfl rfl).symm k) = ix2 k j := funext fun a => Fin.ext (by
    match a with
    | ⟨0, _⟩ => exact (r0 _).trans hk
    | ⟨1, _⟩ => exact r1 _)
  rw [el, er]

/-! ## The layers at an entry -/

/-- A 128-feature layer at node `r`, column `j`. -/
theorem layer128_row (A x : FVec Ideal S50000x128 .f32) (d : FVec Ideal S50000 .f32) (Wl Wr : FVec Ideal S128x64 .f32)
    (b : FVec Ideal S64 .f32) (r : Fin 50000) (j : Fin 64) :
    layer128 (F := Ideal) A x d Wl Wr b (ix2 r j)
      = layRow (fun k : Fin 128 => A (ix2 r k)) (fun k : Fin 128 => x (ix2 r k)) (d (ix1 r))
          (fun (k : Fin 128) (j' : Fin 64) => Wl (ix2 k j')) (fun (k : Fin 128) (j' : Fin 64) => Wr (ix2 k j'))
          (fun j' : Fin 64 => b (ix1 j')) j := by
  unfold layer128 layRow
  rw [maximumf_apply, addf_apply, addf_apply, dot128_apply, dot128_apply,
    bcast_colvec bcast_S64_S1x64_1 bcast_S1x64_S50000x64_0_1 b r j,
    bcast_scalar_apply bcast_S_S50000x64 _ (ix2 r j), constant_apply]
  refine congrArg₂ max (congrArg₂ (· + ·) (congrArg₂ (· + ·) (Finset.sum_congr rfl fun k _ => ?_) rfl) rfl) rfl
  rw [hostDivf_apply, bcast_rowvec bcast_S50000_S50000x1_0 bcast_S50000x1_S50000x128_0_1 _ r k, maximumf_apply,
    bcast_scalar_apply bcast_S_S50000 _ (ix1 r), constant_apply]

/-- A 64-feature layer at node `r`, column `j`. -/
theorem layer64_row (A x : FVec Ideal S50000x64 .f32) (d : FVec Ideal S50000 .f32) (Wl Wr : FVec Ideal S64x64 .f32)
    (b : FVec Ideal S64 .f32) (r : Fin 50000) (j : Fin 64) :
    layer64 (F := Ideal) A x d Wl Wr b (ix2 r j)
      = layRow (fun k : Fin 64 => A (ix2 r k)) (fun k : Fin 64 => x (ix2 r k)) (d (ix1 r))
          (fun (k : Fin 64) (j' : Fin 64) => Wl (ix2 k j')) (fun (k : Fin 64) (j' : Fin 64) => Wr (ix2 k j'))
          (fun j' : Fin 64 => b (ix1 j')) j := by
  unfold layer64 layRow
  rw [maximumf_apply, addf_apply, addf_apply, dot64_apply, dot64_apply,
    bcast_colvec bcast_S64_S1x64_1 bcast_S1x64_S50000x64_0_1 b r j,
    bcast_scalar_apply bcast_S_S50000x64 _ (ix2 r j), constant_apply]
  refine congrArg₂ max (congrArg₂ (· + ·) (congrArg₂ (· + ·) (Finset.sum_congr rfl fun k _ => ?_) rfl) rfl) rfl
  rw [hostDivf_apply, bcast_rowvec bcast_S50000_S50000x1_0 bcast_S50000x1_S50000x64_0_1 _ r k, maximumf_apply,
    bcast_scalar_apply bcast_S_S50000 _ (ix1 r), constant_apply]

/-! ## The head at an entry -/

/-- The three layer outputs joined along the columns, read at node `r`, column `k`: the first on columns below 64, the
    second on the next 64, the third on the last 64, each at the column's offset in its own band. -/
theorem cat_row (x1 x2 x3 : FVec Ideal S50000x64 .f32) (r : Fin 50000) (k : Fin 192) :
    concatenate S50000x192 1 [⟨S50000x64, x1⟩, ⟨S50000x64, x2⟩, ⟨S50000x64, x3⟩]
        concatenates_S50000x64_S50000x64_S50000x64_S50000x192_d1 (ix2 r k)
      = cat3 (fun k : Fin 64 => x1 (ix2 r k)) (fun k : Fin 64 => x2 (ix2 r k)) (fun k : Fin 64 => x3 (ix2 r k)) k := by
  have hoff : ∀ (c : Fin 64) (b : Fin S50000x64.rank), b.cast (rfl : S50000x64.rank = S50000x192.rank) ≠ 1 →
      ((ix2 r c : S50000x64.Idx) b).val = ((ix2 r k : S50000x192.Idx) (b.cast rfl)).val := fun c b hb => by
    match b with
    | ⟨0, _⟩ => rfl
    | ⟨1, _⟩ => exact absurd rfl hb
  unfold cat3
  by_cases h1 : k.val < 64
  · rw [dif_pos h1]
    exact concatenate_apply_piece 1 _ _ (ix2 r k) 0 (by show (0 : Nat) < 3; omega) S50000x64 x1 rfl rfl 0 rfl (ix2 r ⟨k.val, h1⟩)
      (hoff _) (by show 0 + k.val = k.val; omega)
  · rw [dif_neg h1]
    by_cases h2 : k.val < 128
    · rw [dif_pos h2]
      exact concatenate_apply_piece 1 _ _ (ix2 r k) 1 (by show (1 : Nat) < 3; omega) S50000x64 x2 rfl rfl 64 rfl
        (ix2 r ⟨k.val - 64, by omega⟩) (hoff _) (by show 64 + (k.val - 64) = k.val; omega)
    · rw [dif_neg h2]
      have hk := k.isLt
      exact concatenate_apply_piece 1 _ _ (ix2 r k) 2 (by show (2 : Nat) < 3; omega) S50000x64 x3 rfl rfl 128 rfl
        (ix2 r ⟨k.val - 128, by omega⟩) (hoff _) (by show 128 + (k.val - 128) = k.val; omega)

/-- The logits at node `r`, class `j`: the node's concatenated row times the head matrix's column `j`, plus the bias. -/
theorem logits_row (x1 x2 x3 : FVec Ideal S50000x64 .f32) (W : FVec Ideal S192x40 .f32) (bl : FVec Ideal S40 .f32)
    (r : Fin 50000) (j : Fin 40) :
    logits (F := Ideal) x1 x2 x3 W bl (ix2 r j)
      = logitsCat (fun k : Fin 64 => x1 (ix2 r k)) (fun k : Fin 64 => x2 (ix2 r k))
          (fun k : Fin 64 => x3 (ix2 r k)) (fun (k : Fin 192) (j' : Fin 40) => W (ix2 k j'))
          (fun j' : Fin 40 => bl (ix1 j')) j := by
  unfold logits logitsCat
  rw [addf_apply, dot192_apply, bcast_colvec bcast_S40_S1x40_1 bcast_S1x40_S50000x40_0_1 bl r j]
  refine congrArg (· + bl (ix1 j)) (Finset.sum_congr rfl fun k _ => ?_)
  rw [cat_row]

/-- A reduced row index with column `k` put back is `(r, k)`. -/
theorem lift_row (h : S50000x40.Reduces [1] S50000) (r : Fin 50000) (k : Fin 40) :
    h.lift (ix1 r) k = ix2 r k :=
  funext fun a => Fin.ext (by match a with | ⟨0, _⟩ => rfl | ⟨1, _⟩ => rfl)

/-- The row maximum as the program takes it, at node `r`: the larger of `-∞` and the fold of `max` from `-∞` over the
    node's forty entries. -/
theorem rowMax_row (L : FVec Ideal S50000x40 .f32) (r : Fin 50000) :
    rowMax L (ix1 r)
      = max negInfW ((Finset.univ : Finset (Fin 40)).fold max negInfW (fun j' : Fin 40 => L (ix2 r j'))) := by
  have h : S50000x40.Reduces [1] S50000 := by decide
  unfold rowMax
  rw [maximumf_apply, bcast_scalar_apply bcast_S_S50000 _ (ix1 r), constant_apply,
    Host.reduce_eq_fold_single FloatOps.maximumf L _ reducesTo_S50000x40_S50000_d1 h h_S_]
  refine congrArg (max negInfW) ?_
  have hf : (L ∘ h.lift (ix1 r)) = fun k : Fin 40 => L (ix2 r k) := funext fun k => congrArg L (lift_row h r k)
  exact congrArg (fun f => Finset.fold max negInfW f (Finset.univ : Finset (Fin 40))) hf

/-- The shifted logits at node `r`, class `j`. -/
theorem shifted_row (L : FVec Ideal S50000x40 .f32) (r : Fin 50000) (j : Fin 40) :
    shifted L (ix2 r j)
      = L (ix2 r j) - max negInfW ((Finset.univ : Finset (Fin 40)).fold max negInfW (fun j' : Fin 40 => L (ix2 r j'))) := by
  unfold shifted
  rw [subf_apply, bcast_rowvec bcast_S50000_S50000x1_0 bcast_S50000x1_S50000x40_0_1 _ r j, rowMax_row]

/-- The log-softmax at node `r`, class `j`, is the row's log-softmax in the spelling that subtracts the maximum first. -/
theorem logSoftmax_row (L : FVec Ideal S50000x40 .f32) (r : Fin 50000) (j : Fin 40) :
    logSoftmax L (ix2 r j) = lsmInner (fun j' : Fin 40 => L (ix2 r j')) j := by
  have h : S50000x40.Reduces [1] S50000 := by decide
  unfold logSoftmax lsmInner
  rw [subf_apply, shifted_row, bcast_col_apply bcast_S50000x1_S50000x40_0_1 _ r j, hostLog_apply,
    bcast_vec_col_apply bcast_S50000_S50000x1_0 _ r]
  simp only [Host.reduceAdd, Ideal.hostReduceAdd_def]
  rw [Ideal.hostReduceAdd_single reducesTo_S50000x40_S50000_d1 h, constant_apply]
  refine congrArg (fun z => _ - Ideal.log (zeroW + z)) (Finset.sum_congr rfl fun k _ => ?_)
  rw [lift_row h r k, hostExp_apply]
  exact congrArg Ideal.exp (shifted_row L r k)

/-- The head at node `r`, class `j`. -/
theorem head_row (x1 x2 x3 : FVec Ideal S50000x64 .f32) (W : FVec Ideal S192x40 .f32) (bl : FVec Ideal S40 .f32)
    (r : Fin 50000) (j : Fin 40) :
    logSoftmax (F := Ideal) (logits x1 x2 x3 W bl) (ix2 r j)
      = lsmInner (logitsCat (fun k : Fin 64 => x1 (ix2 r k)) (fun k : Fin 64 => x2 (ix2 r k))
          (fun k : Fin 64 => x3 (ix2 r k)) (fun (k : Fin 192) (j' : Fin 40) => W (ix2 k j'))
          (fun j' : Fin 40 => bl (ix1 j'))) j := by
  rw [logSoftmax_row]
  exact congrArg (fun l => lsmInner l j) (funext fun j' => logits_row x1 x2 x3 W bl r j')

end Cert.ReferenceIdeal.StageRows

end
-- ==== Proof.HostFacts.lean ====
/-
  Facts about the host operations around the launches, at exact arithmetic.

  * Clamping a signed 32-bit node number that is already in `[0, 50000)` to `[0, 49999]` changes nothing.
  * An accumulating scatter of real updates into a real array is real: each entry is the entry it had plus a finite
    sum of updates. A gather's entries are entries of its operand.
  * A product of two real arrays is real, entry by entry.
-/
import proofs.«420739_j90159953477911_3_alg».proof.Proof.LibERealRows
import Idealize.ShloMosaic.PureOps.Contract
import Idealize.ShloMosaic.Lib.ValueIdx

noncomputable section

namespace Cert.HostFacts

open Idealize.ShloMosaic

/-- An array of extended reals all of whose entries are real numbers. -/
def RealArr {s : Shape} (a : s.Idx → EReal) : Prop := ∀ i, ∃ r : ℝ, a i = (r : EReal)

/-- A node number in range is its own clamp to `[0, 49999]`. -/
theorem clip_entry (a : BitVec 32) (h0 : (0 : Int) ≤ a.toInt) (h1 : a.toInt < 50000) :
    IntOp.minsi 49999#32 (IntOp.maxsi 0#32 a) = a := by
  have z : (0#32 : BitVec 32).toInt = 0 := by decide
  have t : (49999#32 : BitVec 32).toInt = 49999 := by decide
  have e1 : a.slt 0#32 = false := by
    unfold BitVec.slt
    rw [z]
    exact decide_eq_false (by omega)
  have e2 : (49999#32 : BitVec 32).slt a = false := by
    unfold BitVec.slt
    rw [t]
    exact decide_eq_false (by omega)
  simp only [IntOp.minsi, IntOp.maxsi, e1, e2, Bool.false_eq_true, if_false]

/-- The same for a whole vector, the two bounds given as constant vectors. -/
theorem clip_vec {s : Shape} (lo hi v : IVec s 32) (hlo : ∀ i, lo i = 0#32) (hhi : ∀ i, hi i = 49999#32)
    (h : ∀ i, (0 : Int) ≤ (v i).toInt ∧ (v i).toInt < 50000) : minsi hi (maxsi lo v) = v := by
  funext i
  show IntOp.minsi (hi i) (IntOp.maxsi (lo i) (v i)) = v i
  rw [hlo, hhi]
  exact clip_entry (v i) (h i).1 (h i).2

/-- A node number in range is not negative: the wrap-around select keeps it. -/
theorem wrap_entry (a : BitVec 32) (h0 : (0 : Int) ≤ a.toInt) : IntOp.cmpi .slt a 0#32 = 0#1 := by
  have z : (0#32 : BitVec 32).toInt = 0 := by decide
  have e1 : a.slt 0#32 = false := by
    unfold BitVec.slt
    rw [z]
    exact decide_eq_false (by omega)
  simp only [IntOp.cmpi, e1]
  rfl

/-- An accumulating scatter of real updates into a real array is real. -/
theorem scatterAdd_real {s si u : Shape} {w : Nat} (d : ScatterDims s si u) (x : FVec Ideal s .f32) (idx : IVec si w)
    (upd : FVec Ideal u .f32) (hx : RealArr x) (hu : RealArr upd) : RealArr (Host.scatterAdd d x idx upd) := by
  intro i
  choose rx hrx using hx
  choose ru hru using hu
  show ∃ r : ℝ, Ideal.hostScatterAdd d x idx upd i = (r : EReal)
  unfold Ideal.hostScatterAdd
  simp only [hrx, hru, Cert.ERealRows.coe_sum, ← EReal.coe_add]
  exact ⟨_, rfl⟩

/-- A gather of a real array is real. -/
theorem gather_real {s si t : Shape} {w : Nat} (d : GatherDims s si t) (x : FVec Ideal s .f32) (idx : IVec si w)
    (hx : RealArr x) : RealArr (Host.gather d x idx) := by
  intro j
  exact hx (d.operandIdx j idx)

/-- A product of real arrays is real. -/
theorem mulf_real {s : Shape} (a b : FVec Ideal s .f32) (ha : RealArr a) (hb : RealArr b) : RealArr (mulf a b) := by
  intro i
  obtain ⟨ra, hra⟩ := ha i
  obtain ⟨rb, hrb⟩ := hb i
  exact ⟨ra * rb, by rw [ValueIdx.mulf_apply, hra, hrb, EReal.coe_mul]⟩

/-- An array each of whose entries is an entry of a real array is real. -/
theorem real_of_entries {s t : Shape} (a : s.Idx → EReal) (b : t.Idx → EReal) (ha : RealArr a)
    (h : ∀ j, ∃ i, b j = a i) : RealArr b := by
  intro j
  obtain ⟨i, hi⟩ := h j
  obtain ⟨r, hr⟩ := ha i
  exact ⟨r, hi.trans hr⟩

end Cert.HostFacts

end
-- ==== Proof.RefReal.lean ====
/-
  The reference's stages keep real numbers real: a weighted neighbour sum of a real array under real edge weights is
  real (finite sums of products), every degree is a real number, and a layer of real arrays is real.
-/
import proofs.«420739_j90159953477911_3_alg».proof.Proof.RefStages
import proofs.«420739_j90159953477911_3_alg».proof.Proof.RefRows
import proofs.«420739_j90159953477911_3_alg».proof.Proof.HostFacts

noncomputable section

namespace Cert.ReferenceIdeal.StageReal

open Cert.ReferenceIdeal Cert.ReferenceIdeal.Gen Cert.ReferenceIdeal.Stages Cert.HostFacts Cert.GraphRows
open Idealize.ShloMosaic Idealize.ShloMosaic.ValueIdx

/-- A broadcast of a real array is real: each of its entries is an entry of the operand. -/
theorem bcast_real {s t : Shape} (dims : Fin s.rank → Fin t.rank) (h : s.BroadcastsInDim t dims)
    (x : s.Idx → EReal) (hx : RealArr x) : RealArr (broadcastInDim t dims h x) :=
  real_of_entries x (broadcastInDim t dims h x) hx (fun j => ⟨_, rfl⟩)

/-- The constant whose word is all zeros is the real number zero at every entry. -/
theorem zero_real (s : Shape) : RealArr (constant (F := Ideal) s .f32 0x00000000#32) :=
  fun i => ⟨0, by rw [constant_apply, Ideal.ofBits_zero_f32, EReal.coe_zero]⟩

/-- The constant whose word encodes one is the real number one at every entry. -/
theorem one_real (s : Shape) : RealArr (constant (F := Ideal) s .f32 0x3F800000#32) :=
  fun i => ⟨1, by rw [constant_apply, Cert.ERealRows.ofBits_one, EReal.coe_one]⟩

theorem agg128_real (e : IVec S2x1200000 32) (w : FVec Ideal S1200000 .f32) (x : FVec Ideal S50000x128 .f32)
    (hw : RealArr w) (hx : RealArr x) : RealArr (agg128 (F := Ideal) e w x) := by
  unfold agg128
  refine scatterAdd_real _ _ _ _ (bcast_real _ _ _ (zero_real _)) ?_
  exact mulf_real _ _ (gather_real _ _ _ hx) (bcast_real _ _ _ (bcast_real _ _ _ hw))

theorem agg64_real (e : IVec S2x1200000 32) (w : FVec Ideal S1200000 .f32) (x : FVec Ideal S50000x64 .f32)
    (hw : RealArr w) (hx : RealArr x) : RealArr (agg64 (F := Ideal) e w x) := by
  unfold agg64
  refine scatterAdd_real _ _ _ _ (bcast_real _ _ _ (zero_real _)) ?_
  exact mulf_real _ _ (gather_real _ _ _ hx) (bcast_real _ _ _ (bcast_real _ _ _ hw))

theorem deg_real (e : IVec S2x1200000 32) : RealArr (deg (F := Ideal) e) := by
  unfold deg
  exact scatterAdd_real _ _ _ _ (bcast_real _ _ _ (zero_real _)) (bcast_real _ _ _ (one_real _))

theorem layer128_real (A x : FVec Ideal S50000x128 .f32) (d : FVec Ideal S50000 .f32) (Wl Wr : FVec Ideal S128x64 .f32)
    (b : FVec Ideal S64 .f32) (hA : RealArr A) (hx : RealArr x) (hd : RealArr d) (hWl : RealArr Wl) (hWr : RealArr Wr)
    (hb : RealArr b) : RealArr (layer128 (F := Ideal) A x d Wl Wr b) := by
  intro i
  obtain ⟨r, j, rfl⟩ : ∃ (r : Fin 50000) (j : Fin 64), i = ix2 r j := ⟨i 0, i 1, eq_ix2 i⟩
  rw [StageRows.layer128_row]
  exact layRow_real (fun k => hA (ix2 r k)) (fun k => hx (ix2 r k)) (hd (ix1 r)) (fun k j' => hWl (ix2 k j'))
    (fun k j' => hWr (ix2 k j')) (fun j' => hb (ix1 j')) j

theorem layer64_real (A x : FVec Ideal S50000x64 .f32) (d : FVec Ideal S50000 .f32) (Wl Wr : FVec Ideal S64x64 .f32)
    (b : FVec Ideal S64 .f32) (hA : RealArr A) (hx : RealArr x) (hd : RealArr d) (hWl : RealArr Wl) (hWr : RealArr Wr)
    (hb : RealArr b) : RealArr (layer64 (F := Ideal) A x d Wl Wr b) := by
  intro i
  obtain ⟨r, j, rfl⟩ : ∃ (r : Fin 50000) (j : Fin 64), i = ix2 r j := ⟨i 0, i 1, eq_ix2 i⟩
  rw [StageRows.layer64_row]
  exact layRow_real (fun k => hA (ix2 r k)) (fun k => hx (ix2 r k)) (hd (ix1 r)) (fun k j' => hWl (ix2 k j'))
    (fun k j' => hWr (ix2 k j')) (fun j' => hb (ix1 j')) j

end Cert.ReferenceIdeal.StageReal

end
-- ==== Proof.StageBridge.lean ====
/-
  The kernel program's host stages against the reference's, under the precondition that every entry of the edge list is
  a node number in `[0, 50000)`: clamping such a number to `[0, 49999]` changes nothing, so the kernel's index vectors are
  the reference's and with them the neighbour sums and the degree; and the kernel's reshaped biases and the bands it
  slices from the head matrix hold, entry by entry, the entries of the arrays they come from.
-/
import proofs.«420739_j90159953477911_3_alg».proof.Proof.KernelStages
import proofs.«420739_j90159953477911_3_alg».proof.Proof.RefStages
import proofs.«420739_j90159953477911_3_alg».proof.Proof.HostFacts
import Idealize.ShloMosaic.Lib.ValueIdx
import Idealize.ShloMosaic.Lib.ValueLayout
import Idealize.ShloMosaic.Lib.Pipeline.Value

noncomputable section

namespace Cert.StageBridge

open Idealize.ShloMosaic Idealize.ShloMosaic.ValueIdx

/-- Every entry of the edge list is a node number. -/
def InRange (e : IVec Cert.KernelIdeal.S2x1200000 32) : Prop := ∀ i, (0 : Int) ≤ (e i).toInt ∧ (e i).toInt < 50000

/-- Every entry of a row of the edge list is an entry of the edge list: a slice and a reshape only move indices. -/
private theorem srcRow_entry (e : IVec Cert.KernelIdeal.S2x1200000 32) (i : Cert.KernelIdeal.S1200000.Idx) :
    ∃ k, Cert.KernelIdeal.HostStages.srcRow e i = e k := ⟨_, rfl⟩
private theorem dstRow_entry (e : IVec Cert.KernelIdeal.S2x1200000 32) (i : Cert.KernelIdeal.S1200000.Idx) :
    ∃ k, Cert.KernelIdeal.HostStages.dstRow e i = e k := ⟨_, rfl⟩

/-- A vector of node numbers in range is its own clamp: the two bounds are constant vectors. -/
private theorem clamp_of_inRange (v : IVec Cert.KernelIdeal.S1200000 32)
    (hv : ∀ i, (0 : Int) ≤ (v i).toInt ∧ (v i).toInt < 50000) : Cert.KernelIdeal.HostStages.clamp v = v := by
  unfold Cert.KernelIdeal.HostStages.clamp
  exact Cert.HostFacts.clip_vec _ _ v (fun _ => rfl) (fun _ => rfl) hv

/-- Clamping the source numbers changes nothing. -/
theorem clamp_srcRow (e : IVec Cert.KernelIdeal.S2x1200000 32) (h : InRange e) :
    Cert.KernelIdeal.HostStages.clamp (Cert.KernelIdeal.HostStages.srcRow e) = Cert.KernelIdeal.HostStages.srcRow e := by
  refine clamp_of_inRange _ fun i => ?_
  obtain ⟨k, hk⟩ := srcRow_entry e i
  rw [hk]
  exact h k

/-- Clamping the destination numbers changes nothing. -/
theorem clamp_dstRow (e : IVec Cert.KernelIdeal.S2x1200000 32) (h : InRange e) :
    Cert.KernelIdeal.HostStages.clamp (Cert.KernelIdeal.HostStages.dstRow e) = Cert.KernelIdeal.HostStages.dstRow e := by
  refine clamp_of_inRange _ fun i => ?_
  obtain ⟨k, hk⟩ := dstRow_entry e i
  rw [hk]
  exact h k

/-- The kernel's weighted neighbour sum is the reference's (128-wide rows). -/
theorem agg128_eq (e : IVec Cert.KernelIdeal.S2x1200000 32) (h : InRange e) (w : FVec Ideal Cert.KernelIdeal.S1200000 .f32)
    (x : FVec Ideal Cert.KernelIdeal.S50000x128 .f32) :
    Cert.KernelIdeal.HostStages.agg128 (F := Ideal) e w x = Cert.ReferenceIdeal.Stages.agg128 (F := Ideal) e w x := by
  unfold Cert.KernelIdeal.HostStages.agg128 Cert.KernelIdeal.HostStages.srcIdx Cert.KernelIdeal.HostStages.dstIdx
  rw [clamp_srcRow e h, clamp_dstRow e h]
  rfl

/-- The kernel's weighted neighbour sum is the reference's (64-wide rows). -/
theorem agg64_eq (e : IVec Cert.KernelIdeal.S2x1200000 32) (h : InRange e) (w : FVec Ideal Cert.KernelIdeal.S1200000 .f32)
    (x : FVec Ideal Cert.KernelIdeal.S50000x64 .f32) :
    Cert.KernelIdeal.HostStages.agg64 (F := Ideal) e w x = Cert.ReferenceIdeal.Stages.agg64 (F := Ideal) e w x := by
  unfold Cert.KernelIdeal.HostStages.agg64 Cert.KernelIdeal.HostStages.srcIdx Cert.KernelIdeal.HostStages.dstIdx
  rw [clamp_srcRow e h, clamp_dstRow e h]
  rfl

/-- The kernel's degree column holds the reference's degrees. -/
theorem degCol_entry (e : IVec Cert.KernelIdeal.S2x1200000 32) (h : InRange e) (r : Fin 50000) :
    Cert.KernelIdeal.HostStages.degCol (F := Ideal) e (ix2 r (0 : Fin 1)) = Cert.ReferenceIdeal.Stages.deg (F := Ideal) e (ix1 r) := by
  unfold Cert.KernelIdeal.HostStages.degCol
  refine (shapeCast_apply _ _ (ix2 r (0 : Fin 1)) (ix1 r) ?_).trans ?_
  · rw [Shape.rowMajor_val_two, Shape.rowMajor_val_one]
    show r.val = r.val * 1 + 0
    omega
  · unfold Cert.KernelIdeal.HostStages.dstIdx
    rw [clamp_dstRow e h]
    rfl

/-- A bias reshaped to a row holds the bias. -/
theorem biasRow_entry (b : FVec Ideal Cert.KernelIdeal.S64 .f32) (j : Fin 64) :
    Cert.KernelIdeal.HostStages.biasRow b (ix2 (0 : Fin 1) j) = b (ix1 j) := by
  unfold Cert.KernelIdeal.HostStages.biasRow
  refine shapeCast_apply _ _ (ix2 (0 : Fin 1) j) (ix1 j) ?_
  rw [Shape.rowMajor_val_two, Shape.rowMajor_val_one]
  show j.val = 0 * 64 + j.val
  omega

/-- The head bias reshaped to a row holds the bias. -/
theorem headBiasRow_entry (b : FVec Ideal Cert.KernelIdeal.S40 .f32) (j : Fin 40) :
    Cert.KernelIdeal.HostStages.headBiasRow b (ix2 (0 : Fin 1) j) = b (ix1 j) := by
  unfold Cert.KernelIdeal.HostStages.headBiasRow
  refine shapeCast_apply _ _ (ix2 (0 : Fin 1) j) (ix1 j) ?_
  rw [Shape.rowMajor_val_two, Shape.rowMajor_val_one]
  show j.val = 0 * 40 + j.val
  omega

/-- The three bands of the head matrix hold its rows 0–63, 64–127 and 128–191. -/
theorem band0_entry (W : FVec Ideal Cert.KernelIdeal.S192x40 .f32) (k : Fin 64) (j : Fin 40) :
    Cert.KernelIdeal.HostStages.band0 W (ix2 k j) = W (ix2 (⟨k.val, by omega⟩ : Fin 192) j) := by
  unfold Cert.KernelIdeal.HostStages.band0
  exact extractStridedSlice_apply ![0, 0] W _ (ix2 k j) _ (fun a => match a with
    | ⟨0, _⟩ => by show k.val = 0 + k.val; omega
    | ⟨1, _⟩ => by show j.val = 0 + j.val; omega)
theorem band1_entry (W : FVec Ideal Cert.KernelIdeal.S192x40 .f32) (k : Fin 64) (j : Fin 40) :
    Cert.KernelIdeal.HostStages.band1 W (ix2 k j) = W (ix2 (⟨k.val + 64, by omega⟩ : Fin 192) j) := by
  unfold Cert.KernelIdeal.HostStages.band1
  exact extractStridedSlice_apply ![64, 0] W _ (ix2 k j) _ (fun a => match a with
    | ⟨0, _⟩ => by show k.val + 64 = 64 + k.val; omega
    | ⟨1, _⟩ => by show j.val = 0 + j.val; omega)
theorem band2_entry (W : FVec Ideal Cert.KernelIdeal.S192x40 .f32) (k : Fin 64) (j : Fin 40) :
    Cert.KernelIdeal.HostStages.band2 W (ix2 k j) = W (ix2 (⟨k.val + 128, by omega⟩ : Fin 192) j) := by
  unfold Cert.KernelIdeal.HostStages.band2
  exact extractStridedSlice_apply ![128, 0] W _ (ix2 k j) _ (fun a => match a with
    | ⟨0, _⟩ => by show k.val + 128 = 128 + k.val; omega
    | ⟨1, _⟩ => by show j.val = 0 + j.val; omega)

end Cert.StageBridge

end
-- ==== Proof.PreFacts.lean ====
/-
  What the precondition says of the inputs, read back from its printed form: every float input holds real numbers
  (its absolute value compares below +∞ everywhere), and every entry of the edge list is a node number,
  `0 ≤ e < 50000` as a signed integer.
-/
import proofs.«420739_j90159953477911_3_alg».proof.Pre_finite_inputs
import proofs.«420739_j90159953477911_3_alg».proof.Proof.LibERealRows
import Idealize.ShloMosaic.Lib.ReduceAll
import Idealize.ShloMosaic.Lib.ValueIdx
import Idealize.ShloMosaic.Lib.StableHlo.Predicate

noncomputable section

namespace Cert.PreFacts

open Idealize.ShloMosaic Cert.Pre_finite_inputs

variable [Cert.Pre_finite_inputs.Facts]

/-- An array of extended reals all of whose entries are real numbers. -/
def RealArr {s : Shape} (a : s.Idx → EReal) : Prop := ∀ i, ∃ r : ℝ, a i = (r : EReal)

/-- The facts the proof uses of the fourteen inputs. -/
structure Inputs (a0 : FVec Ideal S50000x128 .f32) (a1 : IVec S2x1200000 32) (a2 : FVec Ideal S1200000 .f32)
    (a3 a4 : FVec Ideal S128x64 .f32) (a5 : FVec Ideal S64 .f32) (a6 a7 : FVec Ideal S64x64 .f32)
    (a8 : FVec Ideal S64 .f32) (a9 a10 : FVec Ideal S64x64 .f32) (a11 : FVec Ideal S64 .f32)
    (a12 : FVec Ideal S192x40 .f32) (a13 : FVec Ideal S40 .f32) : Prop where
  r0 : RealArr a0
  r2 : RealArr a2
  r3 : RealArr a3
  r4 : RealArr a4
  r5 : RealArr a5
  r6 : RealArr a6
  r7 : RealArr a7
  r8 : RealArr a8
  r9 : RealArr a9
  r10 : RealArr a10
  r11 : RealArr a11
  r12 : RealArr a12
  r13 : RealArr a13
  range : ∀ i, (0 : Int) ≤ (a1 i).toInt ∧ (a1 i).toInt < 50000

/-- The scalar shape has one index, so a reduction over every axis lands every operand index on it. -/
instance subsingleton_scalarIdx : Subsingleton S_.Idx := ⟨fun _ _ => funext fun d => d.elim0⟩

/-- A conjunction of two scalar truth values is true exactly when both are. -/
theorem andi_ix0 (x y : IVec S_ 1) :
    andi x y ValueIdx.ix0 = 1#1 ↔ x ValueIdx.ix0 = 1#1 ∧ y ValueIdx.ix0 = 1#1 :=
  IntOp.andi_eq_one

/-- One float conjunct, at any shape: if the conjunction over all entries of `|x| < +∞` is true, every entry of `x`
    is a real number. The conjunction being true makes each entry's comparison true, and an extended real whose
    absolute value `max x (−x)` lies below `+∞` is neither infinity. -/
theorem real_of_all {s : Shape} (x : FVec Ideal s .f32) (hb : S_.BroadcastsInDim s (![] : Fin 0 → Fin s.rank))
    {axes : List (Fin s.rank)} (hr : s.ReducesTo axes S_) (h0 : 0 < S_.numel)
    (e : Host.reduce IntOp.andi (cmpf .olt (Host.absf x) (broadcastInDim s ![] hb (constant S_ .f32 0x7F800000#32)))
      (constantI S_ 1 1#1) hr h0 ValueIdx.ix0 = 1#1) : RealArr x := by
  intro i
  have hi := Host.reduce_andi_all _ _ hr h0 _ e i
  exact Cert.ERealRows.real_of_abs_lt_inf (x i) hi

/-- The integer conjunct, at any shape: if the conjunction over all entries of `(a ≥ 0) ∧ (a < 50000)`, both compared
    as signed words, is true, every entry read as a signed integer lies in `[0, 50000)`. -/
theorem range_of_all {s : Shape} (a : IVec s 32) (hb : S_.BroadcastsInDim s (![] : Fin 0 → Fin s.rank))
    {axes : List (Fin s.rank)} (hr : s.ReducesTo axes S_) (h0 : 0 < S_.numel)
    (e : Host.reduce IntOp.andi (andi (cmpi .sge a (broadcastInDim s ![] hb (constantI S_ 32 0#32)))
        (cmpi .slt a (broadcastInDim s ![] hb (constantI S_ 32 50000#32))))
      (constantI S_ 1 1#1) hr h0 ValueIdx.ix0 = 1#1) : ∀ i, (0 : Int) ≤ (a i).toInt ∧ (a i).toInt < 50000 := by
  intro i
  have hi := Host.reduce_andi_all _ _ hr h0 _ e i
  obtain ⟨h1, h2⟩ := IntOp.andi_eq_one.1 hi
  constructor
  · -- `a ≥ 0` signed is `0 ≤ a` on the signed values, and the word 0 has signed value 0
    have h1' : IntOp.cmpi .sge (a i) 0#32 = 1#1 := h1
    simpa [IntOp.cmpi, BitVec.sle, StableHlo.Predicate.ofBool_eq_one_iff] using h1'
  · -- `a < 50000` signed is `<` on the signed values, and the word 50000 has signed value 50000
    have h2' : IntOp.cmpi .slt (a i) 50000#32 = 1#1 := h2
    simpa [IntOp.cmpi, BitVec.slt, StableHlo.Predicate.ofBool_eq_one_iff] using h2'

/-- The printed precondition, all ones, gives those facts. -/
theorem inputs_of_pre (a0 : FVec Ideal S50000x128 .f32) (a1 : IVec S2x1200000 32) (a2 : FVec Ideal S1200000 .f32)
    (a3 a4 : FVec Ideal S128x64 .f32) (a5 : FVec Ideal S64 .f32) (a6 a7 : FVec Ideal S64x64 .f32)
    (a8 : FVec Ideal S64 .f32) (a9 a10 : FVec Ideal S64x64 .f32) (a11 : FVec Ideal S64 .f32)
    (a12 : FVec Ideal S192x40 .f32) (a13 : FVec Ideal S40 .f32)
    (h : Cert.Pre_finite_inputs.fn (F := Ideal) a0 a1 a2 a3 a4 a5 a6 a7 a8 a9 a10 a11 a12 a13 = fun _ => 1#1) :
    Inputs a0 a1 a2 a3 a4 a5 a6 a7 a8 a9 a10 a11 a12 a13 := by
  -- the function's one value is a left-nested conjunction of fourteen reductions; split it into its conjuncts
  have h0 := congrFun h ValueIdx.ix0
  dsimp only [fn, fn_part1, fn_part2, fn_part3, fn_part4] at h0
  simp only [andi_ix0] at h0
  obtain ⟨⟨⟨⟨⟨⟨⟨⟨⟨⟨⟨⟨⟨e0, e2⟩, e3⟩, e4⟩, e5⟩, e6⟩, e7⟩, e8⟩, e9⟩, e10⟩, e11⟩, e12⟩, e13⟩, e1⟩ := h0
  exact
    { r0 := real_of_all a0 _ _ _ e0
      r2 := real_of_all a2 _ _ _ e2
      r3 := real_of_all a3 _ _ _ e3
      r4 := real_of_all a4 _ _ _ e4
      r5 := real_of_all a5 _ _ _ e5
      r6 := real_of_all a6 _ _ _ e6
      r7 := real_of_all a7 _ _ _ e7
      r8 := real_of_all a8 _ _ _ e8
      r9 := real_of_all a9 _ _ _ e9
      r10 := real_of_all a10 _ _ _ e10
      r11 := real_of_all a11 _ _ _ e11
      r12 := real_of_all a12 _ _ _ e12
      r13 := real_of_all a13 _ _ _ e13
      range := range_of_all a1 _ _ _ e1 }

end Cert.PreFacts

end
-- ==== Proof.Bridge.lean ====
/-
  The two programs' results are one array. At every node both are the log-softmax of the same forty logits:
  under the precondition the kernel's clamped index vectors are the reference's, so its neighbour sums, degrees and
  with them its first two layers' arrays are the reference's; the kernel's three band products add up to the
  reference's product with the concatenated row; and the two spellings of the log-softmax agree because the logits
  are real numbers — every input is real, and sums, products, quotients by a divisor at least one, and maxima with
  zero keep real numbers real.
-/
import proofs.«420739_j90159953477911_3_alg».proof.Defs
import proofs.«420739_j90159953477911_3_alg».proof.Proof.Gen.Pre_finite_inputs
import proofs.«420739_j90159953477911_3_alg».proof.Proof.KernelEval
import proofs.«420739_j90159953477911_3_alg».proof.Proof.RefEval
import proofs.«420739_j90159953477911_3_alg».proof.Proof.RefRows
import proofs.«420739_j90159953477911_3_alg».proof.Proof.RefReal
import proofs.«420739_j90159953477911_3_alg».proof.Proof.StageBridge
import proofs.«420739_j90159953477911_3_alg».proof.Proof.PreFacts

set_option maxRecDepth 16384

noncomputable section

namespace Cert.Bridge

open Cert.KernelIdeal Cert.KernelIdeal.Gen Cert.KernelIdeal.HostStages Cert.KernelIdeal.FoldEval Cert.GraphRows
open Idealize.ShloMosaic Idealize.ShloMosaic.ValueIdx Idealize.ShloMosaic.TcCoe Idealize.SL.Sem Idealize.ShloMosaic.StableHlo

variable (m : (ℓ : Loc nD τ sig) → Buf (Elt Ideal) ℓ) (ρ : Dev nD → PrngReg) (c : Dev nD)

/-- What the precondition says of the fourteen input arrays of core `c`. -/
theorem inputs (hpre : Cert.Pre_KernelIdeal m) :
    Cert.PreFacts.Inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  Cert.PreFacts.inputs_of_pre _ _ _ _ _ _ _ _ _ _ _ _ _ _ (hpre c)

/-- The kernel's first layer array is the reference's. -/
theorem lay1_eq (hR : Cert.StageBridge.InRange (m ((c : Thread nD τ).loc main_arg1))) :
    lay1 m c = (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  funext i
  obtain ⟨r, q, rfl⟩ : ∃ (r : Fin 50000) (q : Fin 64), i = ix2 r q := ⟨i 0, i 1, eq_ix2 i⟩
  unfold Cert.ReferenceIdeal.Stages.x1
  rw [Cert.ReferenceIdeal.StageRows.layer128_row]
  show layRow _ _ _ _ _ _ q = _
  rw [Cert.StageBridge.agg128_eq _ hR, Cert.StageBridge.degCol_entry _ hR]
  simp only [Cert.StageBridge.biasRow_entry]

/-- The kernel's second layer array is the reference's. -/
theorem lay2_eq (hR : Cert.StageBridge.InRange (m ((c : Thread nD τ).loc main_arg1))) :
    lay2 m c = (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) := by
  funext i
  obtain ⟨r, q, rfl⟩ : ∃ (r : Fin 50000) (q : Fin 64), i = ix2 r q := ⟨i 0, i 1, eq_ix2 i⟩
  unfold Cert.ReferenceIdeal.Stages.xNext
  rw [Cert.ReferenceIdeal.StageRows.layer64_row]
  show layRow _ _ _ _ _ _ q = _
  rw [lay1_eq m c hR, Cert.StageBridge.agg64_eq _ hR, Cert.StageBridge.degCol_entry _ hR]
  simp only [Cert.StageBridge.biasRow_entry]

/-- The three layer arrays hold real numbers. -/
theorem x1_real (hin : Cert.PreFacts.Inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) : Cert.HostFacts.RealArr (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  unfold Cert.ReferenceIdeal.Stages.x1
  exact Cert.ReferenceIdeal.StageReal.layer128_real _ _ _ _ _ _
    (Cert.ReferenceIdeal.StageReal.agg128_real _ _ _ (fun i => hin.r2 i) (fun i => hin.r0 i)) (fun i => hin.r0 i)
    (Cert.ReferenceIdeal.StageReal.deg_real _) (fun i => hin.r3 i) (fun i => hin.r4 i) (fun i => hin.r5 i)

theorem x2_real (hin : Cert.PreFacts.Inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) : Cert.HostFacts.RealArr (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) := by
  unfold Cert.ReferenceIdeal.Stages.xNext
  exact Cert.ReferenceIdeal.StageReal.layer64_real _ _ _ _ _ _
    (Cert.ReferenceIdeal.StageReal.agg64_real _ _ _ (fun i => hin.r2 i) (x1_real m c hin)) (x1_real m c hin)
    (Cert.ReferenceIdeal.StageReal.deg_real _) (fun i => hin.r6 i) (fun i => hin.r7 i) (fun i => hin.r8 i)

theorem x3_real (hin : Cert.PreFacts.Inputs (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) : Cert.HostFacts.RealArr (Cert.ReferenceIdeal.Stages.xNext (F := Ideal) (m ((c : Thread nD τ).loc main_arg1)) (m ((c : Thread nD τ).loc main_arg2)) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) := by
  unfold Cert.ReferenceIdeal.Stages.xNext
  exact Cert.ReferenceIdeal.StageReal.layer64_real _ _ _ _ _ _
    (Cert.ReferenceIdeal.StageReal.agg64_real _ _ _ (fun i => hin.r2 i) (x2_real m c hin)) (x2_real m c hin)
    (Cert.ReferenceIdeal.StageReal.deg_real _) (fun i => hin.r9 i) (fun i => hin.r10 i) (fun i => hin.r11 i)

/-- The kernel's result array is the reference's. -/
theorem result_eq (hpre : Cert.Pre_KernelIdeal m) :
    W10 (F := Ideal) m ρ c (Proc.devRef .tc main_v59)
      = Cert.ReferenceIdeal.Stages.logSoftmax (F := Ideal)
          (Cert.ReferenceIdeal.Stages.logits (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (Cert.ReferenceIdeal.Stages.xNext (F := Ideal) (m ((c : Thread nD τ).loc main_arg1)) (m ((c : Thread nD τ).loc main_arg2)) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (m ((c : Thread nD τ).loc main_arg12)) (m ((c : Thread nD τ).loc main_arg13))) := by
  have hin := inputs m c hpre
  have hR : Cert.StageBridge.InRange (m ((c : Thread nD τ).loc main_arg1)) := hin.range
  funext i
  obtain ⟨r, j, rfl⟩ : ∃ (r : Fin 50000) (j : Fin 40), i = ix2 r j := ⟨i 0, i 1, eq_ix2 i⟩
  rw [result_entry, Cert.ReferenceIdeal.StageRows.head_row, logitsCat_eq_bands]
  rw [lay1_eq m c hR, lay2_eq m c hR, Cert.StageBridge.agg64_eq _ hR, Cert.StageBridge.degCol_entry _ hR]
  simp only [Cert.StageBridge.biasRow_entry, Cert.StageBridge.headBiasRow_entry, Cert.StageBridge.band0_entry,
    Cert.StageBridge.band1_entry, Cert.StageBridge.band2_entry]
  have hx3 : (fun k : Fin 64 => (Cert.ReferenceIdeal.Stages.xNext (F := Ideal) (m ((c : Thread nD τ).loc main_arg1)) (m ((c : Thread nD τ).loc main_arg2)) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (ix2 r k))
      = layRow (fun k : Fin 64 => Cert.ReferenceIdeal.Stages.agg64 (F := Ideal) (m ((c : Thread nD τ).loc main_arg1)) (m ((c : Thread nD τ).loc main_arg2)) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (ix2 r k))
          (fun k : Fin 64 => (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (ix2 r k))
          (Cert.ReferenceIdeal.Stages.deg (F := Ideal) (m ((c : Thread nD τ).loc main_arg1)) (ix1 r))
          (fun (k : Fin 64) (j' : Fin 64) => (m ((c : Thread nD τ).loc main_arg9)) (ix2 k j')) (fun (k : Fin 64) (j' : Fin 64) => (m ((c : Thread nD τ).loc main_arg10)) (ix2 k j'))
          (fun j' : Fin 64 => (m ((c : Thread nD τ).loc main_arg11)) (ix1 j')) := by
    funext k
    exact Cert.ReferenceIdeal.StageRows.layer64_row _ _ _ _ _ _ r k
  have h3 : RealRow (fun k : Fin 64 => (Cert.ReferenceIdeal.Stages.xNext (F := Ideal) (m ((c : Thread nD τ).loc main_arg1)) (m ((c : Thread nD τ).loc main_arg2)) (Cert.ReferenceIdeal.Stages.xNext (F := Ideal) (m ((c : Thread nD τ).loc main_arg1)) (m ((c : Thread nD τ).loc main_arg2)) (Cert.ReferenceIdeal.Stages.x1 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)) (m ((c : Thread nD τ).loc main_arg7)) (m ((c : Thread nD τ).loc main_arg8))) (m ((c : Thread nD τ).loc main_arg9)) (m ((c : Thread nD τ).loc main_arg10)) (m ((c : Thread nD τ).loc main_arg11))) (ix2 r k)) := fun k => x3_real m c hin (ix2 r k)
  rw [hx3] at h3 ⊢
  exact congrFun (lsmOuter_eq_lsmInner (logitsBands_real (fun k => x1_real m c hin (ix2 r k))
    (fun k => x2_real m c hin (ix2 r k)) h3 (fun k j' => hin.r12 _) (fun k j' => hin.r12 _) (fun k j' => hin.r12 _)
    (fun j' => hin.r13 _))) j

end Cert.Bridge

end
-- ==== Proof.lean ====
/-
  The certificate of a three-layer mean-aggregating graph convolution with a log-softmax head: a Pallas program of
  three launches among host gathers and scatter-adds against its plain array-program reference.

  Statement edit: the precondition also asks that every entry of the edge list be a node number in `[0, 50000)`; the
  kernel clamps the edge list into that range where the reference wraps or drops, so outside it the two differ.

  The three frames: the two kernel programs' are the generated frame certificates; the reference's is its run with the
  result dropped. The idealization rewrote nothing. The value claim: the kernel program's run ends with its result
  buffer at the last boundary of the generated fold, which is, node by node, the log-softmax of the node's logits
  (the three launches' tiles cover the nodes; each launch's body is a layer's row or the head's row of a node); the
  reference's run ends with its result at the fold of its operations, which is the head of the three layers applied in
  turn; and under the precondition the two arrays are one.
-/
import proofs.«420739_j90159953477911_3_alg».proof.Defs
import proofs.«420739_j90159953477911_3_alg».proof.Proof.Gen.Kernel
import proofs.«420739_j90159953477911_3_alg».proof.Proof.Gen.Kernel.Frame
import proofs.«420739_j90159953477911_3_alg».proof.Proof.Gen.KernelIdeal
import proofs.«420739_j90159953477911_3_alg».proof.Proof.Gen.KernelIdeal.Frame
import proofs.«420739_j90159953477911_3_alg».proof.Proof.Gen.ReferenceIdeal
import proofs.«420739_j90159953477911_3_alg».proof.Proof.Gen.Pre_finite_inputs
import proofs.«420739_j90159953477911_3_alg».proof.Proof.KernelRun
import proofs.«420739_j90159953477911_3_alg».proof.Proof.RefRun
import proofs.«420739_j90159953477911_3_alg».proof.Proof.RefEval
import proofs.«420739_j90159953477911_3_alg».proof.Proof.Bridge

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.Fold.run (F := Ideal) m ρ)

/-- The idealization rewrote no operation. -/
theorem preserves : Cert.preserves_Kernel_KernelIdeal := trivial

/-- Both programs run, and from memories agreeing on the arguments they end with one result array. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v59),
    Cert.KernelIdeal.ResultRun.run_result m ρ, ?_⟩
  refine (θ_run Cert.ReferenceIdeal.defs _ _).mono (fun _ h c => ⟨(h c).1.trans ?_, (h c).2⟩)
    (Cert.ReferenceIdeal.Fold.run (F := Ideal) m' ρ')
  rw [Cert.ReferenceIdeal.FoldEval.fold_result]
  obtain ⟨h0, h1, h2, h3, h4, h5, h6, h7, h8, h9, h10, h11, h12, h13⟩ := hagree c
  rw [h0, h1, h2, h3, h4, h5, h6, h7, h8, h9, h10, h11, h12, h13]
  exact (Cert.Bridge.result_eq m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
